-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S2000000 : Shape := ⟨1, ![2000000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_arg13 : IVec S2000000 32) (main_v48 : IVec S_ 1) (main_v49 : FVec F S32x2 .f32) (main_v50 : FVec F S32x2 .f32) : IVec S_ 1 :=
  let main_v51 : IVec S32x2 1 := cmpf .olt main_v49 main_v50
  let main_c_19 : IVec S_ 1 := constantI S_ 1 1#1
  let main_v52 : IVec S_ 1 := (fun x v => Host.reduce IntOp.andi x v reducesTo_S32x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_c_22 : IVec S_ 32 := constantI S_ 32 0#32
  let main_v59 : IVec S2000000 32 := broadcastInDim S2000000 ![] bcast_S_S2000000 main_c_22
  let main_v60 : IVec S2000000 1 := cmpi .sge main_arg13 main_v59
  let main_c_23 : IVec S_ 32 := constantI S_ 32 500000#32
  let main_v61 : IVec S2000000 32 := broadcastInDim S2000000 ![] bcast_S_S2000000 main_c_23
  let main_v62 : IVec S2000000 1 := cmpi .slt main_arg13 main_v61
  let main_v63 : IVec S2000000 1 := andi main_v60 main_v62
  let main_c_24 : IVec S_ 1 := constantI S_ 1 1#1
  let main_v64 : IVec S_ 1 := (fun x v => Host.reduce IntOp.andi x v reducesTo_S2000000_S_d0 h_S_) main_v63 main_c_24
  let main_v65 : IVec S_ 1 := andi main_v58 main_v64
  main_v65

def fn_part2 {F : FTy → Type} [FloatOps F] (main_arg7 : FVec F S64 .f32) (main_arg8 : FVec F S64x32 .f32) (main_arg9 : FVec F S32 .f32) (main_arg10 : FVec F S32x2 .f32) (main_arg11 : FVec F S2 .f32) (main_arg13 : IVec S2000000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x2 .f32 := Host.absf main_arg10
  let main_cst_18 : FVec F S_ .f32 := constant S_ .f32 0x7F800000#32
  let main_v50 : FVec F S32x2 .f32 := broadcastInDim S32x2 ![] bcast_S_S32x2 main_cst_18
  fn_part3 (F := F) main_arg11 main_arg13 main_v48 main_v49 main_v50

def fn_part1 {F : FTy → Type} [FloatOps F] (main_arg4 : FVec F S64x128 .f32) (main_arg5 : FVec F S128 .f32) (main_arg6 : FVec F S128x64 .f32) (main_arg7 : FVec F S64 .f32) (main_arg8 : FVec F S64x32 .f32) (main_arg9 : FVec F S32 .f32) (main_arg10 : FVec F S32x2 .f32) (main_arg11 : FVec F S2 .f32) (main_arg13 : IVec S2000000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg13 main_v33

def fn {F : FTy → Type} [FloatOps F] (main_arg0 : FVec F S500000x32 .f32) (main_arg1 : FVec F S2000000 .f32) (main_arg2 : FVec F S32x64 .f32) (main_arg3 : FVec F S64 .f32) (main_arg4 : FVec F S64x128 .f32) (main_arg5 : FVec F S128 .f32) (main_arg6 : FVec F S128x64 .f32) (main_arg7 : FVec F S64 .f32) (main_arg8 : FVec F S64x32 .f32) (main_arg9 : FVec F S32 .f32) (main_arg10 : FVec F S32x2 .f32) (main_arg11 : FVec F S2 .f32) (main_arg12 : IVec S2000000 32) (main_arg13 : IVec S2000000 32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg13 main_v13 main_v16
-- ==== Kernel.lean ====
abbrev S500000x32 : Shape := ⟨2, ![500000, 32]⟩
abbrev S2000000 : Shape := ⟨1, ![2000000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S500000x64 : Shape := ⟨2, ![500000, 64]⟩
abbrev S10000x32 : Shape := ⟨2, ![10000, 32]⟩
abbrev S10000x64 : Shape := ⟨2, ![10000, 64]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x64 : Shape := ⟨2, ![2000000, 64]⟩
abbrev S1x64 : Shape := ⟨2, ![1, 64]⟩
abbrev S500000x128 : Shape := ⟨2, ![500000, 128]⟩
abbrev S10000x128 : Shape := ⟨2, ![10000, 128]⟩
abbrev S2000000x128 : Shape := ⟨2, ![2000000, 128]⟩
abbrev S1x128 : Shape := ⟨2, ![1, 128]⟩
abbrev S2000000x32 : Shape := ⟨2, ![2000000, 32]⟩
abbrev S1x32 : Shape := ⟨2, ![1, 32]⟩
abbrev S500000x2 : Shape := ⟨2, ![500000, 2]⟩
abbrev S10000x2 : Shape := ⟨2, ![10000, 2]⟩
abbrev S2000000x2 : Shape := ⟨2, ![2000000, 2]⟩
abbrev S1x2 : Shape := ⟨2, ![1, 2]⟩

abbrev nBuf : Space → Nat
  | .hbm => 179
  | .vmem => 50
  | .smem => 0
  | _ => 0

abbrev hbmTy0_0 (i : Nat) : BufTy := match i % 128 with
  | 0 => ⟨S500000x32, .f32⟩
  | 1 => ⟨S2000000, .f32⟩
  | 2 => ⟨S32x64, .f32⟩
  | 3 => ⟨S64, .f32⟩
  | 4 => ⟨S64x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32x2, .f32⟩
  | 11 => ⟨S2, .f32⟩
  | 12 => ⟨S2000000, .i32⟩
  | 13 => ⟨S2000000, .i32⟩
  | 14 => ⟨S500000x64, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S1, .i32⟩
  | 24 => ⟨S_, .i32⟩
  | 25 => ⟨S2000000x1, .i32⟩
  | 26 => ⟨S2000000x1, .i1⟩
  | 27 => ⟨S1x1, .i32⟩
  | 28 => ⟨S2000000x1, .i32⟩
  | 29 => ⟨S2000000x1, .i1⟩
  | 30 => ⟨S2000000x1, .i1⟩
  | 31 => ⟨S_, .i1⟩
  | 32 => ⟨S2000000, .i1⟩
  | 33 => ⟨S2000000x64, .f32⟩
  | 34 => ⟨S2000000x64, .i1⟩
  | 35 => ⟨S_, .f32⟩
  | 36 => ⟨S2000000x64, .f32⟩
  | 37 => ⟨S2000000x64, .f32⟩
  | 38 => ⟨S2000000x1, .f32⟩
  | 39 => ⟨S2000000x64, .f32⟩
  | 40 => ⟨S2000000x64, .f32⟩
  | 41 => ⟨S_, .f32⟩
  | 42 => ⟨S500000x64, .f32⟩
  | 43 => ⟨S2000000x1, .i32⟩
  | 44 => ⟨S500000x64, .f32⟩
  | 45 => ⟨S1x64, .f32⟩
  | 46 => ⟨S500000x64, .f32⟩
  | 47 => ⟨S500000x128, .f32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S1, .i32⟩
  | 57 => ⟨S_, .i32⟩
  | 58 => ⟨S2000000x1, .i32⟩
  | 59 => ⟨S2000000x1, .i1⟩
  | 60 => ⟨S1x1, .i32⟩
  | 61 => ⟨S2000000x1, .i32⟩
  | 62 => ⟨S2000000x1, .i1⟩
  | 63 => ⟨S2000000x1, .i1⟩
  | 64 => ⟨S_, .i1⟩
  | 65 => ⟨S2000000, .i1⟩
  | 66 => ⟨S2000000x128, .f32⟩
  | 67 => ⟨S2000000x128, .i1⟩
  | 68 => ⟨S_, .f32⟩
  | 69 => ⟨S2000000x128, .f32⟩
  | 70 => ⟨S2000000x128, .f32⟩
  | 71 => ⟨S2000000x1, .f32⟩
  | 72 => ⟨S2000000x128, .f32⟩
  | 73 => ⟨S2000000x128, .f32⟩
  | 74 => ⟨S_, .f32⟩
  | 75 => ⟨S500000x128, .f32⟩
  | 76 => ⟨S2000000x1, .i32⟩
  | 77 => ⟨S500000x128, .f32⟩
  | 78 => ⟨S1x128, .f32⟩
  | 79 => ⟨S500000x128, .f32⟩
  | 80 => ⟨S500000x64, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S1, .i32⟩
  | 90 => ⟨S_, .i32⟩
  | 91 => ⟨S2000000x1, .i32⟩
  | 92 => ⟨S2000000x1, .i1⟩
  | 93 => ⟨S1x1, .i32⟩
  | 94 => ⟨S2000000x1, .i32⟩
  | 95 => ⟨S2000000x1, .i1⟩
  | 96 => ⟨S2000000x1, .i1⟩
  | 97 => ⟨S_, .i1⟩
  | 98 => ⟨S2000000, .i1⟩
  | 99 => ⟨S2000000x64, .f32⟩
  | 100 => ⟨S2000000x64, .i1⟩
  | 101 => ⟨S_, .f32⟩
  | 102 => ⟨S2000000x64, .f32⟩
  | 103 => ⟨S2000000x64, .f32⟩
  | 104 => ⟨S2000000x1, .f32⟩
  | 105 => ⟨S2000000x64, .f32⟩
  | 106 => ⟨S2000000x64, .f32⟩
  | 107 => ⟨S_, .f32⟩
  | 108 => ⟨S500000x64, .f32⟩
  | 109 => ⟨S2000000x1, .i32⟩
  | 110 => ⟨S500000x64, .f32⟩
  | 111 => ⟨S1x64, .f32⟩
  | 112 => ⟨S500000x64, .f32⟩
  | 113 => ⟨S500000x32, .f32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S1, .i32⟩
  | 123 => ⟨S_, .i32⟩
  | 124 => ⟨S2000000x1, .i32⟩
  | 125 => ⟨S2000000x1, .i1⟩
  | 126 => ⟨S1x1, .i32⟩
  | 127 => ⟨S2000000x1, .i32⟩
  | _ => ⟨S500000x32, .f32⟩

abbrev hbmTy0_1 (i : Nat) : BufTy := match i % 128 with
  | 0 => ⟨S2000000x1, .i1⟩
  | 1 => ⟨S2000000x1, .i1⟩
  | 2 => ⟨S_, .i1⟩
  | 3 => ⟨S2000000, .i1⟩
  | 4 => ⟨S2000000x32, .f32⟩
  | 5 => ⟨S2000000x32, .i1⟩
  | 6 => ⟨S_, .f32⟩
  | 7 => ⟨S2000000x32, .f32⟩
  | 8 => ⟨S2000000x32, .f32⟩
  | 9 => ⟨S2000000x1, .f32⟩
  | 10 => ⟨S2000000x32, .f32⟩
  | 11 => ⟨S2000000x32, .f32⟩
  | 12 => ⟨S_, .f32⟩
  | 13 => ⟨S500000x32, .f32⟩
  | 14 => ⟨S2000000x1, .i32⟩
  | 15 => ⟨S500000x32, .f32⟩
  | 16 => ⟨S1x32, .f32⟩
  | 17 => ⟨S500000x32, .f32⟩
  | 18 => ⟨S500000x2, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S1, .i32⟩
  | 28 => ⟨S_, .i32⟩
  | 29 => ⟨S2000000x1, .i32⟩
  | 30 => ⟨S2000000x1, .i1⟩
  | 31 => ⟨S1x1, .i32⟩
  | 32 => ⟨S2000000x1, .i32⟩
  | 33 => ⟨S2000000x1, .i1⟩
  | 34 => ⟨S2000000x1, .i1⟩
  | 35 => ⟨S_, .i1⟩
  | 36 => ⟨S2000000, .i1⟩
  | 37 => ⟨S2000000x2, .f32⟩
  | 38 => ⟨S2000000x2, .i1⟩
  | 39 => ⟨S_, .f32⟩
  | 40 => ⟨S2000000x2, .f32⟩
  | 41 => ⟨S2000000x2, .f32⟩
  | 42 => ⟨S2000000x1, .f32⟩
  | 43 => ⟨S2000000x2, .f32⟩
  | 44 => ⟨S2000000x2, .f32⟩
  | 45 => ⟨S_, .f32⟩
  | 46 => ⟨S500000x2, .f32⟩
  | 47 => ⟨S2000000x1, .i32⟩
  | 48 => ⟨S500000x2, .f32⟩
  | 49 => ⟨S1x2, .f32⟩
  | 50 => ⟨S500000x2, .f32⟩
  | _ => ⟨S500000x32, .f32⟩

abbrev hbmTy (i : Nat) : BufTy := match i / 128 with
  | 0 => hbmTy0_0 i
  | 1 => hbmTy0_1 i
  | _ => ⟨S500000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S1x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S32x2, .f32⟩
  | .local _ .vmem, ⟨43, _⟩ => ⟨S10000x2, .f32⟩
  | .local _ .vmem, ⟨44, _⟩ => ⟨S10000x2, .f32⟩
  | .local _ .vmem, ⟨45, _⟩ => ⟨S10000x2, .f32⟩
  | .local _ .vmem, ⟨46, _⟩ => ⟨S10000x2, .f32⟩
  | .local _ .vmem, ⟨47, _⟩ => ⟨S1x2, .f32⟩
  | .local _ .vmem, ⟨48, _⟩ => ⟨S10000x2, .f32⟩
  | .local _ .vmem, ⟨49, _⟩ => ⟨S10000x2, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_cst_0 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_cst_1 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_cst_2 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_cst_3 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩
abbrev main_v48 : Ref sig .tc := ⟨.hbm, 177, rfl⟩
abbrev main_v49 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x2 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x2 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x2 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S2000000_S2000000x128_0 : S2000000.BroadcastsInDim S2000000x128 (![0] : Fin 1 → Fin S2000000x128.rank)
  bcast_S_S2000000x128 : S_.BroadcastsInDim S2000000x128 (![] : Fin 0 → Fin S2000000x128.rank)
  bcast_S2000000x1_S2000000x128_0_1 : S2000000x1.BroadcastsInDim S2000000x128 (![0, 1] : Fin 2 → Fin S2000000x128.rank)
  bcast_S_S500000x128 : S_.BroadcastsInDim S500000x128 (![] : Fin 0 → Fin S500000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  bcast_S2000000_S2000000x32_0 : S2000000.BroadcastsInDim S2000000x32 (![0] : Fin 1 → Fin S2000000x32.rank)
  bcast_S_S2000000x32 : S_.BroadcastsInDim S2000000x32 (![] : Fin 0 → Fin S2000000x32.rank)
  bcast_S2000000x1_S2000000x32_0_1 : S2000000x1.BroadcastsInDim S2000000x32 (![0, 1] : Fin 2 → Fin S2000000x32.rank)
  bcast_S_S500000x32 : S_.BroadcastsInDim S500000x32 (![] : Fin 0 → Fin S500000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x2_S32x2_0_0 : ∀ a, (![0, 0] : Fin 2 → Nat) a + S32x2.size a ≤ S32x2.size a
  h_S32x2 : 0 < S32x2.numel
  inb_S10000x2_S10000x2_0_0 : ∀ a, (![0, 0] : Fin 2 → Nat) a + S10000x2.size a ≤ S10000x2.size a
  h_S10000x2 : 0 < S10000x2.numel
  bcast_S2000000_S2000000x2_0 : S2000000.BroadcastsInDim S2000000x2 (![0] : Fin 1 → Fin S2000000x2.rank)
  bcast_S_S2000000x2 : S_.BroadcastsInDim S2000000x2 (![] : Fin 0 → Fin S2000000x2.rank)
  bcast_S2000000x1_S2000000x2_0_1 : S2000000x1.BroadcastsInDim S2000000x2 (![0, 1] : Fin 2 → Fin S2000000x2.rank)
  bcast_S_S500000x2 : S_.BroadcastsInDim S500000x2 (![] : Fin 0 → Fin S500000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  dot_S10000x32_S32x64_S10000x64_1_0_0_1_n_n_wf : DotDims.WF S10000x32 S32x64 S10000x64 [1] [0] [0] [1] [] []
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  dot_S10000x64_S64x128_S10000x128_1_0_0_1_n_n_wf : DotDims.WF S10000x64 S64x128 S10000x128 [1] [0] [0] [1] [] []
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  gather_S500000x32_S2000000x1_S2000000x32_1_0_n_n_0_1_132_wf : GatherDims.WF S500000x32 S2000000x1 S2000000x32 [1] [0] [] [0] [] 1 ![1, 32]
  scatter_S500000x32_S2000000x1_S2000000x32_1_0_0_1_wf : ScatterDims.WF S500000x32 S2000000x1 S2000000x32 [1] [0] [0] 1
  dot_S10000x32_S32x2_S10000x2_1_0_0_1_n_n_wf : DotDims.WF S10000x32 S32x2 S10000x2 [1] [0] [0] [1] [] []
  gather_S500000x2_S2000000x1_S2000000x2_1_0_n_n_0_1_12_wf : GatherDims.WF S500000x2 S2000000x1 S2000000x2 [1] [0] [] [0] [] 1 ![1, 2]
  scatter_S500000x2_S2000000x1_S2000000x2_1_0_0_1_wf : ScatterDims.WF S500000x2 S2000000x1 S2000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S500000x32.size a
  hwx0_0 : ∀ i : grid0.Coords, EltTy.bits .f32 = 32 ∨ (Rect.block (s := S500000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S500000x64.size a
  hwx0_2 : ∀ i : grid0.Coords, EltTy.bits .f32 = 32 ∨ (Rect.block (s := S500000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S500000x64.size a
  hwx1_0 : ∀ i : grid1.Coords, EltTy.bits .f32 = 32 ∨ (Rect.block (s := S500000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S500000x64.size a
  hwx1_2 : ∀ i : grid1.Coords, EltTy.bits .f32 = 32 ∨ (Rect.block (s := S500000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S500000x128.size a
  hwx2_2 : ∀ i : grid2.Coords, EltTy.bits .f32 = 32 ∨ (Rect.block (s := S500000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S500000x128.size a
  hwx3_0 : ∀ i : grid3.Coords, EltTy.bits .f32 = 32 ∨ (Rect.block (s := S500000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S500000x128.size a
  hwx3_2 : ∀ i : grid3.Coords, EltTy.bits .f32 = 32 ∨ (Rect.block (s := S500000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S500000x128.size a
  hwx4_0 : ∀ i : grid4.Coords, EltTy.bits .f32 = 32 ∨ (Rect.block (s := S500000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S500000x64.size a
  hwx4_2 : ∀ i : grid4.Coords, EltTy.bits .f32 = 32 ∨ (Rect.block (s := S500000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S500000x64.size a
  hwx5_0 : ∀ i : grid5.Coords, EltTy.bits .f32 = 32 ∨ (Rect.block (s := S500000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S500000x64.size a
  hwx5_2 : ∀ i : grid5.Coords, EltTy.bits .f32 = 32 ∨ (Rect.block (s := S500000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S500000x64.size a
  hwx6_0 : ∀ i : grid6.Coords, EltTy.bits .f32 = 32 ∨ (Rect.block (s := S500000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S500000x32.size a
  hwx6_2 : ∀ i : grid6.Coords, EltTy.bits .f32 = 32 ∨ (Rect.block (s := S500000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S500000x32.size a
  hwx7_0 : ∀ i : grid7.Coords, EltTy.bits .f32 = 32 ∨ (Rect.block (s := S500000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S500000x32.size a
  hwx7_2 : ∀ i : grid7.Coords, EltTy.bits .f32 = 32 ∨ (Rect.block (s := S500000x32) S10000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S500000x32.size a
  hwx8_0 : ∀ i : grid8.Coords, EltTy.bits .f32 = 32 ∨ (Rect.block (s := S500000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x2.size a ≤ S32x2.size a
  hwx8_1 : ∀ i : grid8.Coords, EltTy.bits .f32 = 32 ∨ (Rect.block (s := S32x2) S32x2.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x2.size a ≤ S500000x2.size a
  hwx8_2 : ∀ i : grid8.Coords, EltTy.bits .f32 = 32 ∨ (Rect.block (s := S500000x2) S10000x2.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x2.size a ≤ S500000x2.size a
  hwx9_0 : ∀ i : grid9.Coords, EltTy.bits .f32 = 32 ∨ (Rect.block (s := S500000x2) S10000x2.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x2.size a ≤ S1x2.size a
  hwx9_1 : ∀ i : grid9.Coords, EltTy.bits .f32 = 32 ∨ (Rect.block (s := S1x2) S1x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x2.size a ≤ S500000x2.size a
  hwx9_2 : ∀ i : grid9.Coords, EltTy.bits .f32 = 32 ∨ (Rect.block (s := S500000x2) S10000x2.size (cc9_transform_2 i) (hinb9_2 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf
def gather_S500000x2_S2000000x1_S2000000x2_1_0_n_n_0_1_12 : GatherDims S500000x2 S2000000x1 S2000000x2 where
  offsetDims := [1]
  collapsedSliceDims := [0]
  operandBatchingDims := []
  startIndicesBatchingDims := []
  startIndexMap := [0]
  indexVectorDim := 1
  sliceSizes := ![1, 2]
  wf := gather_S500000x2_S2000000x1_S2000000x2_1_0_n_n_0_1_12_wf
def scatter_S500000x2_S2000000x1_S2000000x2_1_0_0_1 : ScatterDims S500000x2 S2000000x1 S2000000x2 where
  updateWindowDims := [1]
  insertedWindowDims := [0]
  scatterDimsToOperandDims := [0]
  indexVectorDim := 1
  wf := scatter_S500000x2_S2000000x1_S2000000x2_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v19) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v27) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v29) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v30) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v37) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v39) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v39) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S32x2.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v40) S10000x2.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v47) S10000x2.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v48) S1x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v49) S10000x2.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S500000x32 : Shape := ⟨2, ![500000, 32]⟩
abbrev S2000000 : Shape := ⟨1, ![2000000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S500000x64 : Shape := ⟨2, ![500000, 64]⟩
abbrev S2000000x1 : Shape := ⟨2, ![2000000, 1]⟩
abbrev S_ : Shape := ⟨0, ![]⟩
abbrev S2000000x64 : Shape := ⟨2, ![2000000, 64]⟩
abbrev S1x64 : Shape := ⟨2, ![1, 64]⟩
abbrev S500000x128 : Shape := ⟨2, ![500000, 128]⟩
abbrev S2000000x128 : Shape := ⟨2, ![2000000, 128]⟩
abbrev S1x128 : Shape := ⟨2, ![1, 128]⟩
abbrev S2000000x32 : Shape := ⟨2, ![2000000, 32]⟩
abbrev S1x32 : Shape := ⟨2, ![1, 32]⟩
abbrev S500000x2 : Shape := ⟨2, ![500000, 2]⟩
abbrev S2000000x2 : Shape := ⟨2, ![2000000, 2]⟩
abbrev S1x2 : Shape := ⟨2, ![1, 2]⟩

abbrev nBuf : Space → Nat
  | .hbm => 142
  | .vmem => 0
  | .smem => 0
  | _ => 0

abbrev hbmTy0_0 (i : Nat) : BufTy := match i % 128 with
  | 0 => ⟨S500000x32, .f32⟩
  | 1 => ⟨S2000000, .f32⟩
  | 2 => ⟨S32x64, .f32⟩
  | 3 => ⟨S64, .f32⟩
  | 4 => ⟨S64x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32x2, .f32⟩
  | 11 => ⟨S2, .f32⟩
  | 12 => ⟨S2000000, .i32⟩
  | 13 => ⟨S2000000, .i32⟩
  | 14 => ⟨S500000x64, .f32⟩
  | 15 => ⟨S2000000x1, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S2000000x64, .f32⟩
  | 25 => ⟨S2000000x64, .f32⟩
  | 26 => ⟨S2000000x64, .f32⟩
  | 27 => ⟨S_, .f32⟩
  | 28 => ⟨S500000x64, .f32⟩
  | 29 => ⟨S2000000x1, .i32⟩
  | 30 => ⟨S500000x64, .f32⟩
  | 31 => ⟨S1x64, .f32⟩
  | 32 => ⟨S500000x64, .f32⟩
  | 33 => ⟨S500000x64, .f32⟩
  | 34 => ⟨S_, .f32⟩
  | 35 => ⟨S500000x64, .f32⟩
  | 36 => ⟨S500000x64, .i1⟩
  | 37 => ⟨S_, .f32⟩
  | 38 => ⟨S500000x64, .f32⟩
  | 39 => ⟨S500000x64, .f32⟩
  | 40 => ⟨S500000x64, .f32⟩
  | 41 => ⟨S500000x128, .f32⟩
  | 42 => ⟨S2000000x1, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x128, .f32⟩
  | 52 => ⟨S2000000x128, .f32⟩
  | 53 => ⟨S2000000x128, .f32⟩
  | 54 => ⟨S_, .f32⟩
  | 55 => ⟨S500000x128, .f32⟩
  | 56 => ⟨S2000000x1, .i32⟩
  | 57 => ⟨S500000x128, .f32⟩
  | 58 => ⟨S1x128, .f32⟩
  | 59 => ⟨S500000x128, .f32⟩
  | 60 => ⟨S500000x128, .f32⟩
  | 61 => ⟨S_, .f32⟩
  | 62 => ⟨S500000x128, .f32⟩
  | 63 => ⟨S500000x128, .i1⟩
  | 64 => ⟨S_, .f32⟩
  | 65 => ⟨S500000x128, .f32⟩
  | 66 => ⟨S500000x128, .f32⟩
  | 67 => ⟨S500000x128, .f32⟩
  | 68 => ⟨S500000x64, .f32⟩
  | 69 => ⟨S2000000x1, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .f32⟩
  | 79 => ⟨S2000000x64, .f32⟩
  | 80 => ⟨S2000000x64, .f32⟩
  | 81 => ⟨S_, .f32⟩
  | 82 => ⟨S500000x64, .f32⟩
  | 83 => ⟨S2000000x1, .i32⟩
  | 84 => ⟨S500000x64, .f32⟩
  | 85 => ⟨S1x64, .f32⟩
  | 86 => ⟨S500000x64, .f32⟩
  | 87 => ⟨S500000x64, .f32⟩
  | 88 => ⟨S_, .f32⟩
  | 89 => ⟨S500000x64, .f32⟩
  | 90 => ⟨S500000x64, .i1⟩
  | 91 => ⟨S_, .f32⟩
  | 92 => ⟨S500000x64, .f32⟩
  | 93 => ⟨S500000x64, .f32⟩
  | 94 => ⟨S500000x64, .f32⟩
  | 95 => ⟨S500000x32, .f32⟩
  | 96 => ⟨S2000000x1, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000x32, .f32⟩
  | 106 => ⟨S2000000x32, .f32⟩
  | 107 => ⟨S2000000x32, .f32⟩
  | 108 => ⟨S_, .f32⟩
  | 109 => ⟨S500000x32, .f32⟩
  | 110 => ⟨S2000000x1, .i32⟩
  | 111 => ⟨S500000x32, .f32⟩
  | 112 => ⟨S1x32, .f32⟩
  | 113 => ⟨S500000x32, .f32⟩
  | 114 => ⟨S500000x32, .f32⟩
  | 115 => ⟨S_, .f32⟩
  | 116 => ⟨S500000x32, .f32⟩
  | 117 => ⟨S500000x32, .i1⟩
  | 118 => ⟨S_, .f32⟩
  | 119 => ⟨S500000x32, .f32⟩
  | 120 => ⟨S500000x32, .f32⟩
  | 121 => ⟨S500000x32, .f32⟩
  | 122 => ⟨S500000x2, .f32⟩
  | 123 => ⟨S2000000x1, .f32⟩
  | 124 => ⟨S_, .i32⟩
  | 125 => ⟨S2000000, .i32⟩
  | 126 => ⟨S2000000, .i1⟩
  | 127 => ⟨S_, .i32⟩
  | _ => ⟨S500000x32, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x2, .f32⟩
  | 5 => ⟨S2000000x2, .f32⟩
  | 6 => ⟨S2000000x2, .f32⟩
  | 7 => ⟨S_, .f32⟩
  | 8 => ⟨S500000x2, .f32⟩
  | 9 => ⟨S2000000x1, .i32⟩
  | 10 => ⟨S500000x2, .f32⟩
  | 11 => ⟨S1x2, .f32⟩
  | 12 => ⟨S500000x2, .f32⟩
  | 13 => ⟨S500000x2, .f32⟩
  | _ => ⟨S500000x32, .f32⟩

abbrev hbmTy (i : Nat) : BufTy := match i / 128 with
  | 0 => hbmTy0_0 i
  | 1 => hbmTy0_1 i
  | _ => ⟨S500000x32, .f32⟩

abbrev bufTy : (tb : Table) → Fin (tcTables nBuf tb) → BufTy
  | .hbm, ⟨i, _⟩ => hbmTy i
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_v90 : Ref sig .tc := ⟨.hbm, 125, rfl⟩
abbrev main_v91 : Ref sig .tc := ⟨.hbm, 126, rfl⟩
abbrev main_c_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S2000000x1_S2000000x128_0_1 : S2000000x1.BroadcastsInDim S2000000x128 (![0, 1] : Fin 2 → Fin S2000000x128.rank)
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S2000000x1_S2000000x32_0_1 : S2000000x1.BroadcastsInDim S2000000x32 (![0, 1] : Fin 2 → Fin S2000000x32.rank)
  bcast_S_S500000x32 : S_.BroadcastsInDim S500000x32 (![] : Fin 0 → Fin S500000x32.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S2000000x1_S2000000x2_0_1 : S2000000x1.BroadcastsInDim S2000000x2 (![0, 1] : Fin 2 → Fin S2000000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S500000x32_S32x64_S500000x64_1_0_0_1_n_n_wf : DotDims.WF S500000x32 S32x64 S500000x64 [1] [0] [0] [1] [] []
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  dot_S500000x64_S64x128_S500000x128_1_0_0_1_n_n_wf : DotDims.WF S500000x64 S64x128 S500000x128 [1] [0] [0] [1] [] []
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  dot_S500000x128_S128x64_S500000x64_1_0_0_1_n_n_wf : DotDims.WF S500000x128 S128x64 S500000x64 [1] [0] [0] [1] [] []
  dot_S500000x64_S64x32_S500000x32_1_0_0_1_n_n_wf : DotDims.WF S500000x64 S64x32 S500000x32 [1] [0] [0] [1] [] []
  gather_S500000x32_S2000000x1_S2000000x32_1_0_n_n_0_1_132_wf : GatherDims.WF S500000x32 S2000000x1 S2000000x32 [1] [0] [] [0] [] 1 ![1, 32]
  scatter_S500000x32_S2000000x1_S2000000x32_1_0_0_1_wf : ScatterDims.WF S500000x32 S2000000x1 S2000000x32 [1] [0] [0] 1
  dot_S500000x32_S32x2_S500000x2_1_0_0_1_n_n_wf : DotDims.WF S500000x32 S32x2 S500000x2 [1] [0] [0] [1] [] []
  gather_S500000x2_S2000000x1_S2000000x2_1_0_n_n_0_1_12_wf : GatherDims.WF S500000x2 S2000000x1 S2000000x2 [1] [0] [] [0] [] 1 ![1, 2]
  scatter_S500000x2_S2000000x1_S2000000x2_1_0_0_1_wf : ScatterDims.WF S500000x2 S2000000x1 S2000000x2 [1] [0] [0] 1

variable [Facts₀]

def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def dot_S500000x32_S32x2_S500000x2_1_0_0_1_n_n : DotDims S500000x32 S32x2 S500000x2 where
  lhsContracting := [1]
  rhsContracting := [0]
  lhsNonContracting := [0]
  rhsNonContracting := [1]
  lhsBatch := []
  rhsBatch := []
  wf := dot_S500000x32_S32x2_S500000x2_1_0_0_1_n_n_wf
def gather_S500000x2_S2000000x1_S2000000x2_1_0_n_n_0_1_12 : GatherDims S500000x2 S2000000x1 S2000000x2 where
  offsetDims := [1]
  collapsedSliceDims := [0]
  operandBatchingDims := []
  startIndicesBatchingDims := []
  startIndexMap := [0]
  indexVectorDim := 1
  sliceSizes := ![1, 2]
  wf := gather_S500000x2_S2000000x1_S2000000x2_1_0_n_n_0_1_12_wf
def scatter_S500000x2_S2000000x1_S2000000x2_1_0_0_1 : ScatterDims S500000x2 S2000000x1 S2000000x2 where
  updateWindowDims := [1]
  insertedWindowDims := [0]
  scatterDimsToOperandDims := [0]
  indexVectorDim := 1
  wf := scatter_S500000x2_S2000000x1_S2000000x2_1_0_0_1_wf

class Facts : Prop extends Facts₀ where

variable [Facts]
-- ==== Proof.Edge.lean ====
/-
  The sparse half of a layer, as the kernel's host operations compute it.

  The edge list is three arrays of length E = 2,000,000: a column index `ec`, a row index `er` and a value `ev`.
  From the dense product `S : [N, b]` (N = 500,000) the host operations form, edge by edge, the row `S[ec e]`
  scaled by `ev e`, and add it into row `er e` of a zero array. The kernel reads the rows with a take that first
  wraps a negative index once (`idxN`), then tests the wrapped index against [0, N-1] (`inRange`) and puts the
  NaN word in a row whose index fails the test (`take`). Nothing here is opened: the gather and the scatter-add
  are carried as the library's operations.
-/
import proofs.«402748_j42056319762602_2_alg».proof.KernelIdeal
import proofs.«402748_j42056319762602_2_alg».proof.Proof.Gen.KernelIdeal
import Idealize.ShloMosaic.PureOps.Ideal

noncomputable section

namespace Cert.KernelIdeal.Edge

open Idealize.ShloMosaic Cert.KernelIdeal Cert.KernelIdeal.Facts₀ Cert.KernelIdeal.Facts

/-- The column indices with a negative one wrapped once (`ec e + N` where `ec e < 0`), as an [E, 1] column. -/
def idxN (ec : IVec S2000000 32) : IVec S2000000x1 32 :=
  broadcastInDim S2000000x1 ![0] bcast_S2000000_S2000000x1_0
    (select (cmpi .slt ec (broadcastInDim S2000000 ![] bcast_S_S2000000 (constantI S_ 32 0#32)))
      (addi ec (broadcastInDim S2000000 ![] bcast_S_S2000000 (constantI S_ 32 500000#32))) ec)

/-- Edge by edge: is the wrapped index in [0, N - 1]? -/
def inRange (ec : IVec S2000000 32) : IVec S2000000 1 :=
  Host.reduce IntOp.andi
    (andi (cmpi .sge (idxN ec) (broadcastInDim S2000000x1 ![] bcast_S_S2000000x1 (constantI S_ 32 0#32)))
      (cmpi .sle (idxN ec) (broadcastInDim S2000000x1 ![0, 1] bcast_S1x1_S2000000x1_0_1
        (broadcastInDim S1x1 ![1] bcast_S1_S1x1_1 (constantI S1 32 499999#32)))))
    (constantI S_ 1 1#1) reducesTo_S2000000x1_S2000000_d1 h_S_

/-- Width 64: the rows `S[ec e]`, the NaN word where the wrapped index is out of range. -/
def take64 (S : FVec Ideal S500000x64 .f32) (ec : IVec S2000000 32) : FVec Ideal S2000000x64 .f32 :=
  select (broadcastInDim S2000000x64 ![0] bcast_S2000000_S2000000x64_0 (inRange ec))
    (Host.gather gather_S500000x64_S2000000x1_S2000000x64_1_0_n_n_0_1_164 S (idxN ec))
    (broadcastInDim S2000000x64 ![] bcast_S_S2000000x64 (constant (F := Ideal) S_ .f32 0x7FC00000#32))

/-- Width 64: the taken rows scaled by `ev` and added into the rows `er` names of a zero array. -/
def agg64 (S : FVec Ideal S500000x64 .f32) (ev : FVec Ideal S2000000 .f32) (er ec : IVec S2000000 32) : FVec Ideal S500000x64 .f32 :=
  Host.scatterAdd scatter_S500000x64_S2000000x1_S2000000x64_1_0_0_1
    (broadcastInDim S500000x64 ![] bcast_S_S500000x64 (constant (F := Ideal) S_ .f32 0x00000000#32))
    (broadcastInDim S2000000x1 ![0] bcast_S2000000_S2000000x1_0 er)
    (mulf (take64 S ec)
      (broadcastInDim S2000000x64 ![0, 1] bcast_S2000000x1_S2000000x64_0_1
        (broadcastInDim S2000000x1 ![0] bcast_S2000000_S2000000x1_0 ev)))

/-- Width 128: the rows `S[ec e]`, the NaN word where the wrapped index is out of range. -/
def take128 (S : FVec Ideal S500000x128 .f32) (ec : IVec S2000000 32) : FVec Ideal S2000000x128 .f32 :=
  select (broadcastInDim S2000000x128 ![0] bcast_S2000000_S2000000x128_0 (inRange ec))
    (Host.gather gather_S500000x128_S2000000x1_S2000000x128_1_0_n_n_0_1_1128 S (idxN ec))
    (broadcastInDim S2000000x128 ![] bcast_S_S2000000x128 (constant (F := Ideal) S_ .f32 0x7FC00000#32))

/-- Width 128: the taken rows scaled by `ev` and added into the rows `er` names of a zero array. -/
def agg128 (S : FVec Ideal S500000x128 .f32) (ev : FVec Ideal S2000000 .f32) (er ec : IVec S2000000 32) : FVec Ideal S500000x128 .f32 :=
  Host.scatterAdd scatter_S500000x128_S2000000x1_S2000000x128_1_0_0_1
    (broadcastInDim S500000x128 ![] bcast_S_S500000x128 (constant (F := Ideal) S_ .f32 0x00000000#32))
    (broadcastInDim S2000000x1 ![0] bcast_S2000000_S2000000x1_0 er)
    (mulf (take128 S ec)
      (broadcastInDim S2000000x128 ![0, 1] bcast_S2000000x1_S2000000x128_0_1
        (broadcastInDim S2000000x1 ![0] bcast_S2000000_S2000000x1_0 ev)))

/-- Width 32: the rows `S[ec e]`, the NaN word where the wrapped index is out of range. -/
def take32 (S : FVec Ideal S500000x32 .f32) (ec : IVec S2000000 32) : FVec Ideal S2000000x32 .f32 :=
  select (broadcastInDim S2000000x32 ![0] bcast_S2000000_S2000000x32_0 (inRange ec))
    (Host.gather gather_S500000x32_S2000000x1_S2000000x32_1_0_n_n_0_1_132 S (idxN ec))
    (broadcastInDim S2000000x32 ![] bcast_S_S2000000x32 (constant (F := Ideal) S_ .f32 0x7FC00000#32))

/-- Width 32: the taken rows scaled by `ev` and added into the rows `er` names of a zero array. -/
def agg32 (S : FVec Ideal S500000x32 .f32) (ev : FVec Ideal S2000000 .f32) (er ec : IVec S2000000 32) : FVec Ideal S500000x32 .f32 :=
  Host.scatterAdd scatter_S500000x32_S2000000x1_S2000000x32_1_0_0_1
    (broadcastInDim S500000x32 ![] bcast_S_S500000x32 (constant (F := Ideal) S_ .f32 0x00000000#32))
    (broadcastInDim S2000000x1 ![0] bcast_S2000000_S2000000x1_0 er)
    (mulf (take32 S ec)
      (broadcastInDim S2000000x32 ![0, 1] bcast_S2000000x1_S2000000x32_0_1
        (broadcastInDim S2000000x1 ![0] bcast_S2000000_S2000000x1_0 ev)))

/-- Width 2: the rows `S[ec e]`, the NaN word where the wrapped index is out of range. -/
def take2 (S : FVec Ideal S500000x2 .f32) (ec : IVec S2000000 32) : FVec Ideal S2000000x2 .f32 :=
  select (broadcastInDim S2000000x2 ![0] bcast_S2000000_S2000000x2_0 (inRange ec))
    (Host.gather gather_S500000x2_S2000000x1_S2000000x2_1_0_n_n_0_1_12 S (idxN ec))
    (broadcastInDim S2000000x2 ![] bcast_S_S2000000x2 (constant (F := Ideal) S_ .f32 0x7FC00000#32))

/-- Width 2: the taken rows scaled by `ev` and added into the rows `er` names of a zero array. -/
def agg2 (S : FVec Ideal S500000x2 .f32) (ev : FVec Ideal S2000000 .f32) (er ec : IVec S2000000 32) : FVec Ideal S500000x2 .f32 :=
  Host.scatterAdd scatter_S500000x2_S2000000x1_S2000000x2_1_0_0_1
    (broadcastInDim S500000x2 ![] bcast_S_S500000x2 (constant (F := Ideal) S_ .f32 0x00000000#32))
    (broadcastInDim S2000000x1 ![0] bcast_S2000000_S2000000x1_0 er)
    (mulf (take2 S ec)
      (broadcastInDim S2000000x2 ![0, 1] bcast_S2000000x1_S2000000x2_0_1
        (broadcastInDim S2000000x1 ![0] bcast_S2000000_S2000000x1_0 ev)))

end Cert.KernelIdeal.Edge

end
-- ==== Proof.Spec.lean ====
/-
  The mathematics of one graph-convolution layer, as whole-array functions over the extended reals.

  A layer takes node features `h : [N, a]`, a weight `w : [a, b]` and a bias row, and produces `[N, b]`:
  the dense product `h · w`, then a sparse aggregation over the edges (carried elsewhere as one opaque
  function of the product), then the bias added to every row, then (in all layers but the last) the leaky
  rectifier `v ↦ v` for `v ≥ 0`, `v ↦ 0.1 · v` otherwise, the slope being the binary32 word nearest to one tenth.
  Everything here is stated index by index, with literal extents passed as numbers.
-/
import Idealize.ShloMosaic.PureOps.Ideal
import Idealize.ShloMosaic.Lib.ValueIdx

noncomputable section

namespace Cert.Gcn

open Idealize.ShloMosaic Idealize.ShloMosaic.ValueIdx

/-- The dense product: entry `(r, j)` is the sum over `k` of `h (r, k) · w (k, j)`. -/
def mm (n a b : Nat) (h : FVec Ideal ⟨2, ![n, a]⟩ .f32) (w : FVec Ideal ⟨2, ![a, b]⟩ .f32) : FVec Ideal ⟨2, ![n, b]⟩ .f32 :=
  fun i => ∑ k : Fin a, h (ix2 (i 0) k) * w (ix2 k (i 1))

/-- A bias vector `[b]` read as the one-row array `[1, b]`: entry `(0, j)` is `v j`. -/
def rowOf (b : Nat) (v : FVec Ideal ⟨1, ![b]⟩ .f32) : FVec Ideal ⟨2, ![1, b]⟩ .f32 :=
  fun i => v (ix1 (i 1))

theorem rowOf_apply (b : Nat) (v : FVec Ideal ⟨1, ![b]⟩ .f32) (z : Fin 1) (j : Fin b) : rowOf b v (ix2 z j) = v (ix1 j) := rfl

/-- The bias row added to every row: entry `(r, j)` is `agg (r, j) + bias (0, j)`. -/
def addBias (n b : Nat) (agg : FVec Ideal ⟨2, ![n, b]⟩ .f32) (bias : FVec Ideal ⟨2, ![1, b]⟩ .f32) : FVec Ideal ⟨2, ![n, b]⟩ .f32 :=
  fun i => agg i + bias (ix2 0 (i 1))

/-- The leaky rectifier on one extended real: `v` itself where `v ≥ 0`, the slope word times `v` elsewhere. -/
def leaky (v : EReal) : EReal :=
  Scalar.select (Ideal.cmp .oge v (Ideal.ofBits .f32 0x00000000#32)) v (Ideal.ofBits .f32 0x3DCCCCCD#32 * v)

/-- Bias, then the leaky rectifier, entry by entry. -/
def biasAct (n b : Nat) (agg : FVec Ideal ⟨2, ![n, b]⟩ .f32) (bias : FVec Ideal ⟨2, ![1, b]⟩ .f32) : FVec Ideal ⟨2, ![n, b]⟩ .f32 :=
  fun i => leaky (addBias n b agg bias i)

theorem mm_apply (n a b : Nat) (h : FVec Ideal ⟨2, ![n, a]⟩ .f32) (w : FVec Ideal ⟨2, ![a, b]⟩ .f32) (r : Fin n) (j : Fin b) :
    mm n a b h w (ix2 r j) = ∑ k : Fin a, h (ix2 r k) * w (ix2 k j) := rfl

theorem addBias_apply (n b : Nat) (agg : FVec Ideal ⟨2, ![n, b]⟩ .f32) (bias : FVec Ideal ⟨2, ![1, b]⟩ .f32) (r : Fin n) (j : Fin b) :
    addBias n b agg bias (ix2 r j) = agg (ix2 r j) + bias (ix2 0 j) := rfl

theorem biasAct_apply (n b : Nat) (agg : FVec Ideal ⟨2, ![n, b]⟩ .f32) (bias : FVec Ideal ⟨2, ![1, b]⟩ .f32) (r : Fin n) (j : Fin b) :
    biasAct n b agg bias (ix2 r j) = leaky (agg (ix2 r j) + bias (ix2 0 j)) := rfl

end Cert.Gcn

end
-- ==== Proof.KLayers.lean ====
/-
  The kernel's result, layer by layer, in the specification's terms.

  Each layer takes the previous features `h`, forms the dense product with its weight (`Gcn.mm`), the sparse aggregate
  of the product's rows over the edges as the kernel's host operations compute it (`Edge.agg…`), adds the bias row and
  (all layers but the last) applies the leaky rectifier (`Gcn.biasAct`, `Gcn.addBias`).
-/
import proofs.«402748_j42056319762602_2_alg».proof.Proof.Edge
import proofs.«402748_j42056319762602_2_alg».proof.Proof.Spec

noncomputable section

namespace Cert.KernelIdeal.Val

open Idealize.ShloMosaic Cert.KernelIdeal Cert.KernelIdeal.Edge Cert.Gcn

/-- Layer 0: features [N, 32] to features [N, 64]. -/
def klayer0 (w : FVec Ideal S32x64 .f32) (bv : FVec Ideal S64 .f32) (ev : FVec Ideal S2000000 .f32) (er ec : IVec S2000000 32)
    (h : FVec Ideal S500000x32 .f32) : FVec Ideal S500000x64 .f32 :=
  biasAct 500000 64 (agg64 (mm 500000 32 64 h w) ev er ec) (rowOf 64 bv)

/-- Layer 1: features [N, 64] to features [N, 128]. -/
def klayer1 (w : FVec Ideal S64x128 .f32) (bv : FVec Ideal S128 .f32) (ev : FVec Ideal S2000000 .f32) (er ec : IVec S2000000 32)
    (h : FVec Ideal S500000x64 .f32) : FVec Ideal S500000x128 .f32 :=
  biasAct 500000 128 (agg128 (mm 500000 64 128 h w) ev er ec) (rowOf 128 bv)

/-- Layer 2: features [N, 128] to features [N, 64]. -/
def klayer2 (w : FVec Ideal S128x64 .f32) (bv : FVec Ideal S64 .f32) (ev : FVec Ideal S2000000 .f32) (er ec : IVec S2000000 32)
    (h : FVec Ideal S500000x128 .f32) : FVec Ideal S500000x64 .f32 :=
  biasAct 500000 64 (agg64 (mm 500000 128 64 h w) ev er ec) (rowOf 64 bv)

/-- Layer 3: features [N, 64] to features [N, 32]. -/
def klayer3 (w : FVec Ideal S64x32 .f32) (bv : FVec Ideal S32 .f32) (ev : FVec Ideal S2000000 .f32) (er ec : IVec S2000000 32)
    (h : FVec Ideal S500000x64 .f32) : FVec Ideal S500000x32 .f32 :=
  biasAct 500000 32 (agg32 (mm 500000 64 32 h w) ev er ec) (rowOf 32 bv)

/-- Layer 4: features [N, 32] to features [N, 2] (no rectifier). -/
def klayer4 (w : FVec Ideal S32x2 .f32) (bv : FVec Ideal S2 .f32) (ev : FVec Ideal S2000000 .f32) (er ec : IVec S2000000 32)
    (h : FVec Ideal S500000x32 .f32) : FVec Ideal S500000x2 .f32 :=
  addBias 500000 2 (agg2 (mm 500000 32 2 h w) ev er ec) (rowOf 2 bv)

end Cert.KernelIdeal.Val

end
-- ==== Proof.Kept.lean ====
/- The argument arrays of @main are never written: no host operation and no region writes an argument array, so at
   every boundary of the run each of them still holds what the launch memory holds. -/
import proofs.«402748_j42056319762602_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations keeps a buffer none of its lines writes: every line's result reference differs
    from the buffer's. -/
local macro "host_keeps" ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- Through one layer, read backwards: the layer's bias region, then the two stretches of host operations before it
    (the scatter-add's and the take's), keep a buffer that is none of the region's window arrays and no line's result. -/
local macro "bias1_back" b:ident : term =>
  `((W4_of_ne _ _ _ $b (by decide)).trans ((host_keeps hostOps1_1).trans (host_keeps hostOps1)))
local macro "bias2_back" b:ident : term =>
  `((W8_of_ne _ _ _ $b (by decide)).trans ((host_keeps hostOps3_1).trans (host_keeps hostOps3)))
local macro "bias3_back" b:ident : term =>
  `((W12_of_ne _ _ _ $b (by decide)).trans ((host_keeps hostOps5_1).trans (host_keeps hostOps5)))
local macro "bias4_back" b:ident : term =>
  `((W16_of_ne _ _ _ $b (by decide)).trans ((host_keeps hostOps7_1).trans (host_keeps hostOps7)))

/-- The same with the next layer's matmul region in front: from one matmul region's exit back to the previous one's,
    for a buffer that is no window array of either region. -/
local macro "layer1_back" b:ident : term => `((W5_of_ne _ _ _ $b (by decide)).trans (bias1_back $b))
local macro "layer2_back" b:ident : term => `((W9_of_ne _ _ _ $b (by decide)).trans (bias2_back $b))
local macro "layer3_back" b:ident : term => `((W13_of_ne _ _ _ $b (by decide)).trans (bias3_back $b))
local macro "layer4_back" b:ident : term => `((W17_of_ne _ _ _ $b (by decide)).trans (bias4_back $b))

/-! ## The edge arrays (rows, columns, values): read by host operations only, needed after every matmul region

After the first matmul region the buffer is the launch memory's, since it is no window array of that region; after
each later one it is what it was after the previous matmul region. -/

theorem kept_W1_arg1 (c : Dev nD) : W1 m ρ c (Proc.devRef .tc main_arg1) = m ((c : Thread nD τ).loc main_arg1) :=
  W1_of_ne m ρ c main_arg1 (by decide)
theorem kept_W5_arg1 (c : Dev nD) : W5 m ρ c (Proc.devRef .tc main_arg1) = m ((c : Thread nD τ).loc main_arg1) :=
  (layer1_back main_arg1).trans (kept_W1_arg1 m ρ c)
theorem kept_W9_arg1 (c : Dev nD) : W9 m ρ c (Proc.devRef .tc main_arg1) = m ((c : Thread nD τ).loc main_arg1) :=
  (layer2_back main_arg1).trans (kept_W5_arg1 m ρ c)
theorem kept_W13_arg1 (c : Dev nD) : W13 m ρ c (Proc.devRef .tc main_arg1) = m ((c : Thread nD τ).loc main_arg1) :=
  (layer3_back main_arg1).trans (kept_W9_arg1 m ρ c)
theorem kept_W17_arg1 (c : Dev nD) : W17 m ρ c (Proc.devRef .tc main_arg1) = m ((c : Thread nD τ).loc main_arg1) :=
  (layer4_back main_arg1).trans (kept_W13_arg1 m ρ c)

theorem kept_W1_arg12 (c : Dev nD) : W1 m ρ c (Proc.devRef .tc main_arg12) = m ((c : Thread nD τ).loc main_arg12) :=
  W1_of_ne m ρ c main_arg12 (by decide)
theorem kept_W5_arg12 (c : Dev nD) : W5 m ρ c (Proc.devRef .tc main_arg12) = m ((c : Thread nD τ).loc main_arg12) :=
  (layer1_back main_arg12).trans (kept_W1_arg12 m ρ c)
theorem kept_W9_arg12 (c : Dev nD) : W9 m ρ c (Proc.devRef .tc main_arg12) = m ((c : Thread nD τ).loc main_arg12) :=
  (layer2_back main_arg12).trans (kept_W5_arg12 m ρ c)
theorem kept_W13_arg12 (c : Dev nD) : W13 m ρ c (Proc.devRef .tc main_arg12) = m ((c : Thread nD τ).loc main_arg12) :=
  (layer3_back main_arg12).trans (kept_W9_arg12 m ρ c)
theorem kept_W17_arg12 (c : Dev nD) : W17 m ρ c (Proc.devRef .tc main_arg12) = m ((c : Thread nD τ).loc main_arg12) :=
  (layer4_back main_arg12).trans (kept_W13_arg12 m ρ c)

theorem kept_W1_arg13 (c : Dev nD) : W1 m ρ c (Proc.devRef .tc main_arg13) = m ((c : Thread nD τ).loc main_arg13) :=
  W1_of_ne m ρ c main_arg13 (by decide)
theorem kept_W5_arg13 (c : Dev nD) : W5 m ρ c (Proc.devRef .tc main_arg13) = m ((c : Thread nD τ).loc main_arg13) :=
  (layer1_back main_arg13).trans (kept_W1_arg13 m ρ c)
theorem kept_W9_arg13 (c : Dev nD) : W9 m ρ c (Proc.devRef .tc main_arg13) = m ((c : Thread nD τ).loc main_arg13) :=
  (layer2_back main_arg13).trans (kept_W5_arg13 m ρ c)
theorem kept_W13_arg13 (c : Dev nD) : W13 m ρ c (Proc.devRef .tc main_arg13) = m ((c : Thread nD τ).loc main_arg13) :=
  (layer3_back main_arg13).trans (kept_W9_arg13 m ρ c)
theorem kept_W17_arg13 (c : Dev nD) : W17 m ρ c (Proc.devRef .tc main_arg13) = m ((c : Thread nD τ).loc main_arg13) :=
  (layer4_back main_arg13).trans (kept_W13_arg13 m ρ c)

/-! ## The bias rows: each read by host operations only, needed after its own layer's matmul region -/

theorem kept_W1_arg3 (c : Dev nD) : W1 m ρ c (Proc.devRef .tc main_arg3) = m ((c : Thread nD τ).loc main_arg3) :=
  W1_of_ne m ρ c main_arg3 (by decide)
theorem kept_W5_arg5 (c : Dev nD) : W5 m ρ c (Proc.devRef .tc main_arg5) = m ((c : Thread nD τ).loc main_arg5) :=
  (layer1_back main_arg5).trans (W1_of_ne m ρ c main_arg5 (by decide))
theorem kept_W9_arg7 (c : Dev nD) : W9 m ρ c (Proc.devRef .tc main_arg7) = m ((c : Thread nD τ).loc main_arg7) :=
  (layer2_back main_arg7).trans ((layer1_back main_arg7).trans (W1_of_ne m ρ c main_arg7 (by decide)))
theorem kept_W13_arg9 (c : Dev nD) : W13 m ρ c (Proc.devRef .tc main_arg9) = m ((c : Thread nD τ).loc main_arg9) :=
  (layer3_back main_arg9).trans ((layer2_back main_arg9).trans ((layer1_back main_arg9).trans
    (W1_of_ne m ρ c main_arg9 (by decide))))
theorem kept_W17_arg11 (c : Dev nD) : W17 m ρ c (Proc.devRef .tc main_arg11) = m ((c : Thread nD τ).loc main_arg11) :=
  (layer4_back main_arg11).trans ((layer3_back main_arg11).trans ((layer2_back main_arg11).trans
    ((layer1_back main_arg11).trans (W1_of_ne m ρ c main_arg11 (by decide)))))

/-! ## The weight blocks of layers 2 to 5: each needed at the entry of its own matmul region, the one region that reads
it through a window; every region and every host line before that leaves it alone -/

theorem kept_W4_arg4 (c : Dev nD) : W4 m ρ c (Proc.devRef .tc main_arg4) = m ((c : Thread nD τ).loc main_arg4) :=
  (bias1_back main_arg4).trans (W1_of_ne m ρ c main_arg4 (by decide))
theorem kept_W8_arg6 (c : Dev nD) : W8 m ρ c (Proc.devRef .tc main_arg6) = m ((c : Thread nD τ).loc main_arg6) :=
  (bias2_back main_arg6).trans ((layer1_back main_arg6).trans (W1_of_ne m ρ c main_arg6 (by decide)))
theorem kept_W12_arg8 (c : Dev nD) : W12 m ρ c (Proc.devRef .tc main_arg8) = m ((c : Thread nD τ).loc main_arg8) :=
  (bias3_back main_arg8).trans ((layer2_back main_arg8).trans ((layer1_back main_arg8).trans
    (W1_of_ne m ρ c main_arg8 (by decide))))
theorem kept_W16_arg10 (c : Dev nD) : W16 m ρ c (Proc.devRef .tc main_arg10) = m ((c : Thread nD τ).loc main_arg10) :=
  (bias4_back main_arg10).trans ((layer3_back main_arg10).trans ((layer2_back main_arg10).trans
    ((layer1_back main_arg10).trans (W1_of_ne m ρ c main_arg10 (by decide)))))

end Cert.KernelIdeal.Gen
-- ==== Proof.MatL0.lean ====
/-
  The value of the first layer's dense product (region 0 of the program): after the region's 50 grid points, its output
  array `[500000, 64]` is the product of the features `[500000, 32]` and the weight `[32, 64]` as the region finds them.

  Each point `t` reads rows `10000 t … 10000 t + 9999` of the features and the whole weight, and writes their product
  to the same rows of the output. Over the extended reals the narrowing of the operands is the identity and the product
  into a zero accumulator is a plain sum over the 32 contraction indices, so what a point writes is its block of the whole
  product; the 50 row blocks cover the array, hence the array ends holding the whole product.
-/
import proofs.«402748_j42056319762602_2_alg».proof.Proof.Gen.KernelIdeal.Frame
import proofs.«402748_j42056319762602_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

/-! ## The contraction's operand indices, axis by axis -/

/-- The left operand is read on its row axis at the output's row. -/
theorem lhsRow0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- The left operand is read on its column axis at the contraction index. -/
theorem lhsCol0 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- The right operand is read on its row axis at the contraction index. -/
theorem rhsRow0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
/-- The right operand is read on its column axis at the output's column. -/
theorem rhsCol0 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-! ## One grid point: the body's payload is the product of its two blocks -/

/-- Over the extended reals the narrowing of either operand is the identity and the accumulator is the zero splat:
    entry `(r, j)` of the payload is the sum over `k` of `x0 (r, k) · x1 (k, j)`. -/
theorem pay0_apply (x0 : Vec Ideal S10000x32 .f32) (x1 : Vec Ideal S32x64 .f32) (r : Fin 10000) (j : Fin 64) :
    k0_pay1 (F := Ideal) x0 x1 (ix2 r j) = ∑ k : Fin 32, x0 (ix2 r k) * x1 (ix2 k j) := by
  unfold k0_pay1
  refine (Ideal.matmul_constant_zero_apply dot_S10000x32_S32x64_S10000x64_1_0_0_1_n_n none _ _ (ix2 r j)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 r j) ((contrEquiv1 dot_S10000x32_S32x64_S10000x64_1_0_0_1_n_n 32 rfl rfl).symm k) = ix2 r k := funext fun a => Fin.ext (by
    match a with
    | ⟨0, _⟩ => exact lhsRow0 _ _
    | ⟨1, _⟩ => exact (lhsCol0 _ _).trans hk)
  have er : dot_S10000x32_S32x64_S10000x64_1_0_0_1_n_n.rhsIdx (ix2 r j) ((contrEquiv1 dot_S10000x32_S32x64_S10000x64_1_0_0_1_n_n 32 rfl rfl).symm k) = ix2 k j := funext fun a => Fin.ext (by
    match a with
    | ⟨0, _⟩ => exact (rhsRow0 _ _).trans hk
    | ⟨1, _⟩ => exact rhsCol0 _ _)
  rw [truncf_apply, truncf_apply, el, er]

variable (V : (c : Dev nD) → (b : Ref sig .tc) → Buf (Elt Ideal) ((c : Thread nD τ).loc b))

/-- The zero offsets of an access to a whole buffer, as a constant function. -/
theorem zeroOff0 : (![0, 0] : Fin 2 → Nat) = fun _ => 0 := funext fun a => by fin_cases a <;> rfl

/-- The index maps, over the 50 grid points: the features' and the output's row block is the point's number and their
    column block is 0; the weight's block is (0, 0) at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `10000 t … 10000 t + 9999` of the features. -/
theorem featBlock0 (c : Dev nD) (t : Fin cfg0.N) (x : S10000x32.Idx) (i : S500000x32.Idx)
    (h0 : (i 0).val = t.val * 10000 + (x 0).val) (h1 : (i 1).val = (x 1).val) :
    (iblk0 V c 0 t : Vec Ideal S10000x32 .f32) x = (V c main_arg0 : S500000x32.Idx → Elt Ideal .f32) i := by
  obtain ⟨e0, e1, -, -, -, -⟩ := blockIdx0 t
  show (V c main_arg0 : S500000x32.Idx → Elt Ideal .f32) (((cfg0.win 0).blk t).view.emb x) = _
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 32 + 1 * (x 1).val = (i 1).val; rw [e1, h1]; omega

/-- The weight's block at every point is the whole weight. -/
theorem weightBlock0 (c : Dev nD) (t : Fin cfg0.N) (x : S32x64.Idx) :
    (iblk0 V c 1 t : Vec Ideal S32x64 .f32) x = (V c main_arg2 : S32x64.Idx → Elt Ideal .f32) x := by
  obtain ⟨-, -, e0, e1, -, -⟩ := blockIdx0 t
  show (V c main_arg2 : S32x64.Idx → Elt Ideal .f32) (((cfg0.win 1).blk t).view.emb x) = _
  congr 1
  funext a
  apply Fin.ext
  match a with
  | ⟨0, _⟩ => show win0_1.index t (0 : Fin 2) * 32 + 1 * (x 0).val = (x 0).val; rw [e0]; omega
  | ⟨1, _⟩ => show win0_1.index t (1 : Fin 2) * 64 + 1 * (x 1).val = (x 1).val; rw [e1]; omega

/-- An element of the output's block at point `t` sits in the array at row `10000 t` plus its row, same column. -/
theorem outBlock0 (t : Fin cfg0.N) (y : S10000x64.Idx) :
    ((((cfg0.win 2).blk t).view.emb y : S500000x64.Idx) 0).val = t.val * 10000 + (y 0).val
      ∧ ((((cfg0.win 2).blk t).view.emb y : S500000x64.Idx) 1).val = (y 1).val := by
  obtain ⟨-, -, -, -, e0, e1⟩ := blockIdx0 t
  constructor
  · show win0_2.index t (0 : Fin 2) * 10000 + 1 * (y 0).val = _; rw [e0]; omega
  · show win0_2.index t (1 : Fin 2) * 64 + 1 * (y 1).val = _; rw [e1]; omega

/-- At point `t`, entry `(r, j)` of the payload of the two blocks is entry `(10000 t + r, j)` of the whole product. -/
theorem pointMm0 (c : Dev nD) (t : Fin cfg0.N) (r : Fin 10000) (j : Fin 64) (R : Fin 500000)
    (hR : R.val = t.val * 10000 + r.val) :
    k0_pay1 (F := Ideal) (iblk0 V c 0 t) (iblk0 V c 1 t) (ix2 r j)
      = mm 500000 32 64 (V c main_arg0) (V c main_arg2) (ix2 R j) := by
  rw [pay0_apply, mm_apply]
  refine Finset.sum_congr rfl fun k _ => ?_
  rw [featBlock0 V c t (ix2 r k) (ix2 R k) hR rfl, weightBlock0 V c t (ix2 k j)]

/-- The same at an index of the block, the array's index being the block's embedding of it. -/
theorem blockMm0 (c : Dev nD) (t : Fin cfg0.N) (y : S10000x64.Idx) :
    k0_pay1 (F := Ideal) (iblk0 V c 0 t) (iblk0 V c 1 t) y
      = mm 500000 32 64 (V c main_arg0) (V c main_arg2) (((cfg0.win 2).blk t).view.emb y) := by
  obtain ⟨r0, r1⟩ := outBlock0 t y
  have hN : cfg0.N = 50 := N_0
  have hy0 : (y 0).val < 10000 := idx2_lt0 y
  have ht : t.val < 50 := hN ▸ t.isLt
  have hi : (((cfg0.win 2).blk t).view.emb y : S500000x64.Idx) = ix2 (⟨t.val * 10000 + (y 0).val, by omega⟩ : Fin 500000) (y 1) :=
    funext fun a => Fin.ext (by
      match a with
      | ⟨0, _⟩ => exact r0
      | ⟨1, _⟩ => exact r1)
  rw [hi]
  exact (congrArg (k0_pay1 (F := Ideal) (iblk0 V c 0 t) (iblk0 V c 1 t)) (eq_ix2 y)).trans (pointMm0 V c t (y 0) (y 1) _ rfl)

/-! ## From the blocks to the array -/

/-- What point `t` writes back is block `t` of the product of the two arrays as the region finds them. -/
theorem flushedMm0 (c : Dev nD) (t : Fin cfg0.N) :
    (dat0 (F := Ideal) V c).flushed 2 t
      = ((cfg0.win 2).blk t).view.read (Elt Ideal) (mm 500000 32 64 (V c main_arg0) (V c main_arg2)) := by
  show (cfg0.win 2).cut (grid0.coords t) ((dat0 V c).after 2 t) = _
  rw [after0_2]
  unfold out0_2
  rw [View.canon_unit_zero zeroOff0]
  simp only [View.ld_unit_zero (S := S10000x32) zeroOff0, View.ld_unit_zero (S := S32x64) zeroOff0]
  funext y
  exact blockMm0 V c t y

/-- An index of the array is in point `t`'s block iff each coordinate is in the block's range on its axis. -/
theorem memBlock0 (t : Fin cfg0.N) (i : S500000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every index of the array is in some point's block: row `r` is in block `r / 10000`. -/
theorem cover0 (i : S500000x64.Idx) :
    ∃ t : Fin cfg0.N, (cfg0.win 2).flush t = true ∧ i ∈ ((cfg0.win 2).blk t).view.set := by
  have h0 : (i 0).val < 500000 := idx2_lt0 i
  have h1 : (i 1).val < 64 := idx2_lt1 i
  have hN : cfg0.N = 50 := N_0
  obtain ⟨t, ht⟩ : ∃ t : Fin cfg0.N, t.val = (i 0).val / 10000 := ⟨⟨(i 0).val / 10000, by rw [hN]; omega⟩, rfl⟩
  obtain ⟨-, -, -, -, e0, e1⟩ := blockIdx0 t
  refine ⟨t, flush0_2 t, ?_⟩
  rw [memBlock0]
  intro a
  match a with
  | ⟨0, _⟩ => show win0_2.index t (0 : Fin 2) * 10000 ≤ (i 0).val ∧ (i 0).val < win0_2.index t (0 : Fin 2) * 10000 + 10000; rw [e0]; omega
  | ⟨1, _⟩ => show win0_2.index t (1 : Fin 2) * 64 ≤ (i 1).val ∧ (i 1).val < win0_2.index t (1 : Fin 2) * 64 + 64; rw [e1]; omega

/-- THE VALUE OF THE REGION: after its 50 points the output array is the dense product of the two input arrays. -/
theorem final0 (c : Dev nD) :
    (dat0 (F := Ideal) V c).arrAt 2 cfg0.N = mm 500000 32 64 (V c main_arg0) (V c main_arg2) :=
  (dat0 (F := Ideal) V c).arrAt_eq_of_cover 2 (mm 500000 32 64 (V c main_arg0) (V c main_arg2))
    (fun t _ => flushedMm0 V c t) cover0

end Cert.KernelIdeal.Val

end
-- ==== Proof.MatL1.lean ====
/-
  The value of the second layer's dense product (region 2 of the program): after the region's 50 grid points, its output
  array `[500000, 128]` is the product of the features `[500000, 64]` and the weight `[64, 128]` as the region finds them.

  Each point `t` reads rows `10000 t … 10000 t + 9999` of the features and the whole weight, and writes their product
  to the same rows of the output. Over the extended reals the narrowing of the operands is the identity and the product
  into a zero accumulator is a plain sum over the 64 contraction indices, so what a point writes is its block of the whole
  product; the 50 row blocks cover the array, hence the array ends holding the whole product.
-/
import proofs.«402748_j42056319762602_2_alg».proof.Proof.Gen.KernelIdeal.Frame
import proofs.«402748_j42056319762602_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

/-! ## The contraction's operand indices, axis by axis -/

/-- The left operand is read on its row axis at the output's row. -/
theorem lhsRow2 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left operand is read on its column axis at the contraction index. -/
theorem lhsCol2 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand is read on its row axis at the contraction index. -/
theorem rhsRow2 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- The right operand is read on its column axis at the output's column. -/
theorem rhsCol2 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-! ## One grid point: the body's payload is the product of its two blocks -/

/-- Over the extended reals the narrowing of either operand is the identity, the shape cast is to the same shape, and the
    accumulator is the zero splat: entry `(r, j)` of the payload is the sum over `k` of `x0 (r, k) · x1 (k, j)`. -/
theorem pay2_apply (x0 : Vec Ideal S10000x64 .f32) (x1 : Vec Ideal S64x128 .f32) (r : Fin 10000) (j : Fin 128) :
    k2_pay1 (F := Ideal) x0 x1 (ix2 r j) = ∑ k : Fin 64, x0 (ix2 r k) * x1 (ix2 k j) := by
  unfold k2_pay1
  rw [shapeCast_self]
  refine (Ideal.matmul_constant_zero_apply dot_S10000x64_S64x128_S10000x128_1_0_0_1_n_n none _ _ (ix2 r j)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 r j) ((contrEquiv1 dot_S10000x64_S64x128_S10000x128_1_0_0_1_n_n 64 rfl rfl).symm k) = ix2 r k := funext fun a => Fin.ext (by
    match a with
    | ⟨0, _⟩ => exact lhsRow2 _ _
    | ⟨1, _⟩ => exact (lhsCol2 _ _).trans hk)
  have er : dot_S10000x64_S64x128_S10000x128_1_0_0_1_n_n.rhsIdx (ix2 r j) ((contrEquiv1 dot_S10000x64_S64x128_S10000x128_1_0_0_1_n_n 64 rfl rfl).symm k) = ix2 k j := funext fun a => Fin.ext (by
    match a with
    | ⟨0, _⟩ => exact (rhsRow2 _ _).trans hk
    | ⟨1, _⟩ => exact rhsCol2 _ _)
  rw [truncf_apply, truncf_apply, el, er]

variable (V : (c : Dev nD) → (b : Ref sig .tc) → Buf (Elt Ideal) ((c : Thread nD τ).loc b))

/-- The zero offsets of an access to a whole buffer, as a constant function. -/
theorem zeroOff2 : (![0, 0] : Fin 2 → Nat) = fun _ => 0 := funext fun a => by fin_cases a <;> rfl

/-- The index maps, over the 50 grid points: the features' and the output's row block is the point's number and their
    column block is 0; the weight's block is (0, 0) at every point. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The features' block at point `t` is rows `10000 t … 10000 t + 9999` of the features. -/
theorem featBlock2 (c : Dev nD) (t : Fin cfg2.N) (x : S10000x64.Idx) (i : S500000x64.Idx)
    (h0 : (i 0).val = t.val * 10000 + (x 0).val) (h1 : (i 1).val = (x 1).val) :
    (iblk2 V c 0 t : Vec Ideal S10000x64 .f32) x = (V c main_v9 : S500000x64.Idx → Elt Ideal .f32) i := by
  obtain ⟨e0, e1, -, -, -, -⟩ := blockIdx2 t
  show (V c main_v9 : S500000x64.Idx → Elt Ideal .f32) (((cfg2.win 0).blk t).view.emb x) = _
  congr 1
  funext a
  apply Fin.ext
  match a with
  | ⟨0, _⟩ => show win2_0.index t (0 : Fin 2) * 10000 + 1 * (x 0).val = (i 0).val; rw [e0, h0]; omega
  | ⟨1, _⟩ => show win2_0.index t (1 : Fin 2) * 64 + 1 * (x 1).val = (i 1).val; rw [e1, h1]; omega

/-- The weight's block at every point is the whole weight. -/
theorem weightBlock2 (c : Dev nD) (t : Fin cfg2.N) (x : S64x128.Idx) :
    (iblk2 V c 1 t : Vec Ideal S64x128 .f32) x = (V c main_arg4 : S64x128.Idx → Elt Ideal .f32) x := by
  obtain ⟨-, -, e0, e1, -, -⟩ := blockIdx2 t
  show (V c main_arg4 : S64x128.Idx → Elt Ideal .f32) (((cfg2.win 1).blk t).view.emb x) = _
  congr 1
  funext a
  apply Fin.ext
  match a with
  | ⟨0, _⟩ => show win2_1.index t (0 : Fin 2) * 64 + 1 * (x 0).val = (x 0).val; rw [e0]; omega
  | ⟨1, _⟩ => show win2_1.index t (1 : Fin 2) * 128 + 1 * (x 1).val = (x 1).val; rw [e1]; omega

/-- An element of the output's block at point `t` sits in the array at row `10000 t` plus its row, same column. -/
theorem outBlock2 (t : Fin cfg2.N) (y : S10000x128.Idx) :
    ((((cfg2.win 2).blk t).view.emb y : S500000x128.Idx) 0).val = t.val * 10000 + (y 0).val
      ∧ ((((cfg2.win 2).blk t).view.emb y : S500000x128.Idx) 1).val = (y 1).val := by
  obtain ⟨-, -, -, -, e0, e1⟩ := blockIdx2 t
  constructor
  · show win2_2.index t (0 : Fin 2) * 10000 + 1 * (y 0).val = _; rw [e0]; omega
  · show win2_2.index t (1 : Fin 2) * 128 + 1 * (y 1).val = _; rw [e1]; omega

/-- At point `t`, entry `(r, j)` of the payload of the two blocks is entry `(10000 t + r, j)` of the whole product. -/
theorem pointMm2 (c : Dev nD) (t : Fin cfg2.N) (r : Fin 10000) (j : Fin 128) (R : Fin 500000)
    (hR : R.val = t.val * 10000 + r.val) :
    k2_pay1 (F := Ideal) (iblk2 V c 0 t) (iblk2 V c 1 t) (ix2 r j)
      = mm 500000 64 128 (V c main_v9) (V c main_arg4) (ix2 R j) := by
  rw [pay2_apply, mm_apply]
  refine Finset.sum_congr rfl fun k _ => ?_
  rw [featBlock2 V c t (ix2 r k) (ix2 R k) hR rfl, weightBlock2 V c t (ix2 k j)]

/-- The same at an index of the block, the array's index being the block's embedding of it. -/
theorem blockMm2 (c : Dev nD) (t : Fin cfg2.N) (y : S10000x128.Idx) :
    k2_pay1 (F := Ideal) (iblk2 V c 0 t) (iblk2 V c 1 t) y
      = mm 500000 64 128 (V c main_v9) (V c main_arg4) (((cfg2.win 2).blk t).view.emb y) := by
  obtain ⟨r0, r1⟩ := outBlock2 t y
  have hN : cfg2.N = 50 := N_2
  have hy0 : (y 0).val < 10000 := idx2_lt0 y
  have ht : t.val < 50 := hN ▸ t.isLt
  have hi : (((cfg2.win 2).blk t).view.emb y : S500000x128.Idx) = ix2 (⟨t.val * 10000 + (y 0).val, by omega⟩ : Fin 500000) (y 1) :=
    funext fun a => Fin.ext (by
      match a with
      | ⟨0, _⟩ => exact r0
      | ⟨1, _⟩ => exact r1)
  rw [hi]
  exact (congrArg (k2_pay1 (F := Ideal) (iblk2 V c 0 t) (iblk2 V c 1 t)) (eq_ix2 y)).trans (pointMm2 V c t (y 0) (y 1) _ rfl)

/-! ## From the blocks to the array -/

/-- What point `t` writes back is block `t` of the product of the two arrays as the region finds them. -/
theorem flushedMm2 (c : Dev nD) (t : Fin cfg2.N) :
    (dat2 (F := Ideal) V c).flushed 2 t
      = ((cfg2.win 2).blk t).view.read (Elt Ideal) (mm 500000 64 128 (V c main_v9) (V c main_arg4)) := by
  show (cfg2.win 2).cut (grid2.coords t) ((dat2 V c).after 2 t) = _
  rw [after2_2]
  unfold out2_2
  rw [View.canon_unit_zero zeroOff2]
  simp only [View.ld_unit_zero (S := S10000x64) zeroOff2, View.ld_unit_zero (S := S64x128) zeroOff2]
  funext y
  exact blockMm2 V c t y

/-- An index of the array is in point `t`'s block iff each coordinate is in the block's range on its axis. -/
theorem memBlock2 (t : Fin cfg2.N) (i : S500000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v10).slice (win2_2.rect t)).set ↔ _
  rw [View.set_slice_whole, Rect.mem_set_unit]
  exact Iff.rfl

/-- Every index of the array is in some point's block: row `r` is in block `r / 10000`. -/
theorem cover2 (i : S500000x128.Idx) :
    ∃ t : Fin cfg2.N, (cfg2.win 2).flush t = true ∧ i ∈ ((cfg2.win 2).blk t).view.set := by
  have h0 : (i 0).val < 500000 := idx2_lt0 i
  have h1 : (i 1).val < 128 := idx2_lt1 i
  have hN : cfg2.N = 50 := N_2
  obtain ⟨t, ht⟩ : ∃ t : Fin cfg2.N, t.val = (i 0).val / 10000 := ⟨⟨(i 0).val / 10000, by rw [hN]; omega⟩, rfl⟩
  obtain ⟨-, -, -, -, e0, e1⟩ := blockIdx2 t
  refine ⟨t, flush2_2 t, ?_⟩
  rw [memBlock2]
  intro a
  match a with
  | ⟨0, _⟩ => show win2_2.index t (0 : Fin 2) * 10000 ≤ (i 0).val ∧ (i 0).val < win2_2.index t (0 : Fin 2) * 10000 + 10000; rw [e0]; omega
  | ⟨1, _⟩ => show win2_2.index t (1 : Fin 2) * 128 ≤ (i 1).val ∧ (i 1).val < win2_2.index t (1 : Fin 2) * 128 + 128; rw [e1]; omega

/-- THE VALUE OF THE REGION: after its 50 points the output array is the dense product of the two input arrays. -/
theorem final2 (c : Dev nD) :
    (dat2 (F := Ideal) V c).arrAt 2 cfg2.N = mm 500000 64 128 (V c main_v9) (V c main_arg4) :=
  (dat2 (F := Ideal) V c).arrAt_eq_of_cover 2 (mm 500000 64 128 (V c main_v9) (V c main_arg4))
    (fun t _ => flushedMm2 V c t) cover2

end Cert.KernelIdeal.Val

end
-- ==== Proof.MatL2.lean ====
/-
  The value of the third layer's dense product (region 4 of the program): after the region's 50 grid points, its output
  array `[500000, 64]` is the product of the features `[500000, 128]` and the weight `[128, 64]` as the region finds them.

  Each point `t` reads rows `10000 t … 10000 t + 9999` of the features and the whole weight, and writes their product
  to the same rows of the output. Over the extended reals the narrowing of the operands is the identity and the product
  into a zero accumulator is a plain sum over the 128 contraction indices, so what a point writes is its block of the whole
  product; the 50 row blocks cover the array, hence the array ends holding the whole product.
-/
import proofs.«402748_j42056319762602_2_alg».proof.Proof.Gen.KernelIdeal.Frame
import proofs.«402748_j42056319762602_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

/-! ## The contraction's operand indices, axis by axis -/

/-- The left operand is read on its row axis at the output's row. -/
theorem lhsRow4 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand is read on its column axis at the contraction index. -/
theorem lhsCol4 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand is read on its row axis at the contraction index. -/
theorem rhsRow4 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand is read on its column axis at the output's column. -/
theorem rhsCol4 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## One grid point: the body's payload is the product of its two blocks -/

/-- Over the extended reals the narrowing of either operand is the identity, the shape cast is to the same shape, and the
    accumulator is the zero splat: entry `(r, j)` of the payload is the sum over `k` of `x0 (r, k) · x1 (k, j)`. -/
theorem pay4_apply (x0 : Vec Ideal S10000x128 .f32) (x1 : Vec Ideal S128x64 .f32) (r : Fin 10000) (j : Fin 64) :
    k4_pay1 (F := Ideal) x0 x1 (ix2 r j) = ∑ k : Fin 128, x0 (ix2 r k) * x1 (ix2 k j) := by
  unfold k4_pay1
  rw [shapeCast_self]
  refine (Ideal.matmul_constant_zero_apply dot_S10000x128_S128x64_S10000x64_1_0_0_1_n_n none _ _ (ix2 r j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r j) ((contrEquiv1 dot_S10000x128_S128x64_S10000x64_1_0_0_1_n_n 128 rfl rfl).symm k) = ix2 r k := funext fun a => Fin.ext (by
    match a with
    | ⟨0, _⟩ => exact lhsRow4 _ _
    | ⟨1, _⟩ => exact (lhsCol4 _ _).trans hk)
  have er : dot_S10000x128_S128x64_S10000x64_1_0_0_1_n_n.rhsIdx (ix2 r j) ((contrEquiv1 dot_S10000x128_S128x64_S10000x64_1_0_0_1_n_n 128 rfl rfl).symm k) = ix2 k j := funext fun a => Fin.ext (by
    match a with
    | ⟨0, _⟩ => exact (rhsRow4 _ _).trans hk
    | ⟨1, _⟩ => exact rhsCol4 _ _)
  rw [truncf_apply, truncf_apply, el, er]

variable (V : (c : Dev nD) → (b : Ref sig .tc) → Buf (Elt Ideal) ((c : Thread nD τ).loc b))

/-- The zero offsets of an access to a whole buffer, as a constant function. -/
theorem zeroOff4 : (![0, 0] : Fin 2 → Nat) = fun _ => 0 := funext fun a => by fin_cases a <;> rfl

/-- The index maps, over the 50 grid points: the features' and the output's row block is the point's number and their
    column block is 0; the weight's block is (0, 0) at every point. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The features' block at point `t` is rows `10000 t … 10000 t + 9999` of the features. -/
theorem featBlock4 (c : Dev nD) (t : Fin cfg4.N) (x : S10000x128.Idx) (i : S500000x128.Idx)
    (h0 : (i 0).val = t.val * 10000 + (x 0).val) (h1 : (i 1).val = (x 1).val) :
    (iblk4 V c 0 t : Vec Ideal S10000x128 .f32) x = (V c main_v19 : S500000x128.Idx → Elt Ideal .f32) i := by
  obtain ⟨e0, e1, -, -, -, -⟩ := blockIdx4 t
  show (V c main_v19 : S500000x128.Idx → Elt Ideal .f32) (((cfg4.win 0).blk t).view.emb x) = _
  congr 1
  funext a
  apply Fin.ext
  match a with
  | ⟨0, _⟩ => show win4_0.index t (0 : Fin 2) * 10000 + 1 * (x 0).val = (i 0).val; rw [e0, h0]; omega
  | ⟨1, _⟩ => show win4_0.index t (1 : Fin 2) * 128 + 1 * (x 1).val = (i 1).val; rw [e1, h1]; omega

/-- The weight's block at every point is the whole weight. -/
theorem weightBlock4 (c : Dev nD) (t : Fin cfg4.N) (x : S128x64.Idx) :
    (iblk4 V c 1 t : Vec Ideal S128x64 .f32) x = (V c main_arg6 : S128x64.Idx → Elt Ideal .f32) x := by
  obtain ⟨-, -, e0, e1, -, -⟩ := blockIdx4 t
  show (V c main_arg6 : S128x64.Idx → Elt Ideal .f32) (((cfg4.win 1).blk t).view.emb x) = _
  congr 1
  funext a
  apply Fin.ext
  match a with
  | ⟨0, _⟩ => show win4_1.index t (0 : Fin 2) * 128 + 1 * (x 0).val = (x 0).val; rw [e0]; omega
  | ⟨1, _⟩ => show win4_1.index t (1 : Fin 2) * 64 + 1 * (x 1).val = (x 1).val; rw [e1]; omega

/-- An element of the output's block at point `t` sits in the array at row `10000 t` plus its row, same column. -/
theorem outBlock4 (t : Fin cfg4.N) (y : S10000x64.Idx) :
    ((((cfg4.win 2).blk t).view.emb y : S500000x64.Idx) 0).val = t.val * 10000 + (y 0).val
      ∧ ((((cfg4.win 2).blk t).view.emb y : S500000x64.Idx) 1).val = (y 1).val := by
  obtain ⟨-, -, -, -, e0, e1⟩ := blockIdx4 t
  constructor
  · show win4_2.index t (0 : Fin 2) * 10000 + 1 * (y 0).val = _; rw [e0]; omega
  · show win4_2.index t (1 : Fin 2) * 64 + 1 * (y 1).val = _; rw [e1]; omega

/-- At point `t`, entry `(r, j)` of the payload of the two blocks is entry `(10000 t + r, j)` of the whole product. -/
theorem pointMm4 (c : Dev nD) (t : Fin cfg4.N) (r : Fin 10000) (j : Fin 64) (R : Fin 500000)
    (hR : R.val = t.val * 10000 + r.val) :
    k4_pay1 (F := Ideal) (iblk4 V c 0 t) (iblk4 V c 1 t) (ix2 r j)
      = mm 500000 128 64 (V c main_v19) (V c main_arg6) (ix2 R j) := by
  rw [pay4_apply, mm_apply]
  refine Finset.sum_congr rfl fun k _ => ?_
  rw [featBlock4 V c t (ix2 r k) (ix2 R k) hR rfl, weightBlock4 V c t (ix2 k j)]

/-- The same at an index of the block, the array's index being the block's embedding of it. -/
theorem blockMm4 (c : Dev nD) (t : Fin cfg4.N) (y : S10000x64.Idx) :
    k4_pay1 (F := Ideal) (iblk4 V c 0 t) (iblk4 V c 1 t) y
      = mm 500000 128 64 (V c main_v19) (V c main_arg6) (((cfg4.win 2).blk t).view.emb y) := by
  obtain ⟨r0, r1⟩ := outBlock4 t y
  have hN : cfg4.N = 50 := N_4
  have hy0 : (y 0).val < 10000 := idx2_lt0 y
  have ht : t.val < 50 := hN ▸ t.isLt
  have hi : (((cfg4.win 2).blk t).view.emb y : S500000x64.Idx) = ix2 (⟨t.val * 10000 + (y 0).val, by omega⟩ : Fin 500000) (y 1) :=
    funext fun a => Fin.ext (by
      match a with
      | ⟨0, _⟩ => exact r0
      | ⟨1, _⟩ => exact r1)
  rw [hi]
  exact (congrArg (k4_pay1 (F := Ideal) (iblk4 V c 0 t) (iblk4 V c 1 t)) (eq_ix2 y)).trans (pointMm4 V c t (y 0) (y 1) _ rfl)

/-! ## From the blocks to the array -/

/-- What point `t` writes back is block `t` of the product of the two arrays as the region finds them. -/
theorem flushedMm4 (c : Dev nD) (t : Fin cfg4.N) :
    (dat4 (F := Ideal) V c).flushed 2 t
      = ((cfg4.win 2).blk t).view.read (Elt Ideal) (mm 500000 128 64 (V c main_v19) (V c main_arg6)) := by
  show (cfg4.win 2).cut (grid4.coords t) ((dat4 V c).after 2 t) = _
  rw [after4_2]
  unfold out4_2
  rw [View.canon_unit_zero zeroOff4]
  simp only [View.ld_unit_zero (S := S10000x128) zeroOff4, View.ld_unit_zero (S := S128x64) zeroOff4]
  funext y
  exact blockMm4 V c t y

/-- An index of the array is in point `t`'s block iff each coordinate is in the block's range on its axis. -/
theorem memBlock4 (t : Fin cfg4.N) (i : S500000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v20).slice (win4_2.rect t)).set ↔ _
  rw [View.set_slice_whole, Rect.mem_set_unit]
  exact Iff.rfl

/-- Every index of the array is in some point's block: row `r` is in block `r / 10000`. -/
theorem cover4 (i : S500000x64.Idx) :
    ∃ t : Fin cfg4.N, (cfg4.win 2).flush t = true ∧ i ∈ ((cfg4.win 2).blk t).view.set := by
  have h0 : (i 0).val < 500000 := idx2_lt0 i
  have h1 : (i 1).val < 64 := idx2_lt1 i
  have hN : cfg4.N = 50 := N_4
  obtain ⟨t, ht⟩ : ∃ t : Fin cfg4.N, t.val = (i 0).val / 10000 := ⟨⟨(i 0).val / 10000, by rw [hN]; omega⟩, rfl⟩
  obtain ⟨-, -, -, -, e0, e1⟩ := blockIdx4 t
  refine ⟨t, flush4_2 t, ?_⟩
  rw [memBlock4]
  intro a
  match a with
  | ⟨0, _⟩ => show win4_2.index t (0 : Fin 2) * 10000 ≤ (i 0).val ∧ (i 0).val < win4_2.index t (0 : Fin 2) * 10000 + 10000; rw [e0]; omega
  | ⟨1, _⟩ => show win4_2.index t (1 : Fin 2) * 64 ≤ (i 1).val ∧ (i 1).val < win4_2.index t (1 : Fin 2) * 64 + 64; rw [e1]; omega

/-- THE VALUE OF THE REGION: after its 50 points the output array is the dense product of the two input arrays. -/
theorem final4 (c : Dev nD) :
    (dat4 (F := Ideal) V c).arrAt 2 cfg4.N = mm 500000 128 64 (V c main_v19) (V c main_arg6) :=
  (dat4 (F := Ideal) V c).arrAt_eq_of_cover 2 (mm 500000 128 64 (V c main_v19) (V c main_arg6))
    (fun t _ => flushedMm4 V c t) cover4

end Cert.KernelIdeal.Val

end
-- ==== Proof.MatL3.lean ====
/-
  The value of the fourth layer's dense product (region 6 of the program): after the region's 50 grid points, its output
  array `[500000, 32]` is the product of the features `[500000, 64]` and the weight `[64, 32]` as the region finds them.

  Each point `t` reads rows `10000 t … 10000 t + 9999` of the features and the whole weight, and writes their product
  to the same rows of the output. Over the extended reals the narrowing of the operands is the identity and the product
  into a zero accumulator is a plain sum over the 64 contraction indices, so what a point writes is its block of the whole
  product; the 50 row blocks cover the array, hence the array ends holding the whole product.
-/
import proofs.«402748_j42056319762602_2_alg».proof.Proof.Gen.KernelIdeal.Frame
import proofs.«402748_j42056319762602_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

/-! ## The contraction's operand indices, axis by axis -/

/-- The left operand is read on its row axis at the output's row. -/
theorem lhsRow6 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- The left operand is read on its column axis at the contraction index. -/
theorem lhsCol6 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand is read on its row axis at the contraction index. -/
theorem rhsRow6 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- The right operand is read on its column axis at the output's column. -/
theorem rhsCol6 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-! ## One grid point: the body's payload is the product of its two blocks -/

/-- Over the extended reals the narrowing of either operand is the identity, the shape cast is to the same shape, and the
    accumulator is the zero splat: entry `(r, j)` of the payload is the sum over `k` of `x0 (r, k) · x1 (k, j)`. -/
theorem pay6_apply (x0 : Vec Ideal S10000x64 .f32) (x1 : Vec Ideal S64x32 .f32) (r : Fin 10000) (j : Fin 32) :
    k6_pay1 (F := Ideal) x0 x1 (ix2 r j) = ∑ k : Fin 64, x0 (ix2 r k) * x1 (ix2 k j) := by
  unfold k6_pay1
  rw [shapeCast_self]
  refine (Ideal.matmul_constant_zero_apply dot_S10000x64_S64x32_S10000x32_1_0_0_1_n_n none _ _ (ix2 r j)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 r j) ((contrEquiv1 dot_S10000x64_S64x32_S10000x32_1_0_0_1_n_n 64 rfl rfl).symm k) = ix2 r k := funext fun a => Fin.ext (by
    match a with
    | ⟨0, _⟩ => exact lhsRow6 _ _
    | ⟨1, _⟩ => exact (lhsCol6 _ _).trans hk)
  have er : dot_S10000x64_S64x32_S10000x32_1_0_0_1_n_n.rhsIdx (ix2 r j) ((contrEquiv1 dot_S10000x64_S64x32_S10000x32_1_0_0_1_n_n 64 rfl rfl).symm k) = ix2 k j := funext fun a => Fin.ext (by
    match a with
    | ⟨0, _⟩ => exact (rhsRow6 _ _).trans hk
    | ⟨1, _⟩ => exact rhsCol6 _ _)
  rw [truncf_apply, truncf_apply, el, er]

variable (V : (c : Dev nD) → (b : Ref sig .tc) → Buf (Elt Ideal) ((c : Thread nD τ).loc b))

/-- The zero offsets of an access to a whole buffer, as a constant function. -/
theorem zeroOff6 : (![0, 0] : Fin 2 → Nat) = fun _ => 0 := funext fun a => by fin_cases a <;> rfl

/-- The index maps, over the 50 grid points: the features' and the output's row block is the point's number and their
    column block is 0; the weight's block is (0, 0) at every point. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The features' block at point `t` is rows `10000 t … 10000 t + 9999` of the features. -/
theorem featBlock6 (c : Dev nD) (t : Fin cfg6.N) (x : S10000x64.Idx) (i : S500000x64.Idx)
    (h0 : (i 0).val = t.val * 10000 + (x 0).val) (h1 : (i 1).val = (x 1).val) :
    (iblk6 V c 0 t : Vec Ideal S10000x64 .f32) x = (V c main_v29 : S500000x64.Idx → Elt Ideal .f32) i := by
  obtain ⟨e0, e1, -, -, -, -⟩ := blockIdx6 t
  show (V c main_v29 : S500000x64.Idx → Elt Ideal .f32) (((cfg6.win 0).blk t).view.emb x) = _
  congr 1
  funext a
  apply Fin.ext
  match a with
  | ⟨0, _⟩ => show win6_0.index t (0 : Fin 2) * 10000 + 1 * (x 0).val = (i 0).val; rw [e0, h0]; omega
  | ⟨1, _⟩ => show win6_0.index t (1 : Fin 2) * 64 + 1 * (x 1).val = (i 1).val; rw [e1, h1]; omega

/-- The weight's block at every point is the whole weight. -/
theorem weightBlock6 (c : Dev nD) (t : Fin cfg6.N) (x : S64x32.Idx) :
    (iblk6 V c 1 t : Vec Ideal S64x32 .f32) x = (V c main_arg8 : S64x32.Idx → Elt Ideal .f32) x := by
  obtain ⟨-, -, e0, e1, -, -⟩ := blockIdx6 t
  show (V c main_arg8 : S64x32.Idx → Elt Ideal .f32) (((cfg6.win 1).blk t).view.emb x) = _
  congr 1
  funext a
  apply Fin.ext
  match a with
  | ⟨0, _⟩ => show win6_1.index t (0 : Fin 2) * 64 + 1 * (x 0).val = (x 0).val; rw [e0]; omega
  | ⟨1, _⟩ => show win6_1.index t (1 : Fin 2) * 32 + 1 * (x 1).val = (x 1).val; rw [e1]; omega

/-- An element of the output's block at point `t` sits in the array at row `10000 t` plus its row, same column. -/
theorem outBlock6 (t : Fin cfg6.N) (y : S10000x32.Idx) :
    ((((cfg6.win 2).blk t).view.emb y : S500000x32.Idx) 0).val = t.val * 10000 + (y 0).val
      ∧ ((((cfg6.win 2).blk t).view.emb y : S500000x32.Idx) 1).val = (y 1).val := by
  obtain ⟨-, -, -, -, e0, e1⟩ := blockIdx6 t
  constructor
  · show win6_2.index t (0 : Fin 2) * 10000 + 1 * (y 0).val = _; rw [e0]; omega
  · show win6_2.index t (1 : Fin 2) * 32 + 1 * (y 1).val = _; rw [e1]; omega

/-- At point `t`, entry `(r, j)` of the payload of the two blocks is entry `(10000 t + r, j)` of the whole product. -/
theorem pointMm6 (c : Dev nD) (t : Fin cfg6.N) (r : Fin 10000) (j : Fin 32) (R : Fin 500000)
    (hR : R.val = t.val * 10000 + r.val) :
    k6_pay1 (F := Ideal) (iblk6 V c 0 t) (iblk6 V c 1 t) (ix2 r j)
      = mm 500000 64 32 (V c main_v29) (V c main_arg8) (ix2 R j) := by
  rw [pay6_apply, mm_apply]
  refine Finset.sum_congr rfl fun k _ => ?_
  rw [featBlock6 V c t (ix2 r k) (ix2 R k) hR rfl, weightBlock6 V c t (ix2 k j)]

/-- The same at an index of the block, the array's index being the block's embedding of it. -/
theorem blockMm6 (c : Dev nD) (t : Fin cfg6.N) (y : S10000x32.Idx) :
    k6_pay1 (F := Ideal) (iblk6 V c 0 t) (iblk6 V c 1 t) y
      = mm 500000 64 32 (V c main_v29) (V c main_arg8) (((cfg6.win 2).blk t).view.emb y) := by
  obtain ⟨r0, r1⟩ := outBlock6 t y
  have hN : cfg6.N = 50 := N_6
  have hy0 : (y 0).val < 10000 := idx2_lt0 y
  have ht : t.val < 50 := hN ▸ t.isLt
  have hi : (((cfg6.win 2).blk t).view.emb y : S500000x32.Idx) = ix2 (⟨t.val * 10000 + (y 0).val, by omega⟩ : Fin 500000) (y 1) :=
    funext fun a => Fin.ext (by
      match a with
      | ⟨0, _⟩ => exact r0
      | ⟨1, _⟩ => exact r1)
  rw [hi]
  exact (congrArg (k6_pay1 (F := Ideal) (iblk6 V c 0 t) (iblk6 V c 1 t)) (eq_ix2 y)).trans (pointMm6 V c t (y 0) (y 1) _ rfl)

/-! ## From the blocks to the array -/

/-- What point `t` writes back is block `t` of the product of the two arrays as the region finds them. -/
theorem flushedMm6 (c : Dev nD) (t : Fin cfg6.N) :
    (dat6 (F := Ideal) V c).flushed 2 t
      = ((cfg6.win 2).blk t).view.read (Elt Ideal) (mm 500000 64 32 (V c main_v29) (V c main_arg8)) := by
  show (cfg6.win 2).cut (grid6.coords t) ((dat6 V c).after 2 t) = _
  rw [after6_2]
  unfold out6_2
  rw [View.canon_unit_zero zeroOff6]
  simp only [View.ld_unit_zero (S := S10000x64) zeroOff6, View.ld_unit_zero (S := S64x32) zeroOff6]
  funext y
  exact blockMm6 V c t y

/-- An index of the array is in point `t`'s block iff each coordinate is in the block's range on its axis. -/
theorem memBlock6 (t : Fin cfg6.N) (i : S500000x32.Idx) :
    i ∈ ((cfg6.win 2).blk t).view.set ↔ ∀ a : Fin 2, win6_2.index t a * S10000x32.size a ≤ (i a).val ∧ (i a).val < win6_2.index t a * S10000x32.size a + S10000x32.size a := by
  show i ∈ ((View.whole main_v30).slice (win6_2.rect t)).set ↔ _
  rw [View.set_slice_whole, Rect.mem_set_unit]
  exact Iff.rfl

/-- Every index of the array is in some point's block: row `r` is in block `r / 10000`. -/
theorem cover6 (i : S500000x32.Idx) :
    ∃ t : Fin cfg6.N, (cfg6.win 2).flush t = true ∧ i ∈ ((cfg6.win 2).blk t).view.set := by
  have h0 : (i 0).val < 500000 := idx2_lt0 i
  have h1 : (i 1).val < 32 := idx2_lt1 i
  have hN : cfg6.N = 50 := N_6
  obtain ⟨t, ht⟩ : ∃ t : Fin cfg6.N, t.val = (i 0).val / 10000 := ⟨⟨(i 0).val / 10000, by rw [hN]; omega⟩, rfl⟩
  obtain ⟨-, -, -, -, e0, e1⟩ := blockIdx6 t
  refine ⟨t, flush6_2 t, ?_⟩
  rw [memBlock6]
  intro a
  match a with
  | ⟨0, _⟩ => show win6_2.index t (0 : Fin 2) * 10000 ≤ (i 0).val ∧ (i 0).val < win6_2.index t (0 : Fin 2) * 10000 + 10000; rw [e0]; omega
  | ⟨1, _⟩ => show win6_2.index t (1 : Fin 2) * 32 ≤ (i 1).val ∧ (i 1).val < win6_2.index t (1 : Fin 2) * 32 + 32; rw [e1]; omega

/-- THE VALUE OF THE REGION: after its 50 points the output array is the dense product of the two input arrays. -/
theorem final6 (c : Dev nD) :
    (dat6 (F := Ideal) V c).arrAt 2 cfg6.N = mm 500000 64 32 (V c main_v29) (V c main_arg8) :=
  (dat6 (F := Ideal) V c).arrAt_eq_of_cover 2 (mm 500000 64 32 (V c main_v29) (V c main_arg8))
    (fun t _ => flushedMm6 V c t) cover6

end Cert.KernelIdeal.Val

end
-- ==== Proof.MatL4.lean ====
/-
  The value of the last layer's dense product (region 8 of the program): after the region's 50 grid points, its output
  array `[500000, 2]` is the product of the features `[500000, 32]` and the weight `[32, 2]` as the region finds them.

  Each point `t` reads rows `10000 t … 10000 t + 9999` of the features and the whole weight, and writes their product
  to the same rows of the output. Over the extended reals the narrowing of the operands is the identity and the product
  into a zero accumulator is a plain sum over the 32 contraction indices, so what a point writes is its block of the whole
  product; the 50 row blocks cover the array, hence the array ends holding the whole product.
-/
import proofs.«402748_j42056319762602_2_alg».proof.Proof.Gen.KernelIdeal.Frame
import proofs.«402748_j42056319762602_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

/-! ## The contraction's operand indices, axis by axis -/

/-- The left operand is read on its row axis at the output's row. -/
theorem lhsRow8 (i : S10000x2.Idx) (q : dot_S10000x32_S32x2_S10000x2_1_0_0_1_n_n.contr.Idx) :
    (dot_S10000x32_S32x2_S10000x2_1_0_0_1_n_n.lhsIdx i q 0).val = (i 0).val := by
  unfold DotDims.lhsIdx
  rw [dif_neg (show ¬(0 : Fin S10000x32.rank) ∈ dot_S10000x32_S32x2_S10000x2_1_0_0_1_n_n.lhsBatch by decide), dif_pos (show (0 : Fin S10000x32.rank) ∈ dot_S10000x32_S32x2_S10000x2_1_0_0_1_n_n.lhsNonContracting by decide)]
  rfl
/-- The left operand is read on its column axis at the contraction index. -/
theorem lhsCol8 (i : S10000x2.Idx) (q : dot_S10000x32_S32x2_S10000x2_1_0_0_1_n_n.contr.Idx) :
    (dot_S10000x32_S32x2_S10000x2_1_0_0_1_n_n.lhsIdx i q 1).val = (q ⟨0, by decide⟩).val :=
  dot_S10000x32_S32x2_S10000x2_1_0_0_1_n_n.lhsIdx_val_of_single rfl i q
/-- The right operand is read on its row axis at the contraction index. -/
theorem rhsRow8 (i : S10000x2.Idx) (q : dot_S10000x32_S32x2_S10000x2_1_0_0_1_n_n.contr.Idx) :
    (dot_S10000x32_S32x2_S10000x2_1_0_0_1_n_n.rhsIdx i q 0).val = (q ⟨0, by decide⟩).val :=
  dot_S10000x32_S32x2_S10000x2_1_0_0_1_n_n.rhsIdx_val_of_single rfl i q
/-- The right operand is read on its column axis at the output's column. -/
theorem rhsCol8 (i : S10000x2.Idx) (q : dot_S10000x32_S32x2_S10000x2_1_0_0_1_n_n.contr.Idx) :
    (dot_S10000x32_S32x2_S10000x2_1_0_0_1_n_n.rhsIdx i q 1).val = (i 1).val := by
  unfold DotDims.rhsIdx
  rw [dif_neg (show ¬(1 : Fin S32x2.rank) ∈ dot_S10000x32_S32x2_S10000x2_1_0_0_1_n_n.rhsBatch by decide), dif_pos (show (1 : Fin S32x2.rank) ∈ dot_S10000x32_S32x2_S10000x2_1_0_0_1_n_n.rhsNonContracting by decide)]
  rfl

/-! ## One grid point: the body's payload is the product of its two blocks -/

/-- Over the extended reals the narrowing of either operand is the identity, the shape cast is to the same shape, and the
    accumulator is the zero splat: entry `(r, j)` of the payload is the sum over `k` of `x0 (r, k) · x1 (k, j)`. -/
theorem pay8_apply (x0 : Vec Ideal S10000x32 .f32) (x1 : Vec Ideal S32x2 .f32) (r : Fin 10000) (j : Fin 2) :
    k8_pay1 (F := Ideal) x0 x1 (ix2 r j) = ∑ k : Fin 32, x0 (ix2 r k) * x1 (ix2 k j) := by
  unfold k8_pay1
  rw [shapeCast_self]
  refine (Ideal.matmul_constant_zero_apply dot_S10000x32_S32x2_S10000x2_1_0_0_1_n_n none _ _ (ix2 r j)).trans ?_
  rw [← Equiv.sum_comp (contrEquiv1 dot_S10000x32_S32x2_S10000x2_1_0_0_1_n_n 32 rfl rfl).symm]
  refine Finset.sum_congr rfl fun k _ => ?_
  have hk := contrEquiv1_symm_val dot_S10000x32_S32x2_S10000x2_1_0_0_1_n_n 32 rfl rfl k
  have el : dot_S10000x32_S32x2_S10000x2_1_0_0_1_n_n.lhsIdx (ix2 r j) ((contrEquiv1 dot_S10000x32_S32x2_S10000x2_1_0_0_1_n_n 32 rfl rfl).symm k) = ix2 r k := funext fun a => Fin.ext (by
    match a with
    | ⟨0, _⟩ => exact lhsRow8 _ _
    | ⟨1, _⟩ => exact (lhsCol8 _ _).trans hk)
  have er : dot_S10000x32_S32x2_S10000x2_1_0_0_1_n_n.rhsIdx (ix2 r j) ((contrEquiv1 dot_S10000x32_S32x2_S10000x2_1_0_0_1_n_n 32 rfl rfl).symm k) = ix2 k j := funext fun a => Fin.ext (by
    match a with
    | ⟨0, _⟩ => exact (rhsRow8 _ _).trans hk
    | ⟨1, _⟩ => exact rhsCol8 _ _)
  rw [truncf_apply, truncf_apply, el, er]

variable (V : (c : Dev nD) → (b : Ref sig .tc) → Buf (Elt Ideal) ((c : Thread nD τ).loc b))

/-- The zero offsets of an access to a whole buffer, as a constant function. -/
theorem zeroOff8 : (![0, 0] : Fin 2 → Nat) = fun _ => 0 := funext fun a => by fin_cases a <;> rfl

/-- The index maps, over the 50 grid points: the features' and the output's row block is the point's number and their
    column block is 0; the weight's block is (0, 0) at every point. -/
theorem blockIdx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The features' block at point `t` is rows `10000 t … 10000 t + 9999` of the features. -/
theorem featBlock8 (c : Dev nD) (t : Fin cfg8.N) (x : S10000x32.Idx) (i : S500000x32.Idx)
    (h0 : (i 0).val = t.val * 10000 + (x 0).val) (h1 : (i 1).val = (x 1).val) :
    (iblk8 V c 0 t : Vec Ideal S10000x32 .f32) x = (V c main_v39 : S500000x32.Idx → Elt Ideal .f32) i := by
  obtain ⟨e0, e1, -, -, -, -⟩ := blockIdx8 t
  show (V c main_v39 : S500000x32.Idx → Elt Ideal .f32) (((cfg8.win 0).blk t).view.emb x) = _
  congr 1
  funext a
  apply Fin.ext
  match a with
  | ⟨0, _⟩ => show win8_0.index t (0 : Fin 2) * 10000 + 1 * (x 0).val = (i 0).val; rw [e0, h0]; omega
  | ⟨1, _⟩ => show win8_0.index t (1 : Fin 2) * 32 + 1 * (x 1).val = (i 1).val; rw [e1, h1]; omega

/-- The weight's block at every point is the whole weight. -/
theorem weightBlock8 (c : Dev nD) (t : Fin cfg8.N) (x : S32x2.Idx) :
    (iblk8 V c 1 t : Vec Ideal S32x2 .f32) x = (V c main_arg10 : S32x2.Idx → Elt Ideal .f32) x := by
  obtain ⟨-, -, e0, e1, -, -⟩ := blockIdx8 t
  show (V c main_arg10 : S32x2.Idx → Elt Ideal .f32) (((cfg8.win 1).blk t).view.emb x) = _
  congr 1
  funext a
  apply Fin.ext
  match a with
  | ⟨0, _⟩ => show win8_1.index t (0 : Fin 2) * 32 + 1 * (x 0).val = (x 0).val; rw [e0]; omega
  | ⟨1, _⟩ => show win8_1.index t (1 : Fin 2) * 2 + 1 * (x 1).val = (x 1).val; rw [e1]; omega

/-- An element of the output's block at point `t` sits in the array at row `10000 t` plus its row, same column. -/
theorem outBlock8 (t : Fin cfg8.N) (y : S10000x2.Idx) :
    ((((cfg8.win 2).blk t).view.emb y : S500000x2.Idx) 0).val = t.val * 10000 + (y 0).val
      ∧ ((((cfg8.win 2).blk t).view.emb y : S500000x2.Idx) 1).val = (y 1).val := by
  obtain ⟨-, -, -, -, e0, e1⟩ := blockIdx8 t
  constructor
  · show win8_2.index t (0 : Fin 2) * 10000 + 1 * (y 0).val = _; rw [e0]; omega
  · show win8_2.index t (1 : Fin 2) * 2 + 1 * (y 1).val = _; rw [e1]; omega

/-- At point `t`, entry `(r, j)` of the payload of the two blocks is entry `(10000 t + r, j)` of the whole product. -/
theorem pointMm8 (c : Dev nD) (t : Fin cfg8.N) (r : Fin 10000) (j : Fin 2) (R : Fin 500000)
    (hR : R.val = t.val * 10000 + r.val) :
    k8_pay1 (F := Ideal) (iblk8 V c 0 t) (iblk8 V c 1 t) (ix2 r j)
      = mm 500000 32 2 (V c main_v39) (V c main_arg10) (ix2 R j) := by
  rw [pay8_apply, mm_apply]
  refine Finset.sum_congr rfl fun k _ => ?_
  rw [featBlock8 V c t (ix2 r k) (ix2 R k) hR rfl, weightBlock8 V c t (ix2 k j)]

/-- The same at an index of the block, the array's index being the block's embedding of it. -/
theorem blockMm8 (c : Dev nD) (t : Fin cfg8.N) (y : S10000x2.Idx) :
    k8_pay1 (F := Ideal) (iblk8 V c 0 t) (iblk8 V c 1 t) y
      = mm 500000 32 2 (V c main_v39) (V c main_arg10) (((cfg8.win 2).blk t).view.emb y) := by
  obtain ⟨r0, r1⟩ := outBlock8 t y
  have hN : cfg8.N = 50 := N_8
  have hy0 : (y 0).val < 10000 := idx2_lt0 y
  have ht : t.val < 50 := hN ▸ t.isLt
  have hi : (((cfg8.win 2).blk t).view.emb y : S500000x2.Idx) = ix2 (⟨t.val * 10000 + (y 0).val, by omega⟩ : Fin 500000) (y 1) :=
    funext fun a => Fin.ext (by
      match a with
      | ⟨0, _⟩ => exact r0
      | ⟨1, _⟩ => exact r1)
  rw [hi]
  exact (congrArg (k8_pay1 (F := Ideal) (iblk8 V c 0 t) (iblk8 V c 1 t)) (eq_ix2 y)).trans (pointMm8 V c t (y 0) (y 1) _ rfl)

/-! ## From the blocks to the array -/

/-- What point `t` writes back is block `t` of the product of the two arrays as the region finds them. -/
theorem flushedMm8 (c : Dev nD) (t : Fin cfg8.N) :
    (dat8 (F := Ideal) V c).flushed 2 t
      = ((cfg8.win 2).blk t).view.read (Elt Ideal) (mm 500000 32 2 (V c main_v39) (V c main_arg10)) := by
  show (cfg8.win 2).cut (grid8.coords t) ((dat8 V c).after 2 t) = _
  rw [after8_2]
  unfold out8_2
  rw [View.canon_unit_zero zeroOff8]
  simp only [View.ld_unit_zero (S := S10000x32) zeroOff8, View.ld_unit_zero (S := S32x2) zeroOff8]
  funext y
  exact blockMm8 V c t y

/-- An index of the array is in point `t`'s block iff each coordinate is in the block's range on its axis. -/
theorem memBlock8 (t : Fin cfg8.N) (i : S500000x2.Idx) :
    i ∈ ((cfg8.win 2).blk t).view.set ↔ ∀ a : Fin 2, win8_2.index t a * S10000x2.size a ≤ (i a).val ∧ (i a).val < win8_2.index t a * S10000x2.size a + S10000x2.size a := by
  show i ∈ ((View.whole main_v40).slice (win8_2.rect t)).set ↔ _
  rw [View.set_slice_whole, Rect.mem_set_unit]
  exact Iff.rfl

/-- Every index of the array is in some point's block: row `r` is in block `r / 10000`. -/
theorem cover8 (i : S500000x2.Idx) :
    ∃ t : Fin cfg8.N, (cfg8.win 2).flush t = true ∧ i ∈ ((cfg8.win 2).blk t).view.set := by
  have h0 : (i 0).val < 500000 := idx2_lt0 i
  have h1 : (i 1).val < 2 := idx2_lt1 i
  have hN : cfg8.N = 50 := N_8
  obtain ⟨t, ht⟩ : ∃ t : Fin cfg8.N, t.val = (i 0).val / 10000 := ⟨⟨(i 0).val / 10000, by rw [hN]; omega⟩, rfl⟩
  obtain ⟨-, -, -, -, e0, e1⟩ := blockIdx8 t
  refine ⟨t, flush8_2 t, ?_⟩
  rw [memBlock8]
  intro a
  match a with
  | ⟨0, _⟩ => show win8_2.index t (0 : Fin 2) * 10000 ≤ (i 0).val ∧ (i 0).val < win8_2.index t (0 : Fin 2) * 10000 + 10000; rw [e0]; omega
  | ⟨1, _⟩ => show win8_2.index t (1 : Fin 2) * 2 ≤ (i 1).val ∧ (i 1).val < win8_2.index t (1 : Fin 2) * 2 + 2; rw [e1]; omega

/-- THE VALUE OF THE REGION: after its 50 points the output array is the dense product of the two input arrays. -/
theorem final8 (c : Dev nD) :
    (dat8 (F := Ideal) V c).arrAt 2 cfg8.N = mm 500000 32 2 (V c main_v39) (V c main_arg10) :=
  (dat8 (F := Ideal) V c).arrAt_eq_of_cover 2 (mm 500000 32 2 (V c main_v39) (V c main_arg10))
    (fun t _ => flushedMm8 V c t) cover8

end Cert.KernelIdeal.Val

end
-- ==== Proof.ActL0.lean ====
/-
  The value of bias region 1: after the region, its output array `[500000, 64]` is the bias row `[1, 64]`
  added to every row of its first input array, then the leaky rectifier, entry by entry.

  The region runs over fifty points; point `t` reads rows `10000 t … 10000 t + 9999` of the first input (all
  64 lanes), the whole bias row, and writes the same rows of the output. The steps: the body's payload read at
  one entry `(p, q)` is the layer's formula of the two blocks' entries; a block's entry `(p, q)` is the array's
  entry `(10000 t + p, q)`, the bias block's lane `q` is the bias row's lane `q`; so what point `t` writes back is
  block `t` of the layer's output; row `r` lies in the block of point `r / 10000`, so the fifty blocks tile the
  array and it ends holding the layer's output everywhere.
-/
import proofs.«402748_j42056319762602_2_alg».proof.Proof.Gen.KernelIdeal.Frame
import proofs.«402748_j42056319762602_2_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_off1 : (![0, 0] : Fin 2 → Nat) = fun _ => 0 := funext fun a => by fin_cases a <;> rfl

/-- The payload of region 1 at row `p`, lane `q`: the two identity casts drop, the row broadcast reads the bias
    row at lane `q`, and the comparison, product and selection are the rectifier's own. -/
theorem pay1_at (x0 : Vec Ideal S10000x64 .f32) (x1 : Vec Ideal S1x64 .f32) (p : Fin 10000) (q : Fin 64) :
    k1_pay1 x0 x1 (ix2 p q) = leaky (x0 (ix2 p q) + x1 (ix2 0 q)) := by
  unfold k1_pay1
  simp only [select_apply, cmpf_apply, broadcast_apply, mulf_apply, addf_apply, shapeCast_self]
  rw [broadcastTo_apply (s := S1x64) (t := S10000x64) x1 broadcasts_S1x64_S10000x64 (ix2 p q) (ix2 0 q) ?_]
  · rfl
  · intro a
    match a with
    | ⟨0, _⟩ => rfl
    | ⟨1, _⟩ => rfl

/-- One entry of what the body leaves in the output buffer: if the first block's entry `y` is the array's entry
    `k`, and the second block's lane `y 1` is the bias row's lane `k 1`, then the buffer's entry `y` is the
    layer's entry `k`. -/
theorem entry1 (A : FVec Ideal ⟨2, ![500000, 64]⟩ .f32) (B : FVec Ideal ⟨2, ![1, 64]⟩ .f32)
    (x0 : Vec Ideal S10000x64 .f32) (x1 : Vec Ideal S1x64 .f32) (y : S10000x64.Idx) (k : S500000x64.Idx)
    (h0 : x0 y = A k) (h1 : x1 (ix2 0 (y 1)) = B (ix2 0 (k 1))) :
    out1_2 x0 x1 y = biasAct 500000 64 A B k := by
  unfold out1_2
  rw [View.canon_unit_zero zero_off1]
  simp only [View.ld_unit_zero (S := S10000x64) zero_off1, View.ld_unit_zero (S := S1x64) zero_off1]
  obtain ⟨p, q, rfl⟩ : ∃ (p : Fin 10000) (q : Fin 64), y = ix2 p q := ⟨y 0, y 1, eq_ix2 y⟩
  rw [pay1_at, h0, h1]
  rfl

/-- The printed index maps over the fifty points: the first input and the output sit at row-block `t`, lane-block 0;
    the bias row sits at block (0, 0) throughout. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the layer's output: the first input's block and the output's block
    sit over the same rows `10000 t … 10000 t + 9999` and all 64 lanes, and the second input's block is the whole
    bias row. -/
theorem blk1_eq (c : Dev nD) (t : Fin cfg1.N) :
    (dat1 (F := Ideal) V c).flushed 2 t
      = ((cfg1.win 2).blk t).view.read (Elt Ideal) (biasAct 500000 64 (V c main_v7) (V c main_v8)) := by
  show (cfg1.win 2).cut (grid1.coords t) ((dat1 V c).after 2 t) = _
  rw [after1_2]
  obtain ⟨e00, e01, e10, e11, e20, e21⟩ := idx1 t
  funext j
  refine entry1 (V c main_v7) (V c main_v8) (iblk1 V c 0 t) (iblk1 V c 1 t) j (((cfg1.win 2).blk t).view.emb j) ?_ ?_
  · show V c main_v7 (((cfg1.win 0).blk t).view.emb j) = V c main_v7 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v8 (((cfg1.win 1).blk t).view.emb (ix2 0 (j 1))) = V c main_v8 (ix2 0 ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of the output array is in point `t`'s block iff each coordinate is in the block's range on its axis. -/
theorem mem_blk1 (t : Fin cfg1.N) (i : S500000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v9).slice (win1_2.rect t)).set ↔ _
  rw [View.set_slice_whole, Rect.mem_set_unit]
  exact Iff.rfl

/-- The fifty blocks tile the output array: row `r` lies in the block of point `r / 10000`, and every point writes back. -/
theorem cover1 (i : S500000x64.Idx) :
    ∃ t : Fin cfg1.N, (cfg1.win 2).flush t = true ∧ i ∈ ((cfg1.win 2).blk t).view.set := by
  have hi0 : (i 0).val < 500000 := (i 0).isLt
  have hi1 : (i 1).val < 64 := (i 1).isLt
  have hN : cfg1.N = 50 := N_1
  let t : Fin cfg1.N := ⟨(i 0).val / 10000, by rw [hN]; omega⟩
  have ht : t.val = (i 0).val / 10000 := rfl
  obtain ⟨-, -, -, -, e20, e21⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE ARRAY after region 1: the bias row added to every row of the first input, then the leaky rectifier, entry by entry. -/
theorem final1 (c : Dev nD) :
    (dat1 (F := Ideal) V c).arrAt 2 cfg1.N = biasAct 500000 64 (V c main_v7) (V c main_v8) :=
  (dat1 (F := Ideal) V c).arrAt_eq_of_cover 2 (biasAct 500000 64 (V c main_v7) (V c main_v8))
    (fun t _ => blk1_eq V c t) cover1

end Cert.KernelIdeal.Val

end
-- ==== Proof.ActL1.lean ====
/-
  The value of bias region 3: after the region, its output array `[500000, 128]` is the bias row `[1, 128]`
  added to every row of its first input array, then the leaky rectifier, entry by entry.

  The region runs over fifty points; point `t` reads rows `10000 t … 10000 t + 9999` of the first input (all
  128 lanes), the whole bias row, and writes the same rows of the output. The steps: the body's payload read at
  one entry `(p, q)` is the layer's formula of the two blocks' entries; a block's entry `(p, q)` is the array's
  entry `(10000 t + p, q)`, the bias block's lane `q` is the bias row's lane `q`; so what point `t` writes back is
  block `t` of the layer's output; row `r` lies in the block of point `r / 10000`, so the fifty blocks tile the
  array and it ends holding the layer's output everywhere.
-/
import proofs.«402748_j42056319762602_2_alg».proof.Proof.Gen.KernelIdeal.Frame
import proofs.«402748_j42056319762602_2_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_off3 : (![0, 0] : Fin 2 → Nat) = fun _ => 0 := funext fun a => by fin_cases a <;> rfl

/-- The payload of region 3 at row `p`, lane `q`: the two identity casts drop, the row broadcast reads the bias
    row at lane `q`, and the comparison, product and selection are the rectifier's own. -/
theorem pay3_at (x0 : Vec Ideal S10000x128 .f32) (x1 : Vec Ideal S1x128 .f32) (p : Fin 10000) (q : Fin 128) :
    k3_pay1 x0 x1 (ix2 p q) = leaky (x0 (ix2 p q) + x1 (ix2 0 q)) := by
  unfold k3_pay1
  simp only [select_apply, cmpf_apply, broadcast_apply, mulf_apply, addf_apply, shapeCast_self]
  rw [broadcastTo_apply (s := S1x128) (t := S10000x128) x1 broadcasts_S1x128_S10000x128 (ix2 p q) (ix2 0 q) ?_]
  · rfl
  · intro a
    match a with
    | ⟨0, _⟩ => rfl
    | ⟨1, _⟩ => rfl

/-- One entry of what the body leaves in the output buffer: if the first block's entry `y` is the array's entry
    `k`, and the second block's lane `y 1` is the bias row's lane `k 1`, then the buffer's entry `y` is the
    layer's entry `k`. -/
theorem entry3 (A : FVec Ideal ⟨2, ![500000, 128]⟩ .f32) (B : FVec Ideal ⟨2, ![1, 128]⟩ .f32)
    (x0 : Vec Ideal S10000x128 .f32) (x1 : Vec Ideal S1x128 .f32) (y : S10000x128.Idx) (k : S500000x128.Idx)
    (h0 : x0 y = A k) (h1 : x1 (ix2 0 (y 1)) = B (ix2 0 (k 1))) :
    out3_2 x0 x1 y = biasAct 500000 128 A B k := by
  unfold out3_2
  rw [View.canon_unit_zero zero_off3]
  simp only [View.ld_unit_zero (S := S10000x128) zero_off3, View.ld_unit_zero (S := S1x128) zero_off3]
  obtain ⟨p, q, rfl⟩ : ∃ (p : Fin 10000) (q : Fin 128), y = ix2 p q := ⟨y 0, y 1, eq_ix2 y⟩
  rw [pay3_at, h0, h1]
  rfl

/-- The printed index maps over the fifty points: the first input and the output sit at row-block `t`, lane-block 0;
    the bias row sits at block (0, 0) throughout. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the layer's output: the first input's block and the output's block
    sit over the same rows `10000 t … 10000 t + 9999` and all 128 lanes, and the second input's block is the whole
    bias row. -/
theorem blk3_eq (c : Dev nD) (t : Fin cfg3.N) :
    (dat3 (F := Ideal) V c).flushed 2 t
      = ((cfg3.win 2).blk t).view.read (Elt Ideal) (biasAct 500000 128 (V c main_v17) (V c main_v18)) := by
  show (cfg3.win 2).cut (grid3.coords t) ((dat3 V c).after 2 t) = _
  rw [after3_2]
  obtain ⟨e00, e01, e10, e11, e20, e21⟩ := idx3 t
  funext j
  refine entry3 (V c main_v17) (V c main_v18) (iblk3 V c 0 t) (iblk3 V c 1 t) j (((cfg3.win 2).blk t).view.emb j) ?_ ?_
  · show V c main_v17 (((cfg3.win 0).blk t).view.emb j) = V c main_v17 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · show V c main_v18 (((cfg3.win 1).blk t).view.emb (ix2 0 (j 1))) = V c main_v18 (ix2 0 ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the output array is in point `t`'s block iff each coordinate is in the block's range on its axis. -/
theorem mem_blk3 (t : Fin cfg3.N) (i : S500000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v19).slice (win3_2.rect t)).set ↔ _
  rw [View.set_slice_whole, Rect.mem_set_unit]
  exact Iff.rfl

/-- The fifty blocks tile the output array: row `r` lies in the block of point `r / 10000`, and every point writes back. -/
theorem cover3 (i : S500000x128.Idx) :
    ∃ t : Fin cfg3.N, (cfg3.win 2).flush t = true ∧ i ∈ ((cfg3.win 2).blk t).view.set := by
  have hi0 : (i 0).val < 500000 := (i 0).isLt
  have hi1 : (i 1).val < 128 := (i 1).isLt
  have hN : cfg3.N = 50 := N_3
  let t : Fin cfg3.N := ⟨(i 0).val / 10000, by rw [hN]; omega⟩
  have ht : t.val = (i 0).val / 10000 := rfl
  obtain ⟨-, -, -, -, e20, e21⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- THE ARRAY after region 3: the bias row added to every row of the first input, then the leaky rectifier, entry by entry. -/
theorem final3 (c : Dev nD) :
    (dat3 (F := Ideal) V c).arrAt 2 cfg3.N = biasAct 500000 128 (V c main_v17) (V c main_v18) :=
  (dat3 (F := Ideal) V c).arrAt_eq_of_cover 2 (biasAct 500000 128 (V c main_v17) (V c main_v18))
    (fun t _ => blk3_eq V c t) cover3

end Cert.KernelIdeal.Val

end
-- ==== Proof.ActL2.lean ====
/-
  The value of bias region 5: after the region, its output array `[500000, 64]` is the bias row `[1, 64]`
  added to every row of its first input array, then the leaky rectifier, entry by entry.

  The region runs over fifty points; point `t` reads rows `10000 t … 10000 t + 9999` of the first input (all
  64 lanes), the whole bias row, and writes the same rows of the output. The steps: the body's payload read at
  one entry `(p, q)` is the layer's formula of the two blocks' entries; a block's entry `(p, q)` is the array's
  entry `(10000 t + p, q)`, the bias block's lane `q` is the bias row's lane `q`; so what point `t` writes back is
  block `t` of the layer's output; row `r` lies in the block of point `r / 10000`, so the fifty blocks tile the
  array and it ends holding the layer's output everywhere.
-/
import proofs.«402748_j42056319762602_2_alg».proof.Proof.Gen.KernelIdeal.Frame
import proofs.«402748_j42056319762602_2_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_off5 : (![0, 0] : Fin 2 → Nat) = fun _ => 0 := funext fun a => by fin_cases a <;> rfl

/-- The payload of region 5 at row `p`, lane `q`: the two identity casts drop, the row broadcast reads the bias
    row at lane `q`, and the comparison, product and selection are the rectifier's own. -/
theorem pay5_at (x0 : Vec Ideal S10000x64 .f32) (x1 : Vec Ideal S1x64 .f32) (p : Fin 10000) (q : Fin 64) :
    k5_pay1 x0 x1 (ix2 p q) = leaky (x0 (ix2 p q) + x1 (ix2 0 q)) := by
  unfold k5_pay1
  simp only [select_apply, cmpf_apply, broadcast_apply, mulf_apply, addf_apply, shapeCast_self]
  rw [broadcastTo_apply (s := S1x64) (t := S10000x64) x1 broadcasts_S1x64_S10000x64 (ix2 p q) (ix2 0 q) ?_]
  · rfl
  · intro a
    match a with
    | ⟨0, _⟩ => rfl
    | ⟨1, _⟩ => rfl

/-- One entry of what the body leaves in the output buffer: if the first block's entry `y` is the array's entry
    `k`, and the second block's lane `y 1` is the bias row's lane `k 1`, then the buffer's entry `y` is the
    layer's entry `k`. -/
theorem entry5 (A : FVec Ideal ⟨2, ![500000, 64]⟩ .f32) (B : FVec Ideal ⟨2, ![1, 64]⟩ .f32)
    (x0 : Vec Ideal S10000x64 .f32) (x1 : Vec Ideal S1x64 .f32) (y : S10000x64.Idx) (k : S500000x64.Idx)
    (h0 : x0 y = A k) (h1 : x1 (ix2 0 (y 1)) = B (ix2 0 (k 1))) :
    out5_2 x0 x1 y = biasAct 500000 64 A B k := by
  unfold out5_2
  rw [View.canon_unit_zero zero_off5]
  simp only [View.ld_unit_zero (S := S10000x64) zero_off5, View.ld_unit_zero (S := S1x64) zero_off5]
  obtain ⟨p, q, rfl⟩ : ∃ (p : Fin 10000) (q : Fin 64), y = ix2 p q := ⟨y 0, y 1, eq_ix2 y⟩
  rw [pay5_at, h0, h1]
  rfl

/-- The printed index maps over the fifty points: the first input and the output sit at row-block `t`, lane-block 0;
    the bias row sits at block (0, 0) throughout. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the layer's output: the first input's block and the output's block
    sit over the same rows `10000 t … 10000 t + 9999` and all 64 lanes, and the second input's block is the whole
    bias row. -/
theorem blk5_eq (c : Dev nD) (t : Fin cfg5.N) :
    (dat5 (F := Ideal) V c).flushed 2 t
      = ((cfg5.win 2).blk t).view.read (Elt Ideal) (biasAct 500000 64 (V c main_v27) (V c main_v28)) := by
  show (cfg5.win 2).cut (grid5.coords t) ((dat5 V c).after 2 t) = _
  rw [after5_2]
  obtain ⟨e00, e01, e10, e11, e20, e21⟩ := idx5 t
  funext j
  refine entry5 (V c main_v27) (V c main_v28) (iblk5 V c 0 t) (iblk5 V c 1 t) j (((cfg5.win 2).blk t).view.emb j) ?_ ?_
  · show V c main_v27 (((cfg5.win 0).blk t).view.emb j) = V c main_v27 (((cfg5.win 2).blk t).view.emb j)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  · show V c main_v28 (((cfg5.win 1).blk t).view.emb (ix2 0 (j 1))) = V c main_v28 (ix2 0 ((((cfg5.win 2).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega

/-- An index of the output array is in point `t`'s block iff each coordinate is in the block's range on its axis. -/
theorem mem_blk5 (t : Fin cfg5.N) (i : S500000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v29).slice (win5_2.rect t)).set ↔ _
  rw [View.set_slice_whole, Rect.mem_set_unit]
  exact Iff.rfl

/-- The fifty blocks tile the output array: row `r` lies in the block of point `r / 10000`, and every point writes back. -/
theorem cover5 (i : S500000x64.Idx) :
    ∃ t : Fin cfg5.N, (cfg5.win 2).flush t = true ∧ i ∈ ((cfg5.win 2).blk t).view.set := by
  have hi0 : (i 0).val < 500000 := (i 0).isLt
  have hi1 : (i 1).val < 64 := (i 1).isLt
  have hN : cfg5.N = 50 := N_5
  let t : Fin cfg5.N := ⟨(i 0).val / 10000, by rw [hN]; omega⟩
  have ht : t.val = (i 0).val / 10000 := rfl
  obtain ⟨-, -, -, -, e20, e21⟩ := idx5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE ARRAY after region 5: the bias row added to every row of the first input, then the leaky rectifier, entry by entry. -/
theorem final5 (c : Dev nD) :
    (dat5 (F := Ideal) V c).arrAt 2 cfg5.N = biasAct 500000 64 (V c main_v27) (V c main_v28) :=
  (dat5 (F := Ideal) V c).arrAt_eq_of_cover 2 (biasAct 500000 64 (V c main_v27) (V c main_v28))
    (fun t _ => blk5_eq V c t) cover5

end Cert.KernelIdeal.Val

end
-- ==== Proof.ActL3.lean ====
/-
  The value of bias region 7: after the region, its output array `[500000, 32]` is the bias row `[1, 32]`
  added to every row of its first input array, then the leaky rectifier, entry by entry.

  The region runs over fifty points; point `t` reads rows `10000 t … 10000 t + 9999` of the first input (all
  32 lanes), the whole bias row, and writes the same rows of the output. The steps: the body's payload read at
  one entry `(p, q)` is the layer's formula of the two blocks' entries; a block's entry `(p, q)` is the array's
  entry `(10000 t + p, q)`, the bias block's lane `q` is the bias row's lane `q`; so what point `t` writes back is
  block `t` of the layer's output; row `r` lies in the block of point `r / 10000`, so the fifty blocks tile the
  array and it ends holding the layer's output everywhere.
-/
import proofs.«402748_j42056319762602_2_alg».proof.Proof.Gen.KernelIdeal.Frame
import proofs.«402748_j42056319762602_2_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_off7 : (![0, 0] : Fin 2 → Nat) = fun _ => 0 := funext fun a => by fin_cases a <;> rfl

/-- The payload of region 7 at row `p`, lane `q`: the two identity casts drop, the row broadcast reads the bias
    row at lane `q`, and the comparison, product and selection are the rectifier's own. -/
theorem pay7_at (x0 : Vec Ideal S10000x32 .f32) (x1 : Vec Ideal S1x32 .f32) (p : Fin 10000) (q : Fin 32) :
    k7_pay1 x0 x1 (ix2 p q) = leaky (x0 (ix2 p q) + x1 (ix2 0 q)) := by
  unfold k7_pay1
  simp only [select_apply, cmpf_apply, broadcast_apply, mulf_apply, addf_apply, shapeCast_self]
  rw [broadcastTo_apply (s := S1x32) (t := S10000x32) x1 broadcasts_S1x32_S10000x32 (ix2 p q) (ix2 0 q) ?_]
  · rfl
  · intro a
    match a with
    | ⟨0, _⟩ => rfl
    | ⟨1, _⟩ => rfl

/-- One entry of what the body leaves in the output buffer: if the first block's entry `y` is the array's entry
    `k`, and the second block's lane `y 1` is the bias row's lane `k 1`, then the buffer's entry `y` is the
    layer's entry `k`. -/
theorem entry7 (A : FVec Ideal ⟨2, ![500000, 32]⟩ .f32) (B : FVec Ideal ⟨2, ![1, 32]⟩ .f32)
    (x0 : Vec Ideal S10000x32 .f32) (x1 : Vec Ideal S1x32 .f32) (y : S10000x32.Idx) (k : S500000x32.Idx)
    (h0 : x0 y = A k) (h1 : x1 (ix2 0 (y 1)) = B (ix2 0 (k 1))) :
    out7_2 x0 x1 y = biasAct 500000 32 A B k := by
  unfold out7_2
  rw [View.canon_unit_zero zero_off7]
  simp only [View.ld_unit_zero (S := S10000x32) zero_off7, View.ld_unit_zero (S := S1x32) zero_off7]
  obtain ⟨p, q, rfl⟩ : ∃ (p : Fin 10000) (q : Fin 32), y = ix2 p q := ⟨y 0, y 1, eq_ix2 y⟩
  rw [pay7_at, h0, h1]
  rfl

/-- The printed index maps over the fifty points: the first input and the output sit at row-block `t`, lane-block 0;
    the bias row sits at block (0, 0) throughout. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- WHAT POINT `t` WRITES BACK is block `t` of the layer's output: the first input's block and the output's block
    sit over the same rows `10000 t … 10000 t + 9999` and all 32 lanes, and the second input's block is the whole
    bias row. -/
theorem blk7_eq (c : Dev nD) (t : Fin cfg7.N) :
    (dat7 (F := Ideal) V c).flushed 2 t
      = ((cfg7.win 2).blk t).view.read (Elt Ideal) (biasAct 500000 32 (V c main_v37) (V c main_v38)) := by
  show (cfg7.win 2).cut (grid7.coords t) ((dat7 V c).after 2 t) = _
  rw [after7_2]
  obtain ⟨e00, e01, e10, e11, e20, e21⟩ := idx7 t
  funext j
  refine entry7 (V c main_v37) (V c main_v38) (iblk7 V c 0 t) (iblk7 V c 1 t) j (((cfg7.win 2).blk t).view.emb j) ?_ ?_
  · show V c main_v37 (((cfg7.win 0).blk t).view.emb j) = V c main_v37 (((cfg7.win 2).blk t).view.emb j)
    refine congrArg _ (funext fun a => Fin.ext ?_)
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 32 + 1 * (j 1).val = win7_2.index t (1 : Fin 2) * 32 + 1 * (j 1).val; omega
  · show V c main_v38 (((cfg7.win 1).blk t).view.emb (ix2 0 (j 1))) = V c main_v38 (ix2 0 ((((cfg7.win 2).blk t).view.emb j) 1))
    refine congrArg _ (funext fun a => Fin.ext ?_)
    match a with
    | ⟨0, _⟩ => show win7_1.index t (0 : Fin 2) * 1 + 1 * 0 = 0; omega
    | ⟨1, _⟩ => show win7_1.index t (1 : Fin 2) * 32 + 1 * (j 1).val = win7_2.index t (1 : Fin 2) * 32 + 1 * (j 1).val; omega

/-- An index of the output array is in point `t`'s block iff each coordinate is in the block's range on its axis. -/
theorem mem_blk7 (t : Fin cfg7.N) (i : S500000x32.Idx) :
    i ∈ ((cfg7.win 2).blk t).view.set ↔ ∀ a : Fin 2, win7_2.index t a * S10000x32.size a ≤ (i a).val ∧ (i a).val < win7_2.index t a * S10000x32.size a + S10000x32.size a := by
  show i ∈ ((View.whole main_v39).slice (win7_2.rect t)).set ↔ _
  rw [View.set_slice_whole, Rect.mem_set_unit]
  exact Iff.rfl

/-- The fifty blocks tile the output array: row `r` lies in the block of point `r / 10000`, and every point writes back. -/
theorem cover7 (i : S500000x32.Idx) :
    ∃ t : Fin cfg7.N, (cfg7.win 2).flush t = true ∧ i ∈ ((cfg7.win 2).blk t).view.set := by
  have hi0 : (i 0).val < 500000 := (i 0).isLt
  have hi1 : (i 1).val < 32 := (i 1).isLt
  have hN : cfg7.N = 50 := N_7
  let t : Fin cfg7.N := ⟨(i 0).val / 10000, by rw [hN]; omega⟩
  have ht : t.val = (i 0).val / 10000 := rfl
  obtain ⟨-, -, -, -, e20, e21⟩ := idx7 t
  refine ⟨t, flush7_2 t, ?_⟩
  rw [mem_blk7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 32 ≤ (i 1).val ∧ (i 1).val < win7_2.index t (1 : Fin 2) * 32 + 32; omega

/-- THE ARRAY after region 7: the bias row added to every row of the first input, then the leaky rectifier, entry by entry. -/
theorem final7 (c : Dev nD) :
    (dat7 (F := Ideal) V c).arrAt 2 cfg7.N = biasAct 500000 32 (V c main_v37) (V c main_v38) :=
  (dat7 (F := Ideal) V c).arrAt_eq_of_cover 2 (biasAct 500000 32 (V c main_v37) (V c main_v38))
    (fun t _ => blk7_eq V c t) cover7

end Cert.KernelIdeal.Val

end
-- ==== Proof.ActL4.lean ====
/-
  The value of bias region 9, the last layer's: after the region, its output array `[500000, 2]` is the bias row
  `[1, 2]` added to every row of its first input array, entry by entry. This layer has no rectifier: the body's
  payload is the sum alone.

  The region runs over fifty points; point `t` reads rows `10000 t … 10000 t + 9999` of the first input (both
  lanes), the whole bias row, and writes the same rows of the output. The steps: the body's payload read at one
  entry `(p, q)` is the first block's entry plus the bias block's lane `q`; a block's entry `(p, q)` is the array's
  entry `(10000 t + p, q)`, the bias block's lane `q` is the bias row's lane `q`; so what point `t` writes back is
  block `t` of the layer's output; row `r` lies in the block of point `r / 10000`, so the fifty blocks tile the
  array and it ends holding the layer's output everywhere.
-/
import proofs.«402748_j42056319762602_2_alg».proof.Proof.Gen.KernelIdeal.Frame
import proofs.«402748_j42056319762602_2_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_off9 : (![0, 0] : Fin 2 → Nat) = fun _ => 0 := funext fun a => by fin_cases a <;> rfl

/-- The payload of region 9 at row `p`, lane `q`: the two identity casts drop and the row broadcast reads the
    bias row at lane `q`; what is left is the sum of the two entries. -/
theorem pay9_at (x0 : Vec Ideal S10000x2 .f32) (x1 : Vec Ideal S1x2 .f32) (p : Fin 10000) (q : Fin 2) :
    k9_pay1 x0 x1 (ix2 p q) = x0 (ix2 p q) + x1 (ix2 0 q) := by
  unfold k9_pay1
  simp only [addf_apply, shapeCast_self]
  rw [broadcastTo_apply (s := S1x2) (t := S10000x2) x1 broadcasts_S1x2_S10000x2 (ix2 p q) (ix2 0 q) ?_]
  intro a
  match a with
  | ⟨0, _⟩ => rfl
  | ⟨1, _⟩ => rfl

/-- One entry of what the body leaves in the output buffer: if the first block's entry `y` is the array's entry
    `k`, and the second block's lane `y 1` is the bias row's lane `k 1`, then the buffer's entry `y` is the
    biased array's entry `k`. -/
theorem entry9 (A : FVec Ideal ⟨2, ![500000, 2]⟩ .f32) (B : FVec Ideal ⟨2, ![1, 2]⟩ .f32)
    (x0 : Vec Ideal S10000x2 .f32) (x1 : Vec Ideal S1x2 .f32) (y : S10000x2.Idx) (k : S500000x2.Idx)
    (h0 : x0 y = A k) (h1 : x1 (ix2 0 (y 1)) = B (ix2 0 (k 1))) :
    out9_2 x0 x1 y = addBias 500000 2 A B k := by
  unfold out9_2
  rw [View.canon_unit_zero zero_off9]
  simp only [View.ld_unit_zero (S := S10000x2) zero_off9, View.ld_unit_zero (S := S1x2) zero_off9]
  obtain ⟨p, q, rfl⟩ : ∃ (p : Fin 10000) (q : Fin 2), y = ix2 p q := ⟨y 0, y 1, eq_ix2 y⟩
  rw [pay9_at, h0, h1]
  rfl

/-- The printed index maps over the fifty points: the first input and the output sit at row-block `t`, lane-block 0;
    the bias row sits at block (0, 0) throughout. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- WHAT POINT `t` WRITES BACK is block `t` of the biased array: the first input's block and the output's block
    sit over the same rows `10000 t … 10000 t + 9999` and both lanes, and the second input's block is the whole
    bias row. -/
theorem blk9_eq (c : Dev nD) (t : Fin cfg9.N) :
    (dat9 (F := Ideal) V c).flushed 2 t
      = ((cfg9.win 2).blk t).view.read (Elt Ideal) (addBias 500000 2 (V c main_v47) (V c main_v48)) := by
  show (cfg9.win 2).cut (grid9.coords t) ((dat9 V c).after 2 t) = _
  rw [after9_2]
  obtain ⟨e00, e01, e10, e11, e20, e21⟩ := idx9 t
  funext j
  refine entry9 (V c main_v47) (V c main_v48) (iblk9 V c 0 t) (iblk9 V c 1 t) j (((cfg9.win 2).blk t).view.emb j) ?_ ?_
  · show V c main_v47 (((cfg9.win 0).blk t).view.emb j) = V c main_v47 (((cfg9.win 2).blk t).view.emb j)
    refine congrArg _ (funext fun a => Fin.ext ?_)
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 2 + 1 * (j 1).val = win9_2.index t (1 : Fin 2) * 2 + 1 * (j 1).val; omega
  · show V c main_v48 (((cfg9.win 1).blk t).view.emb (ix2 0 (j 1))) = V c main_v48 (ix2 0 ((((cfg9.win 2).blk t).view.emb j) 1))
    refine congrArg _ (funext fun a => Fin.ext ?_)
    match a with
    | ⟨0, _⟩ => show win9_1.index t (0 : Fin 2) * 1 + 1 * 0 = 0; omega
    | ⟨1, _⟩ => show win9_1.index t (1 : Fin 2) * 2 + 1 * (j 1).val = win9_2.index t (1 : Fin 2) * 2 + 1 * (j 1).val; omega

/-- An index of the output array is in point `t`'s block iff each coordinate is in the block's range on its axis. -/
theorem mem_blk9 (t : Fin cfg9.N) (i : S500000x2.Idx) :
    i ∈ ((cfg9.win 2).blk t).view.set ↔ ∀ a : Fin 2, win9_2.index t a * S10000x2.size a ≤ (i a).val ∧ (i a).val < win9_2.index t a * S10000x2.size a + S10000x2.size a := by
  show i ∈ ((View.whole main_v49).slice (win9_2.rect t)).set ↔ _
  rw [View.set_slice_whole, Rect.mem_set_unit]
  exact Iff.rfl

/-- The fifty blocks tile the output array: row `r` lies in the block of point `r / 10000`, and every point writes back. -/
theorem cover9 (i : S500000x2.Idx) :
    ∃ t : Fin cfg9.N, (cfg9.win 2).flush t = true ∧ i ∈ ((cfg9.win 2).blk t).view.set := by
  have hi0 : (i 0).val < 500000 := (i 0).isLt
  have hi1 : (i 1).val < 2 := (i 1).isLt
  have hN : cfg9.N = 50 := N_9
  let t : Fin cfg9.N := ⟨(i 0).val / 10000, by rw [hN]; omega⟩
  have ht : t.val = (i 0).val / 10000 := rfl
  obtain ⟨-, -, -, -, e20, e21⟩ := idx9 t
  refine ⟨t, flush9_2 t, ?_⟩
  rw [mem_blk9]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 2 ≤ (i 1).val ∧ (i 1).val < win9_2.index t (1 : Fin 2) * 2 + 2; omega

/-- THE ARRAY after region 9: the bias row added to every row of the first input, with no rectifier. -/
theorem final9 (c : Dev nD) :
    (dat9 (F := Ideal) V c).arrAt 2 cfg9.N = addBias 500000 2 (V c main_v47) (V c main_v48) :=
  (dat9 (F := Ideal) V c).arrAt_eq_of_cover 2 (addBias 500000 2 (V c main_v47) (V c main_v48))
    (fun t _ => blk9_eq V c t) cover9

end Cert.KernelIdeal.Val

end
-- ==== Proof.HostL0.lean ====
/-
  Between the first layer's dense product and its bias step the host forms the sparse aggregate: from the buffer
  holding the product (and the three edge arrays) the operations leave, in one of the two buffers the bias step reads,
  the aggregate `Edge.agg64` of them; and they leave the bias vector, laid out as one row, in the other.
  Both are read off the operations' fold over ANY contents `W` of the buffers before the stretch.

  The take is read in two pieces, so that no step handles the whole composed term at once: its opening eighteen
  operations (the wrap of a negative index, the two range tests and their conjunction along the unit axis) over `W`,
  then its closing five (the gather, the test laid along the rows, the NaN word, the select) over ANY contents `V`,
  the two joined by the fold of a concatenation. The scale, the scatter-add and the reshape are likewise read over
  any `V`, and `V` is then the contents the take leaves: the taken rows in their buffer, the edge arrays and the bias
  vector where they were, since the take writes none of them.
-/
import proofs.«402748_j42056319762602_2_alg».proof.Proof.Gen.KernelIdeal.Frame
import proofs.«402748_j42056319762602_2_alg».proof.Proof.Edge
import proofs.«402748_j42056319762602_2_alg».proof.Proof.Spec
import Idealize.ShloMosaic.Lib.StableHlo.Run
import Idealize.ShloMosaic.Lib.Pipeline.Value
import Idealize.ShloMosaic.PureOps.Ideal
import Idealize.ShloMosaic.Lib.ValueLayout

noncomputable section

namespace Cert.KernelIdeal.Val

open Idealize.ShloMosaic Idealize.ShloMosaic.TcCoe Idealize.SL.Sem Cert.KernelIdeal Cert.KernelIdeal.Gen Cert.KernelIdeal.Edge Cert.Gcn

/-- The buffers after two lists of operations run one after the other. -/
theorem after_append1 (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- The take's first eighteen operations leave the wrapped column indices, as a column. -/
theorem host1_pre_idx (W : Valuation τ sig (Elt Ideal)) :
    StableHlo.after (List.take 18 (hostOps1 (F := Ideal))) W (Proc.devRef .tc main_call0_v5) = idxN (W (Proc.devRef .tc main_arg13)) := by
  simp only [hostOps1, List.take_succ_cons, List.take_zero]
  after_results_simp
  unfold idxN
  rfl

set_option maxHeartbeats 4000000 in
/-- The take's first eighteen operations leave the edge-by-edge range test of the wrapped indices. -/
theorem host1_pre_inRange (W : Valuation τ sig (Elt Ideal)) :
    StableHlo.after (List.take 18 (hostOps1 (F := Ideal))) W (Proc.devRef .tc main_call0_v12) = inRange (W (Proc.devRef .tc main_arg13)) := by
  simp only [hostOps1, List.take_succ_cons, List.take_zero]
  after_results_simp
  simp only [StableHlo.TRef.toBuf, StableHlo.TRef.ofBuf, cast_cast, cast_eq]
  unfold inRange idxN
  rfl

set_option maxHeartbeats 4000000 in
/-- The take's first eighteen operations leave the dense product where it was. -/
theorem host1_pre_src (W : Valuation τ sig (Elt Ideal)) :
    StableHlo.after (List.take 18 (hostOps1 (F := Ideal))) W (Proc.devRef .tc main_v0) = W (Proc.devRef .tc main_v0) := by
  simp only [hostOps1, List.take_succ_cons, List.take_zero]
  after_results_simp

set_option maxHeartbeats 4000000 in
/-- The take's last five operations, over whatever the buffers hold before them: the gather of the rows, the test laid
    along the rows, the NaN word everywhere, and the select of the three. -/
theorem host1_tail (V : Valuation τ sig (Elt Ideal)) :
    StableHlo.after (List.drop 18 (hostOps1 (F := Ideal))) V (Proc.devRef .tc main_v1)
      = select (broadcastInDim S2000000x64 ![0] Facts₀.bcast_S2000000_S2000000x64_0 (V (Proc.devRef .tc main_call0_v12)))
          (Host.gather gather_S500000x64_S2000000x1_S2000000x64_1_0_n_n_0_1_164 (V (Proc.devRef .tc main_v0)) (V (Proc.devRef .tc main_call0_v5)))
          (broadcastInDim S2000000x64 ![] Facts₀.bcast_S_S2000000x64 (constant (F := Ideal) S_ .f32 0x7FC00000#32)) := by
  simp only [hostOps1, List.drop_succ_cons, List.drop_zero]
  after_results_simp
  rfl

/-- The take's operations leave the taken rows (the NaN word where the wrapped index is out of range). -/
theorem host1_take (W : Valuation τ sig (Elt Ideal)) :
    StableHlo.after (hostOps1 (F := Ideal)) W (Proc.devRef .tc main_v1)
      = take64 (W (Proc.devRef .tc main_v0)) (W (Proc.devRef .tc main_arg13)) := by
  rw [show (hostOps1 (F := Ideal)) = List.take 18 hostOps1 ++ List.drop 18 hostOps1 from (List.take_append_drop 18 _).symm,
    after_append1, host1_tail, host1_pre_idx, host1_pre_inRange, host1_pre_src]
  rfl

set_option maxHeartbeats 4000000 in
/-- The take's operations leave the edge values where they were. -/
theorem host1_keep_arg1 (W : Valuation τ sig (Elt Ideal)) :
    StableHlo.after (hostOps1 (F := Ideal)) W (Proc.devRef .tc main_arg1) = W (Proc.devRef .tc main_arg1) := by
  after_results_simp

set_option maxHeartbeats 4000000 in
/-- The take's operations leave the edge rows where they were. -/
theorem host1_keep_arg12 (W : Valuation τ sig (Elt Ideal)) :
    StableHlo.after (hostOps1 (F := Ideal)) W (Proc.devRef .tc main_arg12) = W (Proc.devRef .tc main_arg12) := by
  after_results_simp

set_option maxHeartbeats 4000000 in
/-- The take's operations leave the bias vector where it was. -/
theorem host1_keep_bias (W : Valuation τ sig (Elt Ideal)) :
    StableHlo.after (hostOps1 (F := Ideal)) W (Proc.devRef .tc main_arg3) = W (Proc.devRef .tc main_arg3) := by
  after_results_simp

set_option maxHeartbeats 4000000 in
/-- The scale and the scatter-add, over whatever the buffers hold before them. -/
theorem host1_scatter (V : Valuation τ sig (Elt Ideal)) :
    StableHlo.after (hostOps1_1 (F := Ideal)) V (Proc.devRef .tc main_v7)
      = Host.scatterAdd scatter_S500000x64_S2000000x1_S2000000x64_1_0_0_1
          (broadcastInDim S500000x64 ![] Facts₀.bcast_S_S500000x64 (constant (F := Ideal) S_ .f32 0x00000000#32))
          (broadcastInDim S2000000x1 ![0] Facts₀.bcast_S2000000_S2000000x1_0 (V (Proc.devRef .tc main_arg12)))
          (mulf (V (Proc.devRef .tc main_v1))
            (broadcastInDim S2000000x64 ![0, 1] Facts₀.bcast_S2000000x1_S2000000x64_0_1
              (broadcastInDim S2000000x1 ![0] Facts₀.bcast_S2000000_S2000000x1_0 (V (Proc.devRef .tc main_arg1))))) := by
  after_results_simp

set_option maxHeartbeats 4000000 in
/-- The reshape of the bias vector to one row, over whatever the buffers hold before it. -/
theorem host1_reshape (V : Valuation τ sig (Elt Ideal)) :
    StableHlo.after (hostOps1_1 (F := Ideal)) V (Proc.devRef .tc main_v8)
      = shapeCast S1x64 (V (Proc.devRef .tc main_arg3)) Facts₀.shapeCasts_S64_S1x64 := by
  after_results_simp
  rfl

/-- A vector reshaped to one row reads, at `(0, j)`, the vector at `j`. -/
theorem host1_rowOf (v : FVec Ideal S64 .f32) : shapeCast S1x64 v Facts₀.shapeCasts_S64_S1x64 = rowOf 64 v := by
  funext i
  exact (congrArg _ (ValueIdx.eq_ix2 i)).trans (ValueIdx.shapeCast_a_1a_apply v _ (i 0) (i 1))

/-- After the stretch the buffer the bias step adds the bias to holds the sparse aggregate of the dense product. -/
theorem host1_agg (W : Valuation τ sig (Elt Ideal)) :
    StableHlo.after (hostOps1_1 (F := Ideal)) (StableHlo.after (hostOps1 (F := Ideal)) W) (Proc.devRef .tc main_v7)
      = agg64 (W (Proc.devRef .tc main_v0)) (W (Proc.devRef .tc main_arg1)) (W (Proc.devRef .tc main_arg12)) (W (Proc.devRef .tc main_arg13)) := by
  rw [host1_scatter, host1_take, host1_keep_arg1, host1_keep_arg12]
  rfl

/-- After the stretch the buffer the bias step reads the bias from holds the bias vector as one row. -/
theorem host1_bias (W : Valuation τ sig (Elt Ideal)) :
    StableHlo.after (hostOps1_1 (F := Ideal)) (StableHlo.after (hostOps1 (F := Ideal)) W) (Proc.devRef .tc main_v8)
      = rowOf 64 (W (Proc.devRef .tc main_arg3)) := by
  rw [host1_reshape, host1_keep_bias, host1_rowOf]

end Cert.KernelIdeal.Val

end
-- ==== Proof.HostL1.lean ====
/-
  Between the second layer's dense product and its bias step the host forms the sparse aggregate: from the buffer
  holding the product (and the three edge arrays) the operations leave, in one of the two buffers the bias step reads,
  the aggregate `Edge.agg128` of them; and they leave the bias vector, laid out as one row, in the other.
  Both are read off the operations' fold over ANY contents `W` of the buffers before the stretch.

  The take is read in two pieces, so that no step handles the whole composed term at once: its opening eighteen
  operations (the wrap of a negative index, the two range tests and their conjunction along the unit axis) over `W`,
  then its closing five (the gather, the test laid along the rows, the NaN word, the select) over ANY contents `V`,
  the two joined by the fold of a concatenation. The scale, the scatter-add and the reshape are likewise read over
  any `V`, and `V` is then the contents the take leaves: the taken rows in their buffer, the edge arrays and the bias
  vector where they were, since the take writes none of them.
-/
import proofs.«402748_j42056319762602_2_alg».proof.Proof.Gen.KernelIdeal.Frame
import proofs.«402748_j42056319762602_2_alg».proof.Proof.Edge
import proofs.«402748_j42056319762602_2_alg».proof.Proof.Spec
import Idealize.ShloMosaic.Lib.StableHlo.Run
import Idealize.ShloMosaic.Lib.Pipeline.Value
import Idealize.ShloMosaic.PureOps.Ideal
import Idealize.ShloMosaic.Lib.ValueLayout

noncomputable section

namespace Cert.KernelIdeal.Val

open Idealize.ShloMosaic Idealize.ShloMosaic.TcCoe Idealize.SL.Sem Cert.KernelIdeal Cert.KernelIdeal.Gen Cert.KernelIdeal.Edge Cert.Gcn

/-- The buffers after two lists of operations run one after the other. -/
theorem after_append3 (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- The take's first eighteen operations leave the wrapped column indices, as a column. -/
theorem host3_pre_idx (W : Valuation τ sig (Elt Ideal)) :
    StableHlo.after (List.take 18 (hostOps3 (F := Ideal))) W (Proc.devRef .tc main_call1_v5) = idxN (W (Proc.devRef .tc main_arg13)) := by
  simp only [hostOps3, List.take_succ_cons, List.take_zero]
  after_results_simp
  unfold idxN
  rfl

set_option maxHeartbeats 4000000 in
/-- The take's first eighteen operations leave the edge-by-edge range test of the wrapped indices. -/
theorem host3_pre_inRange (W : Valuation τ sig (Elt Ideal)) :
    StableHlo.after (List.take 18 (hostOps3 (F := Ideal))) W (Proc.devRef .tc main_call1_v12) = inRange (W (Proc.devRef .tc main_arg13)) := by
  simp only [hostOps3, List.take_succ_cons, List.take_zero]
  after_results_simp
  simp only [StableHlo.TRef.toBuf, StableHlo.TRef.ofBuf, cast_cast, cast_eq]
  unfold inRange idxN
  rfl

set_option maxHeartbeats 4000000 in
/-- The take's first eighteen operations leave the dense product where it was. -/
theorem host3_pre_src (W : Valuation τ sig (Elt Ideal)) :
    StableHlo.after (List.take 18 (hostOps3 (F := Ideal))) W (Proc.devRef .tc main_v10) = W (Proc.devRef .tc main_v10) := by
  simp only [hostOps3, List.take_succ_cons, List.take_zero]
  after_results_simp

set_option maxHeartbeats 4000000 in
/-- The take's last five operations, over whatever the buffers hold before them: the gather of the rows, the test laid
    along the rows, the NaN word everywhere, and the select of the three. -/
theorem host3_tail (V : Valuation τ sig (Elt Ideal)) :
    StableHlo.after (List.drop 18 (hostOps3 (F := Ideal))) V (Proc.devRef .tc main_v11)
      = select (broadcastInDim S2000000x128 ![0] Facts₀.bcast_S2000000_S2000000x128_0 (V (Proc.devRef .tc main_call1_v12)))
          (Host.gather gather_S500000x128_S2000000x1_S2000000x128_1_0_n_n_0_1_1128 (V (Proc.devRef .tc main_v10)) (V (Proc.devRef .tc main_call1_v5)))
          (broadcastInDim S2000000x128 ![] Facts₀.bcast_S_S2000000x128 (constant (F := Ideal) S_ .f32 0x7FC00000#32)) := by
  simp only [hostOps3, List.drop_succ_cons, List.drop_zero]
  after_results_simp
  rfl

/-- The take's operations leave the taken rows (the NaN word where the wrapped index is out of range). -/
theorem host3_take (W : Valuation τ sig (Elt Ideal)) :
    StableHlo.after (hostOps3 (F := Ideal)) W (Proc.devRef .tc main_v11)
      = take128 (W (Proc.devRef .tc main_v10)) (W (Proc.devRef .tc main_arg13)) := by
  rw [show (hostOps3 (F := Ideal)) = List.take 18 hostOps3 ++ List.drop 18 hostOps3 from (List.take_append_drop 18 _).symm,
    after_append3, host3_tail, host3_pre_idx, host3_pre_inRange, host3_pre_src]
  rfl

set_option maxHeartbeats 4000000 in
/-- The take's operations leave the edge values where they were. -/
theorem host3_keep_arg1 (W : Valuation τ sig (Elt Ideal)) :
    StableHlo.after (hostOps3 (F := Ideal)) W (Proc.devRef .tc main_arg1) = W (Proc.devRef .tc main_arg1) := by
  after_results_simp

set_option maxHeartbeats 4000000 in
/-- The take's operations leave the edge rows where they were. -/
theorem host3_keep_arg12 (W : Valuation τ sig (Elt Ideal)) :
    StableHlo.after (hostOps3 (F := Ideal)) W (Proc.devRef .tc main_arg12) = W (Proc.devRef .tc main_arg12) := by
  after_results_simp

set_option maxHeartbeats 4000000 in
/-- The take's operations leave the bias vector where it was. -/
theorem host3_keep_bias (W : Valuation τ sig (Elt Ideal)) :
    StableHlo.after (hostOps3 (F := Ideal)) W (Proc.devRef .tc main_arg5) = W (Proc.devRef .tc main_arg5) := by
  after_results_simp

set_option maxHeartbeats 4000000 in
/-- The scale and the scatter-add, over whatever the buffers hold before them. -/
theorem host3_scatter (V : Valuation τ sig (Elt Ideal)) :
    StableHlo.after (hostOps3_1 (F := Ideal)) V (Proc.devRef .tc main_v17)
      = Host.scatterAdd scatter_S500000x128_S2000000x1_S2000000x128_1_0_0_1
          (broadcastInDim S500000x128 ![] Facts₀.bcast_S_S500000x128 (constant (F := Ideal) S_ .f32 0x00000000#32))
          (broadcastInDim S2000000x1 ![0] Facts₀.bcast_S2000000_S2000000x1_0 (V (Proc.devRef .tc main_arg12)))
          (mulf (V (Proc.devRef .tc main_v11))
            (broadcastInDim S2000000x128 ![0, 1] Facts₀.bcast_S2000000x1_S2000000x128_0_1
              (broadcastInDim S2000000x1 ![0] Facts₀.bcast_S2000000_S2000000x1_0 (V (Proc.devRef .tc main_arg1))))) := by
  after_results_simp

set_option maxHeartbeats 4000000 in
/-- The reshape of the bias vector to one row, over whatever the buffers hold before it. -/
theorem host3_reshape (V : Valuation τ sig (Elt Ideal)) :
    StableHlo.after (hostOps3_1 (F := Ideal)) V (Proc.devRef .tc main_v18)
      = shapeCast S1x128 (V (Proc.devRef .tc main_arg5)) Facts₀.shapeCasts_S128_S1x128 := by
  after_results_simp
  rfl

/-- A vector reshaped to one row reads, at `(0, j)`, the vector at `j`. -/
theorem host3_rowOf (v : FVec Ideal S128 .f32) : shapeCast S1x128 v Facts₀.shapeCasts_S128_S1x128 = rowOf 128 v := by
  funext i
  exact (congrArg _ (ValueIdx.eq_ix2 i)).trans (ValueIdx.shapeCast_a_1a_apply v _ (i 0) (i 1))

/-- After the stretch the buffer the bias step adds the bias to holds the sparse aggregate of the dense product. -/
theorem host3_agg (W : Valuation τ sig (Elt Ideal)) :
    StableHlo.after (hostOps3_1 (F := Ideal)) (StableHlo.after (hostOps3 (F := Ideal)) W) (Proc.devRef .tc main_v17)
      = agg128 (W (Proc.devRef .tc main_v10)) (W (Proc.devRef .tc main_arg1)) (W (Proc.devRef .tc main_arg12)) (W (Proc.devRef .tc main_arg13)) := by
  rw [host3_scatter, host3_take, host3_keep_arg1, host3_keep_arg12]
  rfl

/-- After the stretch the buffer the bias step reads the bias from holds the bias vector as one row. -/
theorem host3_bias (W : Valuation τ sig (Elt Ideal)) :
    StableHlo.after (hostOps3_1 (F := Ideal)) (StableHlo.after (hostOps3 (F := Ideal)) W) (Proc.devRef .tc main_v18)
      = rowOf 128 (W (Proc.devRef .tc main_arg5)) := by
  rw [host3_reshape, host3_keep_bias, host3_rowOf]

end Cert.KernelIdeal.Val

end
-- ==== Proof.HostL2.lean ====
/-
  Between the third layer's dense product and its bias step the host forms the sparse aggregate: from the buffer
  holding the product (and the three edge arrays) the operations leave, in one of the two buffers the bias step reads,
  the aggregate `Edge.agg64` of them; and they leave the bias vector, laid out as one row, in the other.
  Both are read off the operations' fold over ANY contents `W` of the buffers before the stretch.

  The take is read in two pieces, so that no step handles the whole composed term at once: its opening eighteen
  operations (the wrap of a negative index, the two range tests and their conjunction along the unit axis) over `W`,
  then its closing five (the gather, the test laid along the rows, the NaN word, the select) over ANY contents `V`,
  the two joined by the fold of a concatenation. The scale, the scatter-add and the reshape are likewise read over
  any `V`, and `V` is then the contents the take leaves: the taken rows in their buffer, the edge arrays and the bias
  vector where they were, since the take writes none of them.
-/
import proofs.«402748_j42056319762602_2_alg».proof.Proof.Gen.KernelIdeal.Frame
import proofs.«402748_j42056319762602_2_alg».proof.Proof.Edge
import proofs.«402748_j42056319762602_2_alg».proof.Proof.Spec
import Idealize.ShloMosaic.Lib.StableHlo.Run
import Idealize.ShloMosaic.Lib.Pipeline.Value
import Idealize.ShloMosaic.PureOps.Ideal
import Idealize.ShloMosaic.Lib.ValueLayout

noncomputable section

namespace Cert.KernelIdeal.Val

open Idealize.ShloMosaic Idealize.ShloMosaic.TcCoe Idealize.SL.Sem Cert.KernelIdeal Cert.KernelIdeal.Gen Cert.KernelIdeal.Edge Cert.Gcn

/-- The buffers after two lists of operations run one after the other. -/
theorem after_append5 (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- The take's first eighteen operations leave the wrapped column indices, as a column. -/
theorem host5_pre_idx (W : Valuation τ sig (Elt Ideal)) :
    StableHlo.after (List.take 18 (hostOps5 (F := Ideal))) W (Proc.devRef .tc main_call2_v5) = idxN (W (Proc.devRef .tc main_arg13)) := by
  simp only [hostOps5, List.take_succ_cons, List.take_zero]
  after_results_simp
  unfold idxN
  rfl

set_option maxHeartbeats 4000000 in
/-- The take's first eighteen operations leave the edge-by-edge range test of the wrapped indices. -/
theorem host5_pre_inRange (W : Valuation τ sig (Elt Ideal)) :
    StableHlo.after (List.take 18 (hostOps5 (F := Ideal))) W (Proc.devRef .tc main_call2_v12) = inRange (W (Proc.devRef .tc main_arg13)) := by
  simp only [hostOps5, List.take_succ_cons, List.take_zero]
  after_results_simp
  simp only [StableHlo.TRef.toBuf, StableHlo.TRef.ofBuf, cast_cast, cast_eq]
  unfold inRange idxN
  rfl

set_option maxHeartbeats 4000000 in
/-- The take's first eighteen operations leave the dense product where it was. -/
theorem host5_pre_src (W : Valuation τ sig (Elt Ideal)) :
    StableHlo.after (List.take 18 (hostOps5 (F := Ideal))) W (Proc.devRef .tc main_v20) = W (Proc.devRef .tc main_v20) := by
  simp only [hostOps5, List.take_succ_cons, List.take_zero]
  after_results_simp

set_option maxHeartbeats 4000000 in
/-- The take's last five operations, over whatever the buffers hold before them: the gather of the rows, the test laid
    along the rows, the NaN word everywhere, and the select of the three. -/
theorem host5_tail (V : Valuation τ sig (Elt Ideal)) :
    StableHlo.after (List.drop 18 (hostOps5 (F := Ideal))) V (Proc.devRef .tc main_v21)
      = select (broadcastInDim S2000000x64 ![0] Facts₀.bcast_S2000000_S2000000x64_0 (V (Proc.devRef .tc main_call2_v12)))
          (Host.gather gather_S500000x64_S2000000x1_S2000000x64_1_0_n_n_0_1_164 (V (Proc.devRef .tc main_v20)) (V (Proc.devRef .tc main_call2_v5)))
          (broadcastInDim S2000000x64 ![] Facts₀.bcast_S_S2000000x64 (constant (F := Ideal) S_ .f32 0x7FC00000#32)) := by
  simp only [hostOps5, List.drop_succ_cons, List.drop_zero]
  after_results_simp
  rfl

/-- The take's operations leave the taken rows (the NaN word where the wrapped index is out of range). -/
theorem host5_take (W : Valuation τ sig (Elt Ideal)) :
    StableHlo.after (hostOps5 (F := Ideal)) W (Proc.devRef .tc main_v21)
      = take64 (W (Proc.devRef .tc main_v20)) (W (Proc.devRef .tc main_arg13)) := by
  rw [show (hostOps5 (F := Ideal)) = List.take 18 hostOps5 ++ List.drop 18 hostOps5 from (List.take_append_drop 18 _).symm,
    after_append5, host5_tail, host5_pre_idx, host5_pre_inRange, host5_pre_src]
  rfl

set_option maxHeartbeats 4000000 in
/-- The take's operations leave the edge values where they were. -/
theorem host5_keep_arg1 (W : Valuation τ sig (Elt Ideal)) :
    StableHlo.after (hostOps5 (F := Ideal)) W (Proc.devRef .tc main_arg1) = W (Proc.devRef .tc main_arg1) := by
  after_results_simp

set_option maxHeartbeats 4000000 in
/-- The take's operations leave the edge rows where they were. -/
theorem host5_keep_arg12 (W : Valuation τ sig (Elt Ideal)) :
    StableHlo.after (hostOps5 (F := Ideal)) W (Proc.devRef .tc main_arg12) = W (Proc.devRef .tc main_arg12) := by
  after_results_simp

set_option maxHeartbeats 4000000 in
/-- The take's operations leave the bias vector where it was. -/
theorem host5_keep_bias (W : Valuation τ sig (Elt Ideal)) :
    StableHlo.after (hostOps5 (F := Ideal)) W (Proc.devRef .tc main_arg7) = W (Proc.devRef .tc main_arg7) := by
  after_results_simp

set_option maxHeartbeats 4000000 in
/-- The scale and the scatter-add, over whatever the buffers hold before them. -/
theorem host5_scatter (V : Valuation τ sig (Elt Ideal)) :
    StableHlo.after (hostOps5_1 (F := Ideal)) V (Proc.devRef .tc main_v27)
      = Host.scatterAdd scatter_S500000x64_S2000000x1_S2000000x64_1_0_0_1
          (broadcastInDim S500000x64 ![] Facts₀.bcast_S_S500000x64 (constant (F := Ideal) S_ .f32 0x00000000#32))
          (broadcastInDim S2000000x1 ![0] Facts₀.bcast_S2000000_S2000000x1_0 (V (Proc.devRef .tc main_arg12)))
          (mulf (V (Proc.devRef .tc main_v21))
            (broadcastInDim S2000000x64 ![0, 1] Facts₀.bcast_S2000000x1_S2000000x64_0_1
              (broadcastInDim S2000000x1 ![0] Facts₀.bcast_S2000000_S2000000x1_0 (V (Proc.devRef .tc main_arg1))))) := by
  after_results_simp

set_option maxHeartbeats 4000000 in
/-- The reshape of the bias vector to one row, over whatever the buffers hold before it. -/
theorem host5_reshape (V : Valuation τ sig (Elt Ideal)) :
    StableHlo.after (hostOps5_1 (F := Ideal)) V (Proc.devRef .tc main_v28)
      = shapeCast S1x64 (V (Proc.devRef .tc main_arg7)) Facts₀.shapeCasts_S64_S1x64 := by
  after_results_simp
  rfl

/-- A vector reshaped to one row reads, at `(0, j)`, the vector at `j`. -/
theorem host5_rowOf (v : FVec Ideal S64 .f32) : shapeCast S1x64 v Facts₀.shapeCasts_S64_S1x64 = rowOf 64 v := by
  funext i
  exact (congrArg _ (ValueIdx.eq_ix2 i)).trans (ValueIdx.shapeCast_a_1a_apply v _ (i 0) (i 1))

/-- After the stretch the buffer the bias step adds the bias to holds the sparse aggregate of the dense product. -/
theorem host5_agg (W : Valuation τ sig (Elt Ideal)) :
    StableHlo.after (hostOps5_1 (F := Ideal)) (StableHlo.after (hostOps5 (F := Ideal)) W) (Proc.devRef .tc main_v27)
      = agg64 (W (Proc.devRef .tc main_v20)) (W (Proc.devRef .tc main_arg1)) (W (Proc.devRef .tc main_arg12)) (W (Proc.devRef .tc main_arg13)) := by
  rw [host5_scatter, host5_take, host5_keep_arg1, host5_keep_arg12]
  rfl

/-- After the stretch the buffer the bias step reads the bias from holds the bias vector as one row. -/
theorem host5_bias (W : Valuation τ sig (Elt Ideal)) :
    StableHlo.after (hostOps5_1 (F := Ideal)) (StableHlo.after (hostOps5 (F := Ideal)) W) (Proc.devRef .tc main_v28)
      = rowOf 64 (W (Proc.devRef .tc main_arg7)) := by
  rw [host5_reshape, host5_keep_bias, host5_rowOf]

end Cert.KernelIdeal.Val

end
-- ==== Proof.HostL3.lean ====
/-
  Between the fourth layer's dense product and its bias step the host forms the sparse aggregate: from the buffer
  holding the product (and the three edge arrays) the operations leave, in one of the two buffers the bias step reads,
  the aggregate `Edge.agg32` of them; and they leave the bias vector, laid out as one row, in the other.
  Both are read off the operations' fold over ANY contents `W` of the buffers before the stretch.

  The take is read in two pieces, so that no step handles the whole composed term at once: its opening eighteen
  operations (the wrap of a negative index, the two range tests and their conjunction along the unit axis) over `W`,
  then its closing five (the gather, the test laid along the rows, the NaN word, the select) over ANY contents `V`,
  the two joined by the fold of a concatenation. The scale, the scatter-add and the reshape are likewise read over
  any `V`, and `V` is then the contents the take leaves: the taken rows in their buffer, the edge arrays and the bias
  vector where they were, since the take writes none of them.
-/
import proofs.«402748_j42056319762602_2_alg».proof.Proof.Gen.KernelIdeal.Frame
import proofs.«402748_j42056319762602_2_alg».proof.Proof.Edge
import proofs.«402748_j42056319762602_2_alg».proof.Proof.Spec
import Idealize.ShloMosaic.Lib.StableHlo.Run
import Idealize.ShloMosaic.Lib.Pipeline.Value
import Idealize.ShloMosaic.PureOps.Ideal
import Idealize.ShloMosaic.Lib.ValueLayout

noncomputable section

namespace Cert.KernelIdeal.Val

open Idealize.ShloMosaic Idealize.ShloMosaic.TcCoe Idealize.SL.Sem Cert.KernelIdeal Cert.KernelIdeal.Gen Cert.KernelIdeal.Edge Cert.Gcn

/-- The buffers after two lists of operations run one after the other. -/
theorem after_append7 (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- The take's first eighteen operations leave the wrapped column indices, as a column. -/
theorem host7_pre_idx (W : Valuation τ sig (Elt Ideal)) :
    StableHlo.after (List.take 18 (hostOps7 (F := Ideal))) W (Proc.devRef .tc main_call3_v5) = idxN (W (Proc.devRef .tc main_arg13)) := by
  simp only [hostOps7, List.take_succ_cons, List.take_zero]
  after_results_simp
  unfold idxN
  rfl

set_option maxHeartbeats 4000000 in
/-- The take's first eighteen operations leave the edge-by-edge range test of the wrapped indices. -/
theorem host7_pre_inRange (W : Valuation τ sig (Elt Ideal)) :
    StableHlo.after (List.take 18 (hostOps7 (F := Ideal))) W (Proc.devRef .tc main_call3_v12) = inRange (W (Proc.devRef .tc main_arg13)) := by
  simp only [hostOps7, List.take_succ_cons, List.take_zero]
  after_results_simp
  simp only [StableHlo.TRef.toBuf, StableHlo.TRef.ofBuf, cast_cast, cast_eq]
  unfold inRange idxN
  rfl

set_option maxHeartbeats 4000000 in
/-- The take's first eighteen operations leave the dense product where it was. -/
theorem host7_pre_src (W : Valuation τ sig (Elt Ideal)) :
    StableHlo.after (List.take 18 (hostOps7 (F := Ideal))) W (Proc.devRef .tc main_v30) = W (Proc.devRef .tc main_v30) := by
  simp only [hostOps7, List.take_succ_cons, List.take_zero]
  after_results_simp

set_option maxHeartbeats 4000000 in
/-- The take's last five operations, over whatever the buffers hold before them: the gather of the rows, the test laid
    along the rows, the NaN word everywhere, and the select of the three. -/
theorem host7_tail (V : Valuation τ sig (Elt Ideal)) :
    StableHlo.after (List.drop 18 (hostOps7 (F := Ideal))) V (Proc.devRef .tc main_v31)
      = select (broadcastInDim S2000000x32 ![0] Facts₀.bcast_S2000000_S2000000x32_0 (V (Proc.devRef .tc main_call3_v12)))
          (Host.gather gather_S500000x32_S2000000x1_S2000000x32_1_0_n_n_0_1_132 (V (Proc.devRef .tc main_v30)) (V (Proc.devRef .tc main_call3_v5)))
          (broadcastInDim S2000000x32 ![] Facts₀.bcast_S_S2000000x32 (constant (F := Ideal) S_ .f32 0x7FC00000#32)) := by
  simp only [hostOps7, List.drop_succ_cons, List.drop_zero]
  after_results_simp
  rfl

/-- The take's operations leave the taken rows (the NaN word where the wrapped index is out of range). -/
theorem host7_take (W : Valuation τ sig (Elt Ideal)) :
    StableHlo.after (hostOps7 (F := Ideal)) W (Proc.devRef .tc main_v31)
      = take32 (W (Proc.devRef .tc main_v30)) (W (Proc.devRef .tc main_arg13)) := by
  rw [show (hostOps7 (F := Ideal)) = List.take 18 hostOps7 ++ List.drop 18 hostOps7 from (List.take_append_drop 18 _).symm,
    after_append7, host7_tail, host7_pre_idx, host7_pre_inRange, host7_pre_src]
  rfl

set_option maxHeartbeats 4000000 in
/-- The take's operations leave the edge values where they were. -/
theorem host7_keep_arg1 (W : Valuation τ sig (Elt Ideal)) :
    StableHlo.after (hostOps7 (F := Ideal)) W (Proc.devRef .tc main_arg1) = W (Proc.devRef .tc main_arg1) := by
  after_results_simp

set_option maxHeartbeats 4000000 in
/-- The take's operations leave the edge rows where they were. -/
theorem host7_keep_arg12 (W : Valuation τ sig (Elt Ideal)) :
    StableHlo.after (hostOps7 (F := Ideal)) W (Proc.devRef .tc main_arg12) = W (Proc.devRef .tc main_arg12) := by
  after_results_simp

set_option maxHeartbeats 4000000 in
/-- The take's operations leave the bias vector where it was. -/
theorem host7_keep_bias (W : Valuation τ sig (Elt Ideal)) :
    StableHlo.after (hostOps7 (F := Ideal)) W (Proc.devRef .tc main_arg9) = W (Proc.devRef .tc main_arg9) := by
  after_results_simp

set_option maxHeartbeats 4000000 in
/-- The scale and the scatter-add, over whatever the buffers hold before them. -/
theorem host7_scatter (V : Valuation τ sig (Elt Ideal)) :
    StableHlo.after (hostOps7_1 (F := Ideal)) V (Proc.devRef .tc main_v37)
      = Host.scatterAdd scatter_S500000x32_S2000000x1_S2000000x32_1_0_0_1
          (broadcastInDim S500000x32 ![] Facts₀.bcast_S_S500000x32 (constant (F := Ideal) S_ .f32 0x00000000#32))
          (broadcastInDim S2000000x1 ![0] Facts₀.bcast_S2000000_S2000000x1_0 (V (Proc.devRef .tc main_arg12)))
          (mulf (V (Proc.devRef .tc main_v31))
            (broadcastInDim S2000000x32 ![0, 1] Facts₀.bcast_S2000000x1_S2000000x32_0_1
              (broadcastInDim S2000000x1 ![0] Facts₀.bcast_S2000000_S2000000x1_0 (V (Proc.devRef .tc main_arg1))))) := by
  after_results_simp

set_option maxHeartbeats 4000000 in
/-- The reshape of the bias vector to one row, over whatever the buffers hold before it. -/
theorem host7_reshape (V : Valuation τ sig (Elt Ideal)) :
    StableHlo.after (hostOps7_1 (F := Ideal)) V (Proc.devRef .tc main_v38)
      = shapeCast S1x32 (V (Proc.devRef .tc main_arg9)) Facts₀.shapeCasts_S32_S1x32 := by
  after_results_simp
  rfl

/-- A vector reshaped to one row reads, at `(0, j)`, the vector at `j`. -/
theorem host7_rowOf (v : FVec Ideal S32 .f32) : shapeCast S1x32 v Facts₀.shapeCasts_S32_S1x32 = rowOf 32 v := by
  funext i
  exact (congrArg _ (ValueIdx.eq_ix2 i)).trans (ValueIdx.shapeCast_a_1a_apply v _ (i 0) (i 1))

/-- After the stretch the buffer the bias step adds the bias to holds the sparse aggregate of the dense product. -/
theorem host7_agg (W : Valuation τ sig (Elt Ideal)) :
    StableHlo.after (hostOps7_1 (F := Ideal)) (StableHlo.after (hostOps7 (F := Ideal)) W) (Proc.devRef .tc main_v37)
      = agg32 (W (Proc.devRef .tc main_v30)) (W (Proc.devRef .tc main_arg1)) (W (Proc.devRef .tc main_arg12)) (W (Proc.devRef .tc main_arg13)) := by
  rw [host7_scatter, host7_take, host7_keep_arg1, host7_keep_arg12]
  rfl

/-- After the stretch the buffer the bias step reads the bias from holds the bias vector as one row. -/
theorem host7_bias (W : Valuation τ sig (Elt Ideal)) :
    StableHlo.after (hostOps7_1 (F := Ideal)) (StableHlo.after (hostOps7 (F := Ideal)) W) (Proc.devRef .tc main_v38)
      = rowOf 32 (W (Proc.devRef .tc main_arg9)) := by
  rw [host7_reshape, host7_keep_bias, host7_rowOf]

end Cert.KernelIdeal.Val

end
-- ==== Proof.HostL4.lean ====
/-
  Between the fifth layer's dense product and its bias step the host forms the sparse aggregate: from the buffer
  holding the product (and the three edge arrays) the operations leave, in one of the two buffers the bias step reads,
  the aggregate `Edge.agg2` of them; and they leave the bias vector, laid out as one row, in the other.
  Both are read off the operations' fold over ANY contents `W` of the buffers before the stretch.

  The take is read in two pieces, so that no step handles the whole composed term at once: its opening eighteen
  operations (the wrap of a negative index, the two range tests and their conjunction along the unit axis) over `W`,
  then its closing five (the gather, the test laid along the rows, the NaN word, the select) over ANY contents `V`,
  the two joined by the fold of a concatenation. The scale, the scatter-add and the reshape are likewise read over
  any `V`, and `V` is then the contents the take leaves: the taken rows in their buffer, the edge arrays and the bias
  vector where they were, since the take writes none of them.
-/
import proofs.«402748_j42056319762602_2_alg».proof.Proof.Gen.KernelIdeal.Frame
import proofs.«402748_j42056319762602_2_alg».proof.Proof.Edge
import proofs.«402748_j42056319762602_2_alg».proof.Proof.Spec
import Idealize.ShloMosaic.Lib.StableHlo.Run
import Idealize.ShloMosaic.Lib.Pipeline.Value
import Idealize.ShloMosaic.PureOps.Ideal
import Idealize.ShloMosaic.Lib.ValueLayout

noncomputable section

namespace Cert.KernelIdeal.Val

open Idealize.ShloMosaic Idealize.ShloMosaic.TcCoe Idealize.SL.Sem Cert.KernelIdeal Cert.KernelIdeal.Gen Cert.KernelIdeal.Edge Cert.Gcn

/-- The buffers after two lists of operations run one after the other. -/
theorem after_append9 (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- The take's first eighteen operations leave the wrapped column indices, as a column. -/
theorem host9_pre_idx (W : Valuation τ sig (Elt Ideal)) :
    StableHlo.after (List.take 18 (hostOps9 (F := Ideal))) W (Proc.devRef .tc main_call4_v5) = idxN (W (Proc.devRef .tc main_arg13)) := by
  simp only [hostOps9, List.take_succ_cons, List.take_zero]
  after_results_simp
  unfold idxN
  rfl

set_option maxHeartbeats 4000000 in
/-- The take's first eighteen operations leave the edge-by-edge range test of the wrapped indices. -/
theorem host9_pre_inRange (W : Valuation τ sig (Elt Ideal)) :
    StableHlo.after (List.take 18 (hostOps9 (F := Ideal))) W (Proc.devRef .tc main_call4_v12) = inRange (W (Proc.devRef .tc main_arg13)) := by
  simp only [hostOps9, List.take_succ_cons, List.take_zero]
  after_results_simp
  simp only [StableHlo.TRef.toBuf, StableHlo.TRef.ofBuf, cast_cast, cast_eq]
  unfold inRange idxN
  rfl

set_option maxHeartbeats 4000000 in
/-- The take's first eighteen operations leave the dense product where it was. -/
theorem host9_pre_src (W : Valuation τ sig (Elt Ideal)) :
    StableHlo.after (List.take 18 (hostOps9 (F := Ideal))) W (Proc.devRef .tc main_v40) = W (Proc.devRef .tc main_v40) := by
  simp only [hostOps9, List.take_succ_cons, List.take_zero]
  after_results_simp

set_option maxHeartbeats 4000000 in
/-- The take's last five operations, over whatever the buffers hold before them: the gather of the rows, the test laid
    along the rows, the NaN word everywhere, and the select of the three. -/
theorem host9_tail (V : Valuation τ sig (Elt Ideal)) :
    StableHlo.after (List.drop 18 (hostOps9 (F := Ideal))) V (Proc.devRef .tc main_v41)
      = select (broadcastInDim S2000000x2 ![0] Facts₀.bcast_S2000000_S2000000x2_0 (V (Proc.devRef .tc main_call4_v12)))
          (Host.gather gather_S500000x2_S2000000x1_S2000000x2_1_0_n_n_0_1_12 (V (Proc.devRef .tc main_v40)) (V (Proc.devRef .tc main_call4_v5)))
          (broadcastInDim S2000000x2 ![] Facts₀.bcast_S_S2000000x2 (constant (F := Ideal) S_ .f32 0x7FC00000#32)) := by
  simp only [hostOps9, List.drop_succ_cons, List.drop_zero]
  after_results_simp
  rfl

/-- The take's operations leave the taken rows (the NaN word where the wrapped index is out of range). -/
theorem host9_take (W : Valuation τ sig (Elt Ideal)) :
    StableHlo.after (hostOps9 (F := Ideal)) W (Proc.devRef .tc main_v41)
      = take2 (W (Proc.devRef .tc main_v40)) (W (Proc.devRef .tc main_arg13)) := by
  rw [show (hostOps9 (F := Ideal)) = List.take 18 hostOps9 ++ List.drop 18 hostOps9 from (List.take_append_drop 18 _).symm,
    after_append9, host9_tail, host9_pre_idx, host9_pre_inRange, host9_pre_src]
  rfl

set_option maxHeartbeats 4000000 in
/-- The take's operations leave the edge values where they were. -/
theorem host9_keep_arg1 (W : Valuation τ sig (Elt Ideal)) :
    StableHlo.after (hostOps9 (F := Ideal)) W (Proc.devRef .tc main_arg1) = W (Proc.devRef .tc main_arg1) := by
  after_results_simp

set_option maxHeartbeats 4000000 in
/-- The take's operations leave the edge rows where they were. -/
theorem host9_keep_arg12 (W : Valuation τ sig (Elt Ideal)) :
    StableHlo.after (hostOps9 (F := Ideal)) W (Proc.devRef .tc main_arg12) = W (Proc.devRef .tc main_arg12) := by
  after_results_simp

set_option maxHeartbeats 4000000 in
/-- The take's operations leave the bias vector where it was. -/
theorem host9_keep_bias (W : Valuation τ sig (Elt Ideal)) :
    StableHlo.after (hostOps9 (F := Ideal)) W (Proc.devRef .tc main_arg11) = W (Proc.devRef .tc main_arg11) := by
  after_results_simp

set_option maxHeartbeats 4000000 in
/-- The scale and the scatter-add, over whatever the buffers hold before them. -/
theorem host9_scatter (V : Valuation τ sig (Elt Ideal)) :
    StableHlo.after (hostOps9_1 (F := Ideal)) V (Proc.devRef .tc main_v47)
      = Host.scatterAdd scatter_S500000x2_S2000000x1_S2000000x2_1_0_0_1
          (broadcastInDim S500000x2 ![] Facts₀.bcast_S_S500000x2 (constant (F := Ideal) S_ .f32 0x00000000#32))
          (broadcastInDim S2000000x1 ![0] Facts₀.bcast_S2000000_S2000000x1_0 (V (Proc.devRef .tc main_arg12)))
          (mulf (V (Proc.devRef .tc main_v41))
            (broadcastInDim S2000000x2 ![0, 1] Facts₀.bcast_S2000000x1_S2000000x2_0_1
              (broadcastInDim S2000000x1 ![0] Facts₀.bcast_S2000000_S2000000x1_0 (V (Proc.devRef .tc main_arg1))))) := by
  after_results_simp

set_option maxHeartbeats 4000000 in
/-- The reshape of the bias vector to one row, over whatever the buffers hold before it. -/
theorem host9_reshape (V : Valuation τ sig (Elt Ideal)) :
    StableHlo.after (hostOps9_1 (F := Ideal)) V (Proc.devRef .tc main_v48)
      = shapeCast S1x2 (V (Proc.devRef .tc main_arg11)) Facts₀.shapeCasts_S2_S1x2 := by
  after_results_simp
  rfl

/-- A vector reshaped to one row reads, at `(0, j)`, the vector at `j`. -/
theorem host9_rowOf (v : FVec Ideal S2 .f32) : shapeCast S1x2 v Facts₀.shapeCasts_S2_S1x2 = rowOf 2 v := by
  funext i
  exact (congrArg _ (ValueIdx.eq_ix2 i)).trans (ValueIdx.shapeCast_a_1a_apply v _ (i 0) (i 1))

/-- After the stretch the buffer the bias step adds the bias to holds the sparse aggregate of the dense product. -/
theorem host9_agg (W : Valuation τ sig (Elt Ideal)) :
    StableHlo.after (hostOps9_1 (F := Ideal)) (StableHlo.after (hostOps9 (F := Ideal)) W) (Proc.devRef .tc main_v47)
      = agg2 (W (Proc.devRef .tc main_v40)) (W (Proc.devRef .tc main_arg1)) (W (Proc.devRef .tc main_arg12)) (W (Proc.devRef .tc main_arg13)) := by
  rw [host9_scatter, host9_take, host9_keep_arg1, host9_keep_arg12]
  rfl

/-- After the stretch the buffer the bias step reads the bias from holds the bias vector as one row. -/
theorem host9_bias (W : Valuation τ sig (Elt Ideal)) :
    StableHlo.after (hostOps9_1 (F := Ideal)) (StableHlo.after (hostOps9 (F := Ideal)) W) (Proc.devRef .tc main_v48)
      = rowOf 2 (W (Proc.devRef .tc main_arg11)) := by
  rw [host9_reshape, host9_keep_bias, host9_rowOf]

end Cert.KernelIdeal.Val

end
-- ==== Proof.KChain.lean ====
/-
  The kernel's result buffer, read back to the argument arrays.

  @main is ten kernel regions among five stretches of host operations, and the generated frame names the buffer contents
  at each of the twenty-one boundaries. Walking forward: a dense-product region leaves the product of the features so
  far with the layer's weight in its output buffer (`prod…`); the host stretch leaves the sparse aggregate of it and the
  bias row; the bias region leaves the layer's features (`feat…`). The weights, biases and edge arrays are read at the
  boundary where they are used, where they still hold what the launch memory holds (no operation writes an argument).
-/
import proofs.«402748_j42056319762602_2_alg».proof.Proof.Gen.KernelIdeal.Frame
import proofs.«402748_j42056319762602_2_alg».proof.Proof.KLayers
import proofs.«402748_j42056319762602_2_alg».proof.Proof.Kept
import proofs.«402748_j42056319762602_2_alg».proof.Proof.MatL0
import proofs.«402748_j42056319762602_2_alg».proof.Proof.MatL1
import proofs.«402748_j42056319762602_2_alg».proof.Proof.MatL2
import proofs.«402748_j42056319762602_2_alg».proof.Proof.MatL3
import proofs.«402748_j42056319762602_2_alg».proof.Proof.MatL4
import proofs.«402748_j42056319762602_2_alg».proof.Proof.ActL0
import proofs.«402748_j42056319762602_2_alg».proof.Proof.ActL1
import proofs.«402748_j42056319762602_2_alg».proof.Proof.ActL2
import proofs.«402748_j42056319762602_2_alg».proof.Proof.ActL3
import proofs.«402748_j42056319762602_2_alg».proof.Proof.ActL4
import proofs.«402748_j42056319762602_2_alg».proof.Proof.HostL0
import proofs.«402748_j42056319762602_2_alg».proof.Proof.HostL1
import proofs.«402748_j42056319762602_2_alg».proof.Proof.HostL2
import proofs.«402748_j42056319762602_2_alg».proof.Proof.HostL3
import proofs.«402748_j42056319762602_2_alg».proof.Proof.HostL4
import Idealize.ShloMosaic.Lib.StableHlo.Run
import Idealize.ShloMosaic.PureOps.Ideal

set_option maxRecDepth 16384

noncomputable section

namespace Cert.KernelIdeal.Val

open Idealize.ShloMosaic Idealize.ShloMosaic.TcCoe Idealize.SL.Sem Cert.KernelIdeal Cert.KernelIdeal.Gen Cert.KernelIdeal.Edge Cert.Gcn
open Idealize.ShloMosaic.Pipeline (Dat Cfg Window)

variable (m : (ℓ : Loc nD τ sig) → Buf (Elt Ideal) ℓ) (ρ : Dev nD → PrngReg)

/-- After layer 0's dense product, its buffer holds the product of the features so far with the layer's weight. -/
theorem prod0 (c : Dev nD) :
    W1 m ρ c (Proc.devRef .tc main_v0) = mm 500000 32 64 (m ((c : Thread nD τ).loc main_arg0)) (m ((c : Thread nD τ).loc main_arg2)) := by
  refine (W1_arr m ρ c 2).trans ((final0 (V0 m ρ) c).trans ?_)
  have e0 : V0 m ρ c main_arg0 = (m ((c : Thread nD τ).loc main_arg0)) := (rfl : V0 m ρ c main_arg0 = (m ((c : Thread nD τ).loc main_arg0)))
  have e1 : V0 m ρ c main_arg2 = (m ((c : Thread nD τ).loc main_arg2)) := (rfl : V0 m ρ c main_arg2 = (m ((c : Thread nD τ).loc main_arg2)))
  rw [e0, e1]

/-- After layer 0's bias step, its buffer holds the layer's features. -/
theorem feat0 (c : Dev nD) :
    W4 m ρ c (Proc.devRef .tc main_v9) = (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))) := by
  refine (W4_arr m ρ c 2).trans ((final1 (V3 m ρ) c).trans ?_)
  have e0 : V3 m ρ c main_v7 = agg64 (W1 m ρ c (Proc.devRef .tc main_v0)) (W1 m ρ c (Proc.devRef .tc main_arg1)) (W1 m ρ c (Proc.devRef .tc main_arg12)) (W1 m ρ c (Proc.devRef .tc main_arg13)) :=
    host1_agg (W1 m ρ c)
  have e1 : V3 m ρ c main_v8 = rowOf 64 (W1 m ρ c (Proc.devRef .tc main_arg3)) := host1_bias (W1 m ρ c)
  rw [e0, e1, prod0 m ρ c, kept_W1_arg1 m ρ c, kept_W1_arg12 m ρ c, kept_W1_arg13 m ρ c, kept_W1_arg3 m ρ c]
  rfl

/-- After layer 1's dense product, its buffer holds the product of the features so far with the layer's weight. -/
theorem prod1 (c : Dev nD) :
    W5 m ρ c (Proc.devRef .tc main_v10) = mm 500000 64 128 (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))) (m ((c : Thread nD τ).loc main_arg4)) := by
  refine (W5_arr m ρ c 2).trans ((final2 (V4 m ρ) c).trans ?_)
  have e0 : V4 m ρ c main_v9 = (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))) := (feat0 m ρ c)
  have e1 : V4 m ρ c main_arg4 = (m ((c : Thread nD τ).loc main_arg4)) := (kept_W4_arg4 m ρ c)
  rw [e0, e1]

/-- After layer 1's bias step, its buffer holds the layer's features. -/
theorem feat1 (c : Dev nD) :
    W8 m ρ c (Proc.devRef .tc main_v19) = (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0)))) := by
  refine (W8_arr m ρ c 2).trans ((final3 (V7 m ρ) c).trans ?_)
  have e0 : V7 m ρ c main_v17 = agg128 (W5 m ρ c (Proc.devRef .tc main_v10)) (W5 m ρ c (Proc.devRef .tc main_arg1)) (W5 m ρ c (Proc.devRef .tc main_arg12)) (W5 m ρ c (Proc.devRef .tc main_arg13)) :=
    host3_agg (W5 m ρ c)
  have e1 : V7 m ρ c main_v18 = rowOf 128 (W5 m ρ c (Proc.devRef .tc main_arg5)) := host3_bias (W5 m ρ c)
  rw [e0, e1, prod1 m ρ c, kept_W5_arg1 m ρ c, kept_W5_arg12 m ρ c, kept_W5_arg13 m ρ c, kept_W5_arg5 m ρ c]
  rfl

/-- After layer 2's dense product, its buffer holds the product of the features so far with the layer's weight. -/
theorem prod2 (c : Dev nD) :
    W9 m ρ c (Proc.devRef .tc main_v20) = mm 500000 128 64 (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0)))) (m ((c : Thread nD τ).loc main_arg6)) := by
  refine (W9_arr m ρ c 2).trans ((final4 (V8 m ρ) c).trans ?_)
  have e0 : V8 m ρ c main_v19 = (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0)))) := (feat1 m ρ c)
  have e1 : V8 m ρ c main_arg6 = (m ((c : Thread nD τ).loc main_arg6)) := (kept_W8_arg6 m ρ c)
  rw [e0, e1]

/-- After layer 2's bias step, its buffer holds the layer's features. -/
theorem feat2 (c : Dev nD) :
    W12 m ρ c (Proc.devRef .tc main_v29) = (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))))) := by
  refine (W12_arr m ρ c 2).trans ((final5 (V11 m ρ) c).trans ?_)
  have e0 : V11 m ρ c main_v27 = agg64 (W9 m ρ c (Proc.devRef .tc main_v20)) (W9 m ρ c (Proc.devRef .tc main_arg1)) (W9 m ρ c (Proc.devRef .tc main_arg12)) (W9 m ρ c (Proc.devRef .tc main_arg13)) :=
    host5_agg (W9 m ρ c)
  have e1 : V11 m ρ c main_v28 = rowOf 64 (W9 m ρ c (Proc.devRef .tc main_arg7)) := host5_bias (W9 m ρ c)
  rw [e0, e1, prod2 m ρ c, kept_W9_arg1 m ρ c, kept_W9_arg12 m ρ c, kept_W9_arg13 m ρ c, kept_W9_arg7 m ρ c]
  rfl

/-- After layer 3's dense product, its buffer holds the product of the features so far with the layer's weight. -/
theorem prod3 (c : Dev nD) :
    W13 m ρ c (Proc.devRef .tc main_v30) = mm 500000 64 32 (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))))) (m ((c : Thread nD τ).loc main_arg8)) := by
  refine (W13_arr m ρ c 2).trans ((final6 (V12 m ρ) c).trans ?_)
  have e0 : V12 m ρ c main_v29 = (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))))) := (feat2 m ρ c)
  have e1 : V12 m ρ c main_arg8 = (m ((c : Thread nD τ).loc main_arg8)) := (kept_W12_arg8 m ρ c)
  rw [e0, e1]

/-- After layer 3's bias step, its buffer holds the layer's features. -/
theorem feat3 (c : Dev nD) :
    W16 m ρ c (Proc.devRef .tc main_v39) = (klayer3 (m ((c : Thread nD τ).loc main_arg8)) (m ((c : Thread nD τ).loc main_arg9)) (m ((c : Thread nD τ).loc main_arg1)) (m ((c : Thread nD τ).loc main_arg12)) (m ((c : Thread nD τ).loc main_arg13)) (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0)))))) := by
  refine (W16_arr m ρ c 2).trans ((final7 (V15 m ρ) c).trans ?_)
  have e0 : V15 m ρ c main_v37 = agg32 (W13 m ρ c (Proc.devRef .tc main_v30)) (W13 m ρ c (Proc.devRef .tc main_arg1)) (W13 m ρ c (Proc.devRef .tc main_arg12)) (W13 m ρ c (Proc.devRef .tc main_arg13)) :=
    host7_agg (W13 m ρ c)
  have e1 : V15 m ρ c main_v38 = rowOf 32 (W13 m ρ c (Proc.devRef .tc main_arg9)) := host7_bias (W13 m ρ c)
  rw [e0, e1, prod3 m ρ c, kept_W13_arg1 m ρ c, kept_W13_arg12 m ρ c, kept_W13_arg13 m ρ c, kept_W13_arg9 m ρ c]
  rfl

/-- After layer 4's dense product, its buffer holds the product of the features so far with the layer's weight. -/
theorem prod4 (c : Dev nD) :
    W17 m ρ c (Proc.devRef .tc main_v40) = mm 500000 32 2 (klayer3 (m ((c : Thread nD τ).loc main_arg8)) (m ((c : Thread nD τ).loc main_arg9)) (m ((c : Thread nD τ).loc main_arg1)) (m ((c : Thread nD τ).loc main_arg12)) (m ((c : Thread nD τ).loc main_arg13)) (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0)))))) (m ((c : Thread nD τ).loc main_arg10)) := by
  refine (W17_arr m ρ c 2).trans ((final8 (V16 m ρ) c).trans ?_)
  have e0 : V16 m ρ c main_v39 = (klayer3 (m ((c : Thread nD τ).loc main_arg8)) (m ((c : Thread nD τ).loc main_arg9)) (m ((c : Thread nD τ).loc main_arg1)) (m ((c : Thread nD τ).loc main_arg12)) (m ((c : Thread nD τ).loc main_arg13)) (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0)))))) := (feat3 m ρ c)
  have e1 : V16 m ρ c main_arg10 = (m ((c : Thread nD τ).loc main_arg10)) := (kept_W16_arg10 m ρ c)
  rw [e0, e1]

/-- After layer 4's bias step, its buffer holds the layer's features. -/
theorem feat4 (c : Dev nD) :
    W20 m ρ c (Proc.devRef .tc main_v49) = (klayer4 (m ((c : Thread nD τ).loc main_arg10)) (m ((c : Thread nD τ).loc main_arg11)) (m ((c : Thread nD τ).loc main_arg1)) (m ((c : Thread nD τ).loc main_arg12)) (m ((c : Thread nD τ).loc main_arg13)) (klayer3 (m ((c : Thread nD τ).loc main_arg8)) (m ((c : Thread nD τ).loc main_arg9)) (m ((c : Thread nD τ).loc main_arg1)) (m ((c : Thread nD τ).loc main_arg12)) (m ((c : Thread nD τ).loc main_arg13)) (klayer2 (m ((c : Thread nD τ).loc main_arg6)) (m ((c : Thread nD τ).loc main_arg7)) (m ((c : Thread nD τ).loc main_arg1)) (m ((c : Thread nD τ).loc main_arg12)) (m ((c : Thread nD τ).loc main_arg13)) (klayer1 (m ((c : Thread nD τ).loc main_arg4)) (m ((c : Thread nD τ).loc main_arg5)) (m ((c : Thread nD τ).loc main_arg1)) (m ((c : Thread nD τ).loc main_arg12)) (m ((c : Thread nD τ).loc main_arg13)) (klayer0 (m ((c : Thread nD τ).loc main_arg2)) (m ((c : Thread nD τ).loc main_arg3)) (m ((c : Thread nD τ).loc main_arg1)) (m ((c : Thread nD τ).loc main_arg12)) (m ((c : Thread nD τ).loc main_arg13)) (m ((c : Thread nD τ).loc main_arg0))))))) := by
  refine (W20_arr m ρ c 2).trans ((final9 (V19 m ρ) c).trans ?_)
  have e0 : V19 m ρ c main_v47 = agg2 (W17 m ρ c (Proc.devRef .tc main_v40)) (W17 m ρ c (Proc.devRef .tc main_arg1)) (W17 m ρ c (Proc.devRef .tc main_arg12)) (W17 m ρ c (Proc.devRef .tc main_arg13)) :=
    host9_agg (W17 m ρ c)
  have e1 : V19 m ρ c main_v48 = rowOf 2 (W17 m ρ c (Proc.devRef .tc main_arg11)) := host9_bias (W17 m ρ c)
  rw [e0, e1, prod4 m ρ c, kept_W17_arg1 m ρ c, kept_W17_arg12 m ρ c, kept_W17_arg13 m ρ c, kept_W17_arg11 m ρ c]
  rfl

end Cert.KernelIdeal.Val

end
-- ==== Proof.PreIdx.lean ====
/-
  The precondition's index range, decoded.

  The statement's precondition ends in a conjunct saying that every column index `ec e` of the edge list is, read as a
  signed 32-bit word, in [0, N) with N = 500,000. The kernel's host operations wrap a negative index once
  (`idxN`: `ec e + N` where `ec e < 0`) and then test the wrapped index against [0, N - 1] edge by edge
  (`inRange`), writing the NaN word into a taken row whose index fails the test (`take`).

  Under the precondition no index is negative, so the wrap is the identity, and the wrapped index, being the index
  itself, passes both tests: `inRange` is all ones (`inRange_of_pre`). A select on an all-ones mask is its first
  operand, so the take is the plain gather of the rows (`take64_of_inRange` and its three siblings at the other
  widths).

  The reduction in `inRange` is an `and` along the unit axis of an [E, 1] array; it is read as a left fold from
  the bit 1 over the indices that drop to the edge, and a fold of `and` from 1 over ones is 1, whichever indices
  those are.
-/
import proofs.«402748_j42056319762602_2_alg».proof.Defs
import proofs.«402748_j42056319762602_2_alg».proof.Proof.Gen.KernelIdeal
import proofs.«402748_j42056319762602_2_alg».proof.Proof.Gen.Pre_finite_inputs
import proofs.«402748_j42056319762602_2_alg».proof.Proof.Edge
import Idealize.ShloMosaic.PureOps.Ideal
import Idealize.ShloMosaic.Lib.ReduceAll
import Idealize.ShloMosaic.Lib.StableHlo.Predicate
import Idealize.ShloMosaic.Lib.WordArith
import Idealize.ShloMosaic.Lib.ValueIdx

noncomputable section

namespace Cert.KernelIdeal.Val

open Idealize.ShloMosaic Idealize.ShloMosaic.TcCoe Idealize.SL.Sem Cert.KernelIdeal Cert.KernelIdeal.Edge

/-! ## One-bit words and folds of `and` -/

/-- A left fold by `and` from the bit 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

/-! ## A column index in [0, N) as a signed word -/

/-- The two signed comparisons of the precondition, as bounds on the word's signed value. -/
theorem toInt_bounds (w : BitVec 32) (h0 : IntOp.cmpi .sge w 0#32 = 1#1) (h1 : IntOp.cmpi .slt w 500000#32 = 1#1) :
    0 ≤ w.toInt ∧ w.toInt < 500000 := by
  have h0' : BitVec.ofBool ((0#32 : BitVec 32).sle w) = 1#1 := h0
  have h1' : BitVec.ofBool (w.slt 500000#32) = 1#1 := h1
  rw [WordArith.ofBool_eq_one_iff, BitVec.sle_eq_decide, decide_eq_true_eq] at h0'
  rw [WordArith.ofBool_eq_one_iff, BitVec.slt_eq_decide, decide_eq_true_eq] at h1'
  have e0 : (0#32 : BitVec 32).toInt = 0 := by decide
  have e1 : (500000#32 : BitVec 32).toInt = 500000 := by decide
  omega

/-- A word in [0, N) is not negative: the wrap's test fails. -/
theorem slt_zero_of_bounds (w : BitVec 32) (hw : 0 ≤ w.toInt) : IntOp.cmpi .slt w 0#32 = 0#1 := by
  have e0 : (0#32 : BitVec 32).toInt = 0 := by decide
  show BitVec.ofBool (w.slt 0#32) = 0#1
  rw [BitVec.slt_eq_decide, decide_eq_false (by omega)]
  rfl

/-- A word in [0, N) passes the lower test. -/
theorem sge_zero_of_bounds (w : BitVec 32) (hw : 0 ≤ w.toInt) : IntOp.cmpi .sge w 0#32 = 1#1 := by
  have e0 : (0#32 : BitVec 32).toInt = 0 := by decide
  show BitVec.ofBool ((0#32 : BitVec 32).sle w) = 1#1
  rw [BitVec.sle_eq_decide, decide_eq_true (by omega)]
  rfl

/-- A word in [0, N) passes the upper test against N - 1. -/
theorem sle_last_of_bounds (w : BitVec 32) (hw : w.toInt < 500000) : IntOp.cmpi .sle w 499999#32 = 1#1 := by
  have e1 : (499999#32 : BitVec 32).toInt = 499999 := by decide
  show BitVec.ofBool (w.sle 499999#32) = 1#1
  rw [BitVec.sle_eq_decide, decide_eq_true (by omega)]
  rfl

/-- The whole test at one word: the wrap leaves a word of [0, N) alone, and the word then passes both tests. -/
theorem word_inRange (w : BitVec 32) (h0 : IntOp.cmpi .sge w 0#32 = 1#1) (h1 : IntOp.cmpi .slt w 500000#32 = 1#1) :
    IntOp.andi (IntOp.cmpi .sge (Scalar.select (IntOp.cmpi .slt w 0#32) (IntOp.addi w 500000#32) w) 0#32)
      (IntOp.cmpi .sle (Scalar.select (IntOp.cmpi .slt w 0#32) (IntOp.addi w 500000#32) w) 499999#32) = 1#1 := by
  obtain ⟨hl, hu⟩ := toInt_bounds w h0 h1
  rw [slt_zero_of_bounds w hl, ValueIdx.select_zero]
  exact IntOp.andi_eq_one.2 ⟨sge_zero_of_bounds w hl, sle_last_of_bounds w hu⟩

/-! ## The in-range test under the bounds -/

/-- If every column index is in [0, N), the kernel's edge-by-edge test of the wrapped index is all ones. -/
theorem inRange_of_bounds (ec : IVec S2000000 32)
    (hb : ∀ e, IntOp.cmpi .sge (ec e) 0#32 = 1#1 ∧ IntOp.cmpi .slt (ec e) 500000#32 = 1#1) :
    inRange ec = fun _ => 1#1 := by
  funext e
  unfold inRange
  rw [Host.reduce_eq_foldl]
  refine foldl_andi_one _ _ fun i _ => ?_
  exact word_inRange (ec _) (hb _).1 (hb _).2

/-- The precondition's last conjunct, decoded: the edge-by-edge test is all ones. -/
theorem inRange_of_pre (m : (ℓ : Loc nD τ sig) → Buf (Elt Ideal) ℓ) (h : Cert.Pre_KernelIdeal m) (c : Dev nD) :
    inRange (m ((c.tc : Thread nD τ).loc main_arg13)) = fun _ => 1#1 := by
  -- the rank-zero result has one index
  haveI : Subsingleton Cert.Pre_finite_inputs.S_.Idx := ⟨fun _ _ => funext fun d => d.elim0⟩
  have e := congrFun (h c) ValueIdx.ix0
  unfold Cert.Pre_finite_inputs.fn Cert.Pre_finite_inputs.fn_part1 Cert.Pre_finite_inputs.fn_part2
    Cert.Pre_finite_inputs.fn_part3 at e
  dsimp only at e
  have e2 := (IntOp.andi_eq_one.1 e).2
  refine inRange_of_bounds _ fun k => ?_
  exact IntOp.andi_eq_one.1 (Host.reduce_andi_all _ _ _ _ _ e2 k)

/-! ## The take under an all-ones test is the plain gather -/

theorem take64_of_inRange (S : FVec Ideal S500000x64 .f32) (ec : IVec S2000000 32) (hin : inRange ec = fun _ => 1#1) :
    take64 S ec = Host.gather gather_S500000x64_S2000000x1_S2000000x64_1_0_n_n_0_1_164 S (idxN ec) := by
  funext i
  unfold take64
  rw [ValueIdx.select_apply, hin]
  exact ValueIdx.select_one _ _

theorem take128_of_inRange (S : FVec Ideal S500000x128 .f32) (ec : IVec S2000000 32) (hin : inRange ec = fun _ => 1#1) :
    take128 S ec = Host.gather gather_S500000x128_S2000000x1_S2000000x128_1_0_n_n_0_1_1128 S (idxN ec) := by
  funext i
  unfold take128
  rw [ValueIdx.select_apply, hin]
  exact ValueIdx.select_one _ _

theorem take32_of_inRange (S : FVec Ideal S500000x32 .f32) (ec : IVec S2000000 32) (hin : inRange ec = fun _ => 1#1) :
    take32 S ec = Host.gather gather_S500000x32_S2000000x1_S2000000x32_1_0_n_n_0_1_132 S (idxN ec) := by
  funext i
  unfold take32
  rw [ValueIdx.select_apply, hin]
  exact ValueIdx.select_one _ _

theorem take2_of_inRange (S : FVec Ideal S500000x2 .f32) (ec : IVec S2000000 32) (hin : inRange ec = fun _ => 1#1) :
    take2 S ec = Host.gather gather_S500000x2_S2000000x1_S2000000x2_1_0_n_n_0_1_12 S (idxN ec) := by
  funext i
  unfold take2
  rw [ValueIdx.select_apply, hin]
  exact ValueIdx.select_one _ _

end Cert.KernelIdeal.Val

end
-- ==== Proof.RefChain.lean ====
/-
  The reference's result, layer by layer.

  The reference's run ends with its result buffer at one composed term of the argument arrays. That term is five
  nested layers: each takes the previous features `h`, forms the dense product with its weight, wraps a negative
  column index once, gathers the product's rows by the wrapped index, scales them by the edge values, adds them into
  the rows the row indices name, adds the bias broadcast over the rows, and (all layers but the last) applies the
  leaky rectifier. Here each layer is named as a function of `h`, and the run's term is shown to be their composition.
-/
import proofs.«402748_j42056319762602_2_alg».proof.Proof.Gen.ReferenceIdeal.Run
import Idealize.ShloMosaic.PureOps.Ideal

noncomputable section

namespace Cert.ReferenceIdeal.RefVal

open Idealize.ShloMosaic Idealize.ShloMosaic.TcCoe Idealize.SL.Sem Cert.ReferenceIdeal Cert.ReferenceIdeal.Facts₀ Cert.ReferenceIdeal.Facts

/-- The column indices with a negative one wrapped once, as an [E, 1] column. -/
def ridx (ec : IVec S2000000 32) : IVec S2000000x1 32 :=
  broadcastInDim S2000000x1 ![0] bcast_S2000000_S2000000x1_0
    (select (cmpi .slt ec (broadcastInDim S2000000 ![] bcast_S_S2000000 (constantI S_ 32 0#32)))
      (addi ec (broadcastInDim S2000000 ![] bcast_S_S2000000 (constantI S_ 32 500000#32))) ec)

/-- Width 64: the gathered rows scaled by the edge values and added into the rows the row indices name. -/
def ragg64 (S : FVec Ideal S500000x64 .f32) (ev : FVec Ideal S2000000 .f32) (er ec : IVec S2000000 32) : FVec Ideal S500000x64 .f32 :=
  Host.scatterAdd scatter_S500000x64_S2000000x1_S2000000x64_1_0_0_1
    (broadcastInDim S500000x64 ![] bcast_S_S500000x64 (constant (F := Ideal) S_ .f32 0x00000000#32))
    (broadcastInDim S2000000x1 ![0] bcast_S2000000_S2000000x1_0 er)
    (mulf (broadcastInDim S2000000x64 ![0, 1] bcast_S2000000x1_S2000000x64_0_1 (broadcastInDim S2000000x1 ![0] bcast_S2000000_S2000000x1_0 ev))
      (Host.gather gather_S500000x64_S2000000x1_S2000000x64_1_0_n_n_0_1_164 S (ridx ec)))

/-- Width 64: the bias vector broadcast over the rows. -/
def rbias64 (b : FVec Ideal S64 .f32) : FVec Ideal S500000x64 .f32 :=
  broadcastInDim S500000x64 ![0, 1] bcast_S1x64_S500000x64_0_1 (broadcastInDim S1x64 ![1] bcast_S64_S1x64_1 b)

/-- Width 64: the leaky rectifier as the reference spells it (a select on `v ≥ 0` between `v` and the slope times `v`). -/
def rleaky64 (v : FVec Ideal S500000x64 .f32) : FVec Ideal S500000x64 .f32 :=
  select (cmpf .oge v (broadcastInDim S500000x64 ![] bcast_S_S500000x64 (constant (F := Ideal) S_ .f32 0x00000000#32))) v
    (mulf (broadcastInDim S500000x64 ![] bcast_S_S500000x64 (constant (F := Ideal) S_ .f32 0x3DCCCCCD#32)) v)

/-- Width 128: the gathered rows scaled by the edge values and added into the rows the row indices name. -/
def ragg128 (S : FVec Ideal S500000x128 .f32) (ev : FVec Ideal S2000000 .f32) (er ec : IVec S2000000 32) : FVec Ideal S500000x128 .f32 :=
  Host.scatterAdd scatter_S500000x128_S2000000x1_S2000000x128_1_0_0_1
    (broadcastInDim S500000x128 ![] bcast_S_S500000x128 (constant (F := Ideal) S_ .f32 0x00000000#32))
    (broadcastInDim S2000000x1 ![0] bcast_S2000000_S2000000x1_0 er)
    (mulf (broadcastInDim S2000000x128 ![0, 1] bcast_S2000000x1_S2000000x128_0_1 (broadcastInDim S2000000x1 ![0] bcast_S2000000_S2000000x1_0 ev))
      (Host.gather gather_S500000x128_S2000000x1_S2000000x128_1_0_n_n_0_1_1128 S (ridx ec)))

/-- Width 128: the bias vector broadcast over the rows. -/
def rbias128 (b : FVec Ideal S128 .f32) : FVec Ideal S500000x128 .f32 :=
  broadcastInDim S500000x128 ![0, 1] bcast_S1x128_S500000x128_0_1 (broadcastInDim S1x128 ![1] bcast_S128_S1x128_1 b)

/-- Width 128: the leaky rectifier as the reference spells it (a select on `v ≥ 0` between `v` and the slope times `v`). -/
def rleaky128 (v : FVec Ideal S500000x128 .f32) : FVec Ideal S500000x128 .f32 :=
  select (cmpf .oge v (broadcastInDim S500000x128 ![] bcast_S_S500000x128 (constant (F := Ideal) S_ .f32 0x00000000#32))) v
    (mulf (broadcastInDim S500000x128 ![] bcast_S_S500000x128 (constant (F := Ideal) S_ .f32 0x3DCCCCCD#32)) v)

/-- Width 32: the gathered rows scaled by the edge values and added into the rows the row indices name. -/
def ragg32 (S : FVec Ideal S500000x32 .f32) (ev : FVec Ideal S2000000 .f32) (er ec : IVec S2000000 32) : FVec Ideal S500000x32 .f32 :=
  Host.scatterAdd scatter_S500000x32_S2000000x1_S2000000x32_1_0_0_1
    (broadcastInDim S500000x32 ![] bcast_S_S500000x32 (constant (F := Ideal) S_ .f32 0x00000000#32))
    (broadcastInDim S2000000x1 ![0] bcast_S2000000_S2000000x1_0 er)
    (mulf (broadcastInDim S2000000x32 ![0, 1] bcast_S2000000x1_S2000000x32_0_1 (broadcastInDim S2000000x1 ![0] bcast_S2000000_S2000000x1_0 ev))
      (Host.gather gather_S500000x32_S2000000x1_S2000000x32_1_0_n_n_0_1_132 S (ridx ec)))

/-- Width 32: the bias vector broadcast over the rows. -/
def rbias32 (b : FVec Ideal S32 .f32) : FVec Ideal S500000x32 .f32 :=
  broadcastInDim S500000x32 ![0, 1] bcast_S1x32_S500000x32_0_1 (broadcastInDim S1x32 ![1] bcast_S32_S1x32_1 b)

/-- Width 32: the leaky rectifier as the reference spells it (a select on `v ≥ 0` between `v` and the slope times `v`). -/
def rleaky32 (v : FVec Ideal S500000x32 .f32) : FVec Ideal S500000x32 .f32 :=
  select (cmpf .oge v (broadcastInDim S500000x32 ![] bcast_S_S500000x32 (constant (F := Ideal) S_ .f32 0x00000000#32))) v
    (mulf (broadcastInDim S500000x32 ![] bcast_S_S500000x32 (constant (F := Ideal) S_ .f32 0x3DCCCCCD#32)) v)

/-- Width 2: the gathered rows scaled by the edge values and added into the rows the row indices name. -/
def ragg2 (S : FVec Ideal S500000x2 .f32) (ev : FVec Ideal S2000000 .f32) (er ec : IVec S2000000 32) : FVec Ideal S500000x2 .f32 :=
  Host.scatterAdd scatter_S500000x2_S2000000x1_S2000000x2_1_0_0_1
    (broadcastInDim S500000x2 ![] bcast_S_S500000x2 (constant (F := Ideal) S_ .f32 0x00000000#32))
    (broadcastInDim S2000000x1 ![0] bcast_S2000000_S2000000x1_0 er)
    (mulf (broadcastInDim S2000000x2 ![0, 1] bcast_S2000000x1_S2000000x2_0_1 (broadcastInDim S2000000x1 ![0] bcast_S2000000_S2000000x1_0 ev))
      (Host.gather gather_S500000x2_S2000000x1_S2000000x2_1_0_n_n_0_1_12 S (ridx ec)))

/-- Width 2: the bias vector broadcast over the rows. -/
def rbias2 (b : FVec Ideal S2 .f32) : FVec Ideal S500000x2 .f32 :=
  broadcastInDim S500000x2 ![0, 1] bcast_S1x2_S500000x2_0_1 (broadcastInDim S1x2 ![1] bcast_S2_S1x2_1 b)

/-- Layer 0: features [N, 32] to features [N, 64]. -/
def rlayer0 (w : FVec Ideal S32x64 .f32) (bv : FVec Ideal S64 .f32) (ev : FVec Ideal S2000000 .f32) (er ec : IVec S2000000 32)
    (h : FVec Ideal S500000x32 .f32) : FVec Ideal S500000x64 .f32 :=
  rleaky64 (addf (ragg64 (Host.dotGeneral dot_S500000x32_S32x64_S500000x64_1_0_0_1_n_n none h w) ev er ec) (rbias64 bv))

/-- Layer 1: features [N, 64] to features [N, 128]. -/
def rlayer1 (w : FVec Ideal S64x128 .f32) (bv : FVec Ideal S128 .f32) (ev : FVec Ideal S2000000 .f32) (er ec : IVec S2000000 32)
    (h : FVec Ideal S500000x64 .f32) : FVec Ideal S500000x128 .f32 :=
  rleaky128 (addf (ragg128 (Host.dotGeneral dot_S500000x64_S64x128_S500000x128_1_0_0_1_n_n none h w) ev er ec) (rbias128 bv))

/-- Layer 2: features [N, 128] to features [N, 64]. -/
def rlayer2 (w : FVec Ideal S128x64 .f32) (bv : FVec Ideal S64 .f32) (ev : FVec Ideal S2000000 .f32) (er ec : IVec S2000000 32)
    (h : FVec Ideal S500000x128 .f32) : FVec Ideal S500000x64 .f32 :=
  rleaky64 (addf (ragg64 (Host.dotGeneral dot_S500000x128_S128x64_S500000x64_1_0_0_1_n_n none h w) ev er ec) (rbias64 bv))

/-- Layer 3: features [N, 64] to features [N, 32]. -/
def rlayer3 (w : FVec Ideal S64x32 .f32) (bv : FVec Ideal S32 .f32) (ev : FVec Ideal S2000000 .f32) (er ec : IVec S2000000 32)
    (h : FVec Ideal S500000x64 .f32) : FVec Ideal S500000x32 .f32 :=
  rleaky32 (addf (ragg32 (Host.dotGeneral dot_S500000x64_S64x32_S500000x32_1_0_0_1_n_n none h w) ev er ec) (rbias32 bv))

/-- Layer 4: features [N, 32] to features [N, 2] (no rectifier). -/
def rlayer4 (w : FVec Ideal S32x2 .f32) (bv : FVec Ideal S2 .f32) (ev : FVec Ideal S2000000 .f32) (er ec : IVec S2000000 32)
    (h : FVec Ideal S500000x32 .f32) : FVec Ideal S500000x2 .f32 :=
  addf (ragg2 (Host.dotGeneral dot_S500000x32_S32x2_S500000x2_1_0_0_1_n_n none h w) ev er ec) (rbias2 bv)

set_option maxRecDepth 65536 in
set_option maxHeartbeats 4000000 in
/-- The run's composed result term is the five layers composed, each at its own weight and bias argument. -/
theorem res_eq_layers (m : (ℓ : Loc nD τ sig) → Buf (Elt Ideal) ℓ) (c : Dev nD) :
    Value.res_main_v104 (F := Ideal) m c
      = rlayer4 (m ((c.tc : Thread nD τ).loc main_arg10)) (m ((c.tc : Thread nD τ).loc main_arg11)) (m ((c.tc : Thread nD τ).loc main_arg1)) (m ((c.tc : Thread nD τ).loc main_arg12)) (m ((c.tc : Thread nD τ).loc main_arg13))
        (rlayer3 (m ((c.tc : Thread nD τ).loc main_arg8)) (m ((c.tc : Thread nD τ).loc main_arg9)) (m ((c.tc : Thread nD τ).loc main_arg1)) (m ((c.tc : Thread nD τ).loc main_arg12)) (m ((c.tc : Thread nD τ).loc main_arg13))
          (rlayer2 (m ((c.tc : Thread nD τ).loc main_arg6)) (m ((c.tc : Thread nD τ).loc main_arg7)) (m ((c.tc : Thread nD τ).loc main_arg1)) (m ((c.tc : Thread nD τ).loc main_arg12)) (m ((c.tc : Thread nD τ).loc main_arg13))
            (rlayer1 (m ((c.tc : Thread nD τ).loc main_arg4)) (m ((c.tc : Thread nD τ).loc main_arg5)) (m ((c.tc : Thread nD τ).loc main_arg1)) (m ((c.tc : Thread nD τ).loc main_arg12)) (m ((c.tc : Thread nD τ).loc main_arg13))
              (rlayer0 (m ((c.tc : Thread nD τ).loc main_arg2)) (m ((c.tc : Thread nD τ).loc main_arg3)) (m ((c.tc : Thread nD τ).loc main_arg1)) (m ((c.tc : Thread nD τ).loc main_arg12)) (m ((c.tc : Thread nD τ).loc main_arg13))
                (m ((c.tc : Thread nD τ).loc main_arg0)))))) := by
  unfold Value.res_main_v104 rlayer4 rlayer3 rlayer2 rlayer1 rlayer0 rleaky64 rleaky128 rleaky32 ragg64 ragg128 ragg32 ragg2 rbias64 rbias128 rbias32 rbias2 ridx
  rfl

end Cert.ReferenceIdeal.RefVal

end
-- ==== Proof.RefMM.lean ====
/-
  The reference's five dense products are the specification's.

  Each layer of the reference multiplies the node features `h : [500000, a]` by the weight `w : [a, b]` with a
  general dot product whose dimension numbers contract axis 1 of the left operand against axis 0 of the right one
  and have no batch axes. Over the extended reals that operation is the plain sum over the contracted index: its
  entry at `i` is the sum, over the one-axis contraction index `q`, of the left operand at `(i 0, q 0)` times the
  right operand at `(q 0, i 1)`. Reindexing the one-axis contraction index by `k : Fin a` gives
  `∑ k, h (i 0, k) * w (k, i 1)`, which is the specification's `mm` entry by definition.

  The five statements differ only in the extents `a`, `b`; each proof identifies the two operand indices coordinate
  by coordinate, using the generated module's four axis lemmas of the matching dimension-number record.
-/
import proofs.«402748_j42056319762602_2_alg».proof.Proof.Gen.ReferenceIdeal.Run
import proofs.«402748_j42056319762602_2_alg».proof.Proof.Gen.ReferenceIdeal.Read
import proofs.«402748_j42056319762602_2_alg».proof.Proof.Spec
import Idealize.ShloMosaic.PureOps.Ideal
import Idealize.ShloMosaic.PureOps.Ideal.Laws
import Idealize.ShloMosaic.Lib.ValueIdx

noncomputable section

namespace Cert.ReferenceIdeal.RefVal

open Idealize.ShloMosaic Idealize.ShloMosaic.TcCoe Idealize.SL.Sem Cert.ReferenceIdeal Cert.ReferenceIdeal.Facts₀ Cert.ReferenceIdeal.Facts Cert.Gcn

theorem dot_eq_mm_32_64 (h : FVec Ideal S500000x32 .f32) (w : FVec Ideal S32x64 .f32) :
    Host.dotGeneral dot_S500000x32_S32x64_S500000x64_1_0_0_1_n_n none h w = mm 500000 32 64 h w := by
  funext i
  simp only [Host.dotGeneral]
  rw [Ideal.dotGeneral_apply, ← Equiv.sum_comp (ValueIdx.contrEquiv1 dot_S500000x32_S32x64_S500000x64_1_0_0_1_n_n 32 rfl rfl).symm]
  show _ = ∑ k : Fin 32, h (ValueIdx.ix2 (i 0) k) * w (ValueIdx.ix2 k (i 1))
  refine Finset.sum_congr rfl fun k _ => ?_
  have hk := ValueIdx.contrEquiv1_symm_val dot_S500000x32_S32x64_S500000x64_1_0_0_1_n_n 32 rfl rfl k
  have el : dot_S500000x32_S32x64_S500000x64_1_0_0_1_n_n.lhsIdx i ((ValueIdx.contrEquiv1 dot_S500000x32_S32x64_S500000x64_1_0_0_1_n_n 32 rfl rfl).symm k) = ValueIdx.ix2 (i 0) k := funext fun a => Fin.ext (by
    match a with
    | ⟨0, _⟩ => exact Read.lhs_main_v0_0 _ _
    | ⟨1, _⟩ => exact (Read.lhs_main_v0_1 _ _).trans hk)
  have er : dot_S500000x32_S32x64_S500000x64_1_0_0_1_n_n.rhsIdx i ((ValueIdx.contrEquiv1 dot_S500000x32_S32x64_S500000x64_1_0_0_1_n_n 32 rfl rfl).symm k) = ValueIdx.ix2 k (i 1) := funext fun a => Fin.ext (by
    match a with
    | ⟨0, _⟩ => exact (Read.rhs_main_v0_0 _ _).trans hk
    | ⟨1, _⟩ => exact Read.rhs_main_v0_1 _ _)
  rw [el, er]
  rfl

theorem dot_eq_mm_64_128 (h : FVec Ideal S500000x64 .f32) (w : FVec Ideal S64x128 .f32) :
    Host.dotGeneral dot_S500000x64_S64x128_S500000x128_1_0_0_1_n_n none h w = mm 500000 64 128 h w := by
  funext i
  simp only [Host.dotGeneral]
  rw [Ideal.dotGeneral_apply, ← Equiv.sum_comp (ValueIdx.contrEquiv1 dot_S500000x64_S64x128_S500000x128_1_0_0_1_n_n 64 rfl rfl).symm]
  show _ = ∑ k : Fin 64, h (ValueIdx.ix2 (i 0) k) * w (ValueIdx.ix2 k (i 1))
  refine Finset.sum_congr rfl fun k _ => ?_
  have hk := ValueIdx.contrEquiv1_symm_val dot_S500000x64_S64x128_S500000x128_1_0_0_1_n_n 64 rfl rfl k
  have el : dot_S500000x64_S64x128_S500000x128_1_0_0_1_n_n.lhsIdx i ((ValueIdx.contrEquiv1 dot_S500000x64_S64x128_S500000x128_1_0_0_1_n_n 64 rfl rfl).symm k) = ValueIdx.ix2 (i 0) k := funext fun a => Fin.ext (by
    match a with
    | ⟨0, _⟩ => exact Read.lhs_main_v22_0 _ _
    | ⟨1, _⟩ => exact (Read.lhs_main_v22_1 _ _).trans hk)
  have er : dot_S500000x64_S64x128_S500000x128_1_0_0_1_n_n.rhsIdx i ((ValueIdx.contrEquiv1 dot_S500000x64_S64x128_S500000x128_1_0_0_1_n_n 64 rfl rfl).symm k) = ValueIdx.ix2 k (i 1) := funext fun a => Fin.ext (by
    match a with
    | ⟨0, _⟩ => exact (Read.rhs_main_v22_0 _ _).trans hk
    | ⟨1, _⟩ => exact Read.rhs_main_v22_1 _ _)
  rw [el, er]
  rfl

theorem dot_eq_mm_128_64 (h : FVec Ideal S500000x128 .f32) (w : FVec Ideal S128x64 .f32) :
    Host.dotGeneral dot_S500000x128_S128x64_S500000x64_1_0_0_1_n_n none h w = mm 500000 128 64 h w := by
  funext i
  simp only [Host.dotGeneral]
  rw [Ideal.dotGeneral_apply, ← Equiv.sum_comp (ValueIdx.contrEquiv1 dot_S500000x128_S128x64_S500000x64_1_0_0_1_n_n 128 rfl rfl).symm]
  show _ = ∑ k : Fin 128, h (ValueIdx.ix2 (i 0) k) * w (ValueIdx.ix2 k (i 1))
  refine Finset.sum_congr rfl fun k _ => ?_
  have hk := ValueIdx.contrEquiv1_symm_val dot_S500000x128_S128x64_S500000x64_1_0_0_1_n_n 128 rfl rfl k
  have el : dot_S500000x128_S128x64_S500000x64_1_0_0_1_n_n.lhsIdx i ((ValueIdx.contrEquiv1 dot_S500000x128_S128x64_S500000x64_1_0_0_1_n_n 128 rfl rfl).symm k) = ValueIdx.ix2 (i 0) k := funext fun a => Fin.ext (by
    match a with
    | ⟨0, _⟩ => exact Read.lhs_main_v44_0 _ _
    | ⟨1, _⟩ => exact (Read.lhs_main_v44_1 _ _).trans hk)
  have er : dot_S500000x128_S128x64_S500000x64_1_0_0_1_n_n.rhsIdx i ((ValueIdx.contrEquiv1 dot_S500000x128_S128x64_S500000x64_1_0_0_1_n_n 128 rfl rfl).symm k) = ValueIdx.ix2 k (i 1) := funext fun a => Fin.ext (by
    match a with
    | ⟨0, _⟩ => exact (Read.rhs_main_v44_0 _ _).trans hk
    | ⟨1, _⟩ => exact Read.rhs_main_v44_1 _ _)
  rw [el, er]
  rfl

theorem dot_eq_mm_64_32 (h : FVec Ideal S500000x64 .f32) (w : FVec Ideal S64x32 .f32) :
    Host.dotGeneral dot_S500000x64_S64x32_S500000x32_1_0_0_1_n_n none h w = mm 500000 64 32 h w := by
  funext i
  simp only [Host.dotGeneral]
  rw [Ideal.dotGeneral_apply, ← Equiv.sum_comp (ValueIdx.contrEquiv1 dot_S500000x64_S64x32_S500000x32_1_0_0_1_n_n 64 rfl rfl).symm]
  show _ = ∑ k : Fin 64, h (ValueIdx.ix2 (i 0) k) * w (ValueIdx.ix2 k (i 1))
  refine Finset.sum_congr rfl fun k _ => ?_
  have hk := ValueIdx.contrEquiv1_symm_val dot_S500000x64_S64x32_S500000x32_1_0_0_1_n_n 64 rfl rfl k
  have el : dot_S500000x64_S64x32_S500000x32_1_0_0_1_n_n.lhsIdx i ((ValueIdx.contrEquiv1 dot_S500000x64_S64x32_S500000x32_1_0_0_1_n_n 64 rfl rfl).symm k) = ValueIdx.ix2 (i 0) k := funext fun a => Fin.ext (by
    match a with
    | ⟨0, _⟩ => exact Read.lhs_main_v66_0 _ _
    | ⟨1, _⟩ => exact (Read.lhs_main_v66_1 _ _).trans hk)
  have er : dot_S500000x64_S64x32_S500000x32_1_0_0_1_n_n.rhsIdx i ((ValueIdx.contrEquiv1 dot_S500000x64_S64x32_S500000x32_1_0_0_1_n_n 64 rfl rfl).symm k) = ValueIdx.ix2 k (i 1) := funext fun a => Fin.ext (by
    match a with
    | ⟨0, _⟩ => exact (Read.rhs_main_v66_0 _ _).trans hk
    | ⟨1, _⟩ => exact Read.rhs_main_v66_1 _ _)
  rw [el, er]
  rfl

theorem dot_eq_mm_32_2 (h : FVec Ideal S500000x32 .f32) (w : FVec Ideal S32x2 .f32) :
    Host.dotGeneral dot_S500000x32_S32x2_S500000x2_1_0_0_1_n_n none h w = mm 500000 32 2 h w := by
  funext i
  simp only [Host.dotGeneral]
  rw [Ideal.dotGeneral_apply, ← Equiv.sum_comp (ValueIdx.contrEquiv1 dot_S500000x32_S32x2_S500000x2_1_0_0_1_n_n 32 rfl rfl).symm]
  show _ = ∑ k : Fin 32, h (ValueIdx.ix2 (i 0) k) * w (ValueIdx.ix2 k (i 1))
  refine Finset.sum_congr rfl fun k _ => ?_
  have hk := ValueIdx.contrEquiv1_symm_val dot_S500000x32_S32x2_S500000x2_1_0_0_1_n_n 32 rfl rfl k
  have el : dot_S500000x32_S32x2_S500000x2_1_0_0_1_n_n.lhsIdx i ((ValueIdx.contrEquiv1 dot_S500000x32_S32x2_S500000x2_1_0_0_1_n_n 32 rfl rfl).symm k) = ValueIdx.ix2 (i 0) k := funext fun a => Fin.ext (by
    match a with
    | ⟨0, _⟩ => exact Read.lhs_main_v88_0 _ _
    | ⟨1, _⟩ => exact (Read.lhs_main_v88_1 _ _).trans hk)
  have er : dot_S500000x32_S32x2_S500000x2_1_0_0_1_n_n.rhsIdx i ((ValueIdx.contrEquiv1 dot_S500000x32_S32x2_S500000x2_1_0_0_1_n_n 32 rfl rfl).symm k) = ValueIdx.ix2 k (i 1) := funext fun a => Fin.ext (by
    match a with
    | ⟨0, _⟩ => exact (Read.rhs_main_v88_0 _ _).trans hk
    | ⟨1, _⟩ => exact Read.rhs_main_v88_1 _ _)
  rw [el, er]
  rfl

end Cert.ReferenceIdeal.RefVal

end
-- ==== Proof.RefAct.lean ====
/-
  The reference's bias-and-rectifier step is the specification's, entry by entry.

  Per layer the reference adds to the aggregated features `agg : [N, b]` the bias vector `[b]`, laid first as a
  one-row array `[1, b]` and then along every row of `[N, b]`, and (in all layers but the last) keeps a sum `v`
  where `v ≥ 0` and replaces it by the slope word times `v` elsewhere. Read at an index `(r, j)` the laid-out bias
  is the vector's entry `j`, a scalar laid over the whole array is that scalar, and every other operation acts entry
  by entry; so the entry `(r, j)` of the result is the rectifier of `agg (r, j) + bias j`, which is what the
  specification's `biasAct` (and, without the rectifier, `addBias`) says.
-/
import proofs.«402748_j42056319762602_2_alg».proof.Proof.Gen.ReferenceIdeal.Run
import proofs.«402748_j42056319762602_2_alg».proof.Proof.Spec
import Idealize.ShloMosaic.PureOps.Ideal
import Idealize.ShloMosaic.Lib.ValueIdx
import Idealize.ShloMosaic.Lib.StableHlo.Predicate

noncomputable section

namespace Cert.ReferenceIdeal.RefVal

open Idealize.ShloMosaic Idealize.ShloMosaic.TcCoe Idealize.SL.Sem Cert.ReferenceIdeal Cert.ReferenceIdeal.Facts₀ Cert.ReferenceIdeal.Facts Cert.Gcn

/-- A vector `[m]` laid as the one row of `[1, m]` and then along every row of `[n, m]` reads, at `(r, j)`, the
    vector's entry `j`. This is the library's statement for a row vector laid down the columns, with the index
    `(r, j)` and the vector's index `j` written in the coordinate forms used here (the two spellings of each index
    agree coordinate by coordinate). -/
theorem row_laid_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α)
    (r : Fin n) (j : Fin m) :
    broadcastInDim ⟨2, ![n, m]⟩ ![0, 1] h₂ (broadcastInDim ⟨2, ![1, m]⟩ ![1] h₁ v) (ValueIdx.ix2 r j) = v (ValueIdx.ix1 j) := by
  have e2 : ValueIdx.ix2 r j = StableHlo.Predicate.ij r j := by
    funext d; match d with | ⟨0, _⟩ => rfl | ⟨1, _⟩ => rfl
  have e1 : (Shape.Idx.ofFin j : (⟨1, ![m]⟩ : Shape).Idx) = ValueIdx.ix1 j := by
    funext d; match d with | ⟨0, _⟩ => rfl
  rw [e2, ← e1]
  exact StableHlo.Predicate.bcast_cols h₁ h₂ v r j

/-- A scalar laid over a whole array reads the scalar at every index (the rank-0 index set has one element). -/
theorem scalar_laid_apply {α : Type} {t : Shape} (h : (⟨0, ![]⟩ : Shape).BroadcastsInDim t ![])
    (v : (⟨0, ![]⟩ : Shape).Idx → α) (i : t.Idx) :
    broadcastInDim t ![] h v i = v ValueIdx.ix0 :=
  (StableHlo.Predicate.bcast_scalar h (by decide) v i).trans (congrArg v (ValueIdx.eq_ix0 _))

abbrev bias64 (b : FVec Ideal S64 .f32) : FVec Ideal S500000x64 .f32 :=
  broadcastInDim S500000x64 ![0, 1] bcast_S1x64_S500000x64_0_1 (broadcastInDim S1x64 ![1] bcast_S64_S1x64_1 b)
abbrev bias128 (b : FVec Ideal S128 .f32) : FVec Ideal S500000x128 .f32 :=
  broadcastInDim S500000x128 ![0, 1] bcast_S1x128_S500000x128_0_1 (broadcastInDim S1x128 ![1] bcast_S128_S1x128_1 b)
abbrev bias32 (b : FVec Ideal S32 .f32) : FVec Ideal S500000x32 .f32 :=
  broadcastInDim S500000x32 ![0, 1] bcast_S1x32_S500000x32_0_1 (broadcastInDim S1x32 ![1] bcast_S32_S1x32_1 b)
abbrev bias2 (b : FVec Ideal S2 .f32) : FVec Ideal S500000x2 .f32 :=
  broadcastInDim S500000x2 ![0, 1] bcast_S1x2_S500000x2_0_1 (broadcastInDim S1x2 ![1] bcast_S2_S1x2_1 b)

theorem act_64 (agg : FVec Ideal S500000x64 .f32) (b : FVec Ideal S64 .f32) :
    select (cmpf .oge (addf agg (bias64 b)) (broadcastInDim S500000x64 ![] bcast_S_S500000x64 (constant (F := Ideal) S_ .f32 0x00000000#32)))
      (addf agg (bias64 b))
      (mulf (broadcastInDim S500000x64 ![] bcast_S_S500000x64 (constant (F := Ideal) S_ .f32 0x3DCCCCCD#32)) (addf agg (bias64 b)))
    = biasAct 500000 64 agg (rowOf 64 b) := by
  funext i
  obtain ⟨r, j, rfl⟩ : ∃ (r : Fin 500000) (j : Fin 64), i = ValueIdx.ix2 r j := ⟨i 0, i 1, ValueIdx.eq_ix2 i⟩
  have hb : bias64 b (ValueIdx.ix2 r j) = b (ValueIdx.ix1 j) := row_laid_apply _ _ b r j
  rw [ValueIdx.select_apply, ValueIdx.cmpf_apply, ValueIdx.mulf_apply, ValueIdx.addf_apply, hb,
    scalar_laid_apply, scalar_laid_apply, ValueIdx.constant_apply, ValueIdx.constant_apply,
    Cert.Gcn.biasAct_apply, Cert.Gcn.rowOf_apply]
  -- both sides are now the rectifier's select on `agg (r, j) + b j`: the comparison of vectors at this index is the
  -- order's comparison, and the product is the extended reals'
  rfl

theorem act_128 (agg : FVec Ideal S500000x128 .f32) (b : FVec Ideal S128 .f32) :
    select (cmpf .oge (addf agg (bias128 b)) (broadcastInDim S500000x128 ![] bcast_S_S500000x128 (constant (F := Ideal) S_ .f32 0x00000000#32)))
      (addf agg (bias128 b))
      (mulf (broadcastInDim S500000x128 ![] bcast_S_S500000x128 (constant (F := Ideal) S_ .f32 0x3DCCCCCD#32)) (addf agg (bias128 b)))
    = biasAct 500000 128 agg (rowOf 128 b) := by
  funext i
  obtain ⟨r, j, rfl⟩ : ∃ (r : Fin 500000) (j : Fin 128), i = ValueIdx.ix2 r j := ⟨i 0, i 1, ValueIdx.eq_ix2 i⟩
  have hb : bias128 b (ValueIdx.ix2 r j) = b (ValueIdx.ix1 j) := row_laid_apply _ _ b r j
  rw [ValueIdx.select_apply, ValueIdx.cmpf_apply, ValueIdx.mulf_apply, ValueIdx.addf_apply, hb,
    scalar_laid_apply, scalar_laid_apply, ValueIdx.constant_apply, ValueIdx.constant_apply,
    Cert.Gcn.biasAct_apply, Cert.Gcn.rowOf_apply]
  -- both sides are now the rectifier's select on `agg (r, j) + b j`: the comparison of vectors at this index is the
  -- order's comparison, and the product is the extended reals'
  rfl

theorem act_32 (agg : FVec Ideal S500000x32 .f32) (b : FVec Ideal S32 .f32) :
    select (cmpf .oge (addf agg (bias32 b)) (broadcastInDim S500000x32 ![] bcast_S_S500000x32 (constant (F := Ideal) S_ .f32 0x00000000#32)))
      (addf agg (bias32 b))
      (mulf (broadcastInDim S500000x32 ![] bcast_S_S500000x32 (constant (F := Ideal) S_ .f32 0x3DCCCCCD#32)) (addf agg (bias32 b)))
    = biasAct 500000 32 agg (rowOf 32 b) := by
  funext i
  obtain ⟨r, j, rfl⟩ : ∃ (r : Fin 500000) (j : Fin 32), i = ValueIdx.ix2 r j := ⟨i 0, i 1, ValueIdx.eq_ix2 i⟩
  have hb : bias32 b (ValueIdx.ix2 r j) = b (ValueIdx.ix1 j) := row_laid_apply _ _ b r j
  rw [ValueIdx.select_apply, ValueIdx.cmpf_apply, ValueIdx.mulf_apply, ValueIdx.addf_apply, hb,
    scalar_laid_apply, scalar_laid_apply, ValueIdx.constant_apply, ValueIdx.constant_apply,
    Cert.Gcn.biasAct_apply, Cert.Gcn.rowOf_apply]
  -- both sides are now the rectifier's select on `agg (r, j) + b j`: the comparison of vectors at this index is the
  -- order's comparison, and the product is the extended reals'
  rfl

theorem bias_2 (agg : FVec Ideal S500000x2 .f32) (b : FVec Ideal S2 .f32) :
    addf agg (bias2 b) = addBias 500000 2 agg (rowOf 2 b) := by
  funext i
  obtain ⟨r, j, rfl⟩ : ∃ (r : Fin 500000) (j : Fin 2), i = ValueIdx.ix2 r j := ⟨i 0, i 1, ValueIdx.eq_ix2 i⟩
  have hb : bias2 b (ValueIdx.ix2 r j) = b (ValueIdx.ix1 j) := row_laid_apply _ _ b r j
  rw [ValueIdx.addf_apply, hb, Cert.Gcn.addBias_apply, Cert.Gcn.rowOf_apply]

end Cert.ReferenceIdeal.RefVal

end
-- ==== Proof.Bridge.lean ====
/-
  Layer by layer, the kernel's layer is the reference's.

  Three things differ between the two spellings of a layer, and each is closed here once per width:
  the kernel's take puts the NaN word where a wrapped column index is out of range, which under the precondition
  never happens (`take…_of_inRange`), so the take is the reference's gather; the kernel scales the gathered rows
  on the right, the reference on the left (multiplication of extended reals commutes); and the dense product and
  the bias-and-rectifier step are stated entry by entry on the kernel's side and by whole-array operations on the
  reference's (`dot_eq_mm_…`, `act_…`, `bias_2`). The gather and the scatter-add themselves are never opened:
  both programs apply the same operation, with the same dimension record, to equal operands.
-/
import proofs.«402748_j42056319762602_2_alg».proof.Proof.KLayers
import proofs.«402748_j42056319762602_2_alg».proof.Proof.PreIdx
import proofs.«402748_j42056319762602_2_alg».proof.Proof.RefChain
import proofs.«402748_j42056319762602_2_alg».proof.Proof.RefMM
import proofs.«402748_j42056319762602_2_alg».proof.Proof.RefAct
import Idealize.ShloMosaic.Lib.ValueIdx

noncomputable section

namespace Cert.Proof.Bridge

open Idealize.ShloMosaic Cert.Gcn
open Cert.KernelIdeal.Val Cert.KernelIdeal.Edge Cert.ReferenceIdeal.RefVal

/-- The product of extended reals commutes, entry by entry. -/
theorem mulf_swap {s : Shape} {φ : FTy} (a b : FVec Ideal s φ) : mulf a b = mulf b a :=
  funext fun i => mul_comm (a i) (b i)

/-- The wrapped column index is one term in both programs. -/
theorem idx_same (ec : IVec Cert.KernelIdeal.S2000000 32) : idxN ec = ridx ec := rfl

theorem gather64_same : Cert.KernelIdeal.gather_S500000x64_S2000000x1_S2000000x64_1_0_n_n_0_1_164 = Cert.ReferenceIdeal.gather_S500000x64_S2000000x1_S2000000x64_1_0_n_n_0_1_164 := rfl
theorem scatter64_same : Cert.KernelIdeal.scatter_S500000x64_S2000000x1_S2000000x64_1_0_0_1 = Cert.ReferenceIdeal.scatter_S500000x64_S2000000x1_S2000000x64_1_0_0_1 := rfl

/-- Width 64: with every wrapped index in range, the kernel's aggregate is the reference's. -/
theorem agg64_same (S : FVec Ideal Cert.KernelIdeal.S500000x64 .f32) (ev : FVec Ideal Cert.KernelIdeal.S2000000 .f32) (er ec : IVec Cert.KernelIdeal.S2000000 32)
    (hin : inRange ec = fun _ => 1#1) : agg64 S ev er ec = ragg64 S ev er ec := by
  unfold agg64 ragg64
  rw [take64_of_inRange S ec hin, mulf_swap, gather64_same, scatter64_same, idx_same]

theorem gather128_same : Cert.KernelIdeal.gather_S500000x128_S2000000x1_S2000000x128_1_0_n_n_0_1_1128 = Cert.ReferenceIdeal.gather_S500000x128_S2000000x1_S2000000x128_1_0_n_n_0_1_1128 := rfl
theorem scatter128_same : Cert.KernelIdeal.scatter_S500000x128_S2000000x1_S2000000x128_1_0_0_1 = Cert.ReferenceIdeal.scatter_S500000x128_S2000000x1_S2000000x128_1_0_0_1 := rfl

/-- Width 128: with every wrapped index in range, the kernel's aggregate is the reference's. -/
theorem agg128_same (S : FVec Ideal Cert.KernelIdeal.S500000x128 .f32) (ev : FVec Ideal Cert.KernelIdeal.S2000000 .f32) (er ec : IVec Cert.KernelIdeal.S2000000 32)
    (hin : inRange ec = fun _ => 1#1) : agg128 S ev er ec = ragg128 S ev er ec := by
  unfold agg128 ragg128
  rw [take128_of_inRange S ec hin, mulf_swap, gather128_same, scatter128_same, idx_same]

theorem gather32_same : Cert.KernelIdeal.gather_S500000x32_S2000000x1_S2000000x32_1_0_n_n_0_1_132 = Cert.ReferenceIdeal.gather_S500000x32_S2000000x1_S2000000x32_1_0_n_n_0_1_132 := rfl
theorem scatter32_same : Cert.KernelIdeal.scatter_S500000x32_S2000000x1_S2000000x32_1_0_0_1 = Cert.ReferenceIdeal.scatter_S500000x32_S2000000x1_S2000000x32_1_0_0_1 := rfl

/-- Width 32: with every wrapped index in range, the kernel's aggregate is the reference's. -/
theorem agg32_same (S : FVec Ideal Cert.KernelIdeal.S500000x32 .f32) (ev : FVec Ideal Cert.KernelIdeal.S2000000 .f32) (er ec : IVec Cert.KernelIdeal.S2000000 32)
    (hin : inRange ec = fun _ => 1#1) : agg32 S ev er ec = ragg32 S ev er ec := by
  unfold agg32 ragg32
  rw [take32_of_inRange S ec hin, mulf_swap, gather32_same, scatter32_same, idx_same]

theorem gather2_same : Cert.KernelIdeal.gather_S500000x2_S2000000x1_S2000000x2_1_0_n_n_0_1_12 = Cert.ReferenceIdeal.gather_S500000x2_S2000000x1_S2000000x2_1_0_n_n_0_1_12 := rfl
theorem scatter2_same : Cert.KernelIdeal.scatter_S500000x2_S2000000x1_S2000000x2_1_0_0_1 = Cert.ReferenceIdeal.scatter_S500000x2_S2000000x1_S2000000x2_1_0_0_1 := rfl

/-- Width 2: with every wrapped index in range, the kernel's aggregate is the reference's. -/
theorem agg2_same (S : FVec Ideal Cert.KernelIdeal.S500000x2 .f32) (ev : FVec Ideal Cert.KernelIdeal.S2000000 .f32) (er ec : IVec Cert.KernelIdeal.S2000000 32)
    (hin : inRange ec = fun _ => 1#1) : agg2 S ev er ec = ragg2 S ev er ec := by
  unfold agg2 ragg2
  rw [take2_of_inRange S ec hin, mulf_swap, gather2_same, scatter2_same, idx_same]

/-- Layer 0. -/
theorem layer0_same (w : FVec Ideal Cert.KernelIdeal.S32x64 .f32) (bv : FVec Ideal Cert.KernelIdeal.S64 .f32) (ev : FVec Ideal Cert.KernelIdeal.S2000000 .f32) (er ec : IVec Cert.KernelIdeal.S2000000 32)
    (hin : inRange ec = fun _ => 1#1) (h : FVec Ideal Cert.KernelIdeal.S500000x32 .f32) :
    klayer0 w bv ev er ec h = rlayer0 w bv ev er ec h := by
  unfold klayer0 rlayer0 rleaky64 rbias64
  rw [agg64_same _ ev er ec hin, ← dot_eq_mm_32_64 h w]
  exact (act_64 _ bv).symm

/-- Layer 1. -/
theorem layer1_same (w : FVec Ideal Cert.KernelIdeal.S64x128 .f32) (bv : FVec Ideal Cert.KernelIdeal.S128 .f32) (ev : FVec Ideal Cert.KernelIdeal.S2000000 .f32) (er ec : IVec Cert.KernelIdeal.S2000000 32)
    (hin : inRange ec = fun _ => 1#1) (h : FVec Ideal Cert.KernelIdeal.S500000x64 .f32) :
    klayer1 w bv ev er ec h = rlayer1 w bv ev er ec h := by
  unfold klayer1 rlayer1 rleaky128 rbias128
  rw [agg128_same _ ev er ec hin, ← dot_eq_mm_64_128 h w]
  exact (act_128 _ bv).symm

/-- Layer 2. -/
theorem layer2_same (w : FVec Ideal Cert.KernelIdeal.S128x64 .f32) (bv : FVec Ideal Cert.KernelIdeal.S64 .f32) (ev : FVec Ideal Cert.KernelIdeal.S2000000 .f32) (er ec : IVec Cert.KernelIdeal.S2000000 32)
    (hin : inRange ec = fun _ => 1#1) (h : FVec Ideal Cert.KernelIdeal.S500000x128 .f32) :
    klayer2 w bv ev er ec h = rlayer2 w bv ev er ec h := by
  unfold klayer2 rlayer2 rleaky64 rbias64
  rw [agg64_same _ ev er ec hin, ← dot_eq_mm_128_64 h w]
  exact (act_64 _ bv).symm

/-- Layer 3. -/
theorem layer3_same (w : FVec Ideal Cert.KernelIdeal.S64x32 .f32) (bv : FVec Ideal Cert.KernelIdeal.S32 .f32) (ev : FVec Ideal Cert.KernelIdeal.S2000000 .f32) (er ec : IVec Cert.KernelIdeal.S2000000 32)
    (hin : inRange ec = fun _ => 1#1) (h : FVec Ideal Cert.KernelIdeal.S500000x64 .f32) :
    klayer3 w bv ev er ec h = rlayer3 w bv ev er ec h := by
  unfold klayer3 rlayer3 rleaky32 rbias32
  rw [agg32_same _ ev er ec hin, ← dot_eq_mm_64_32 h w]
  exact (act_32 _ bv).symm

/-- Layer 4. -/
theorem layer4_same (w : FVec Ideal Cert.KernelIdeal.S32x2 .f32) (bv : FVec Ideal Cert.KernelIdeal.S2 .f32) (ev : FVec Ideal Cert.KernelIdeal.S2000000 .f32) (er ec : IVec Cert.KernelIdeal.S2000000 32)
    (hin : inRange ec = fun _ => 1#1) (h : FVec Ideal Cert.KernelIdeal.S500000x32 .f32) :
    klayer4 w bv ev er ec h = rlayer4 w bv ev er ec h := by
  unfold klayer4 rlayer4 rbias2
  rw [agg2_same _ ev er ec hin, ← dot_eq_mm_32_2 h w]
  exact (bias_2 _ bv).symm

end Cert.Proof.Bridge

end
-- ==== Proof.lean ====
/-
  Five stacked graph-convolution layers: the Pallas kernel against its jnp reference, over the extended reals.

  Each layer computes, from node features `h : [N, a]` (N = 500,000), a weight `w : [a, b]`, a bias `[b]` and an edge list
  (column index, row index, value; E = 2,000,000 edges): the dense product `h · w`; edge by edge the product's row at the
  column index, scaled by the edge's value, added into the row the row index names; the bias added to every row; and,
  in all layers but the last, the leaky rectifier with slope the binary32 word nearest one tenth.

  The kernel tiles the dense product and the bias step over row blocks of 10,000 (fifty grid points each) and leaves the
  gather and the scatter-add to host operations; the reference is host operations throughout. At the ideal instance a
  change of float format is the identity, so the kernel's bf16 operands are the f32 arrays themselves and each tiled
  product is the whole product, entry by entry the same finite sum (`final0` … `final8`, `dot_eq_mm_…`); the tiled bias
  step is the whole one (`final1` … `final9`, `act_…`, `bias_2`). The one difference of substance is the gather: the
  kernel's take fills a row with the NaN word where the (once-wrapped) column index falls outside [0, N), the reference's
  plain indexing does not. Under the precondition every column index lies in [0, N), the kernel's range test is all ones
  (`inRange_of_pre`) and the take is the plain gather; the two programs then apply the same gather and the same
  scatter-add, which are never opened, to equal operands, the scaling product commuted.

  The frames of the two kernel programs are the generated ones; the reference's frame is its generated run with the result
  dropped; the idealization's ledger is empty. For the value, the kernel's run is read with its result buffer named
  (`run_all`), that buffer's contents are walked back through the ten regions and the five host stretches to the argument
  arrays (`feat4`), the reference's composed term is split into its five layers (`res_eq_layers`), and the layers are
  identified one by one (`layer0_same` … `layer4_same`).
-/
import proofs.«402748_j42056319762602_2_alg».proof.Defs
import proofs.«402748_j42056319762602_2_alg».proof.Proof.Gen.Kernel
import proofs.«402748_j42056319762602_2_alg».proof.Proof.Gen.Kernel.Frame
import proofs.«402748_j42056319762602_2_alg».proof.Proof.Gen.KernelIdeal
import proofs.«402748_j42056319762602_2_alg».proof.Proof.Gen.KernelIdeal.Frame
import proofs.«402748_j42056319762602_2_alg».proof.Proof.Gen.ReferenceIdeal
import proofs.«402748_j42056319762602_2_alg».proof.Proof.Gen.ReferenceIdeal.Run
import proofs.«402748_j42056319762602_2_alg».proof.Proof.Gen.Pre_finite_inputs
import proofs.«402748_j42056319762602_2_alg».proof.Proof.KRun
import proofs.«402748_j42056319762602_2_alg».proof.Proof.KChain
import proofs.«402748_j42056319762602_2_alg».proof.Proof.PreIdx
import proofs.«402748_j42056319762602_2_alg».proof.Proof.RefChain
import proofs.«402748_j42056319762602_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result buffer at the five layers composed over the argument arrays. -/
theorem algebraic : Cert.algebraic_KernelIdeal_ReferenceIdeal := by
  intro m ρ m' ρ' hpre hagree
  refine ⟨fun c => (Cert.KernelIdeal.Val.klayer4 (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.KernelIdeal.Val.klayer3 (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.KernelIdeal.Val.klayer2 (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.KernelIdeal.Val.klayer1 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.KernelIdeal.Val.klayer0 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg0))))))), ?_, ?_⟩
  · exact (θ_run Cert.KernelIdeal.defs _ _).mono
      (fun r h c => ⟨(h c).1.trans (Cert.KernelIdeal.Val.feat4 m ρ c), (h c).2⟩)
      (Cert.KernelIdeal.Gen.run_all (F := Ideal) m ρ)
  · refine (θ_run Cert.ReferenceIdeal.defs _ _).mono (fun r h c => ⟨(h c).1.trans ?_, (h c).2⟩)
      (Cert.ReferenceIdeal.Value.run (F := Ideal) m' ρ')
    have hin := Cert.KernelIdeal.Val.inRange_of_pre m hpre c
    obtain ⟨a0, a1, a2, a3, a4, a5, a6, a7, a8, a9, a10, a11, a12, a13⟩ := hagree c
    rw [Cert.ReferenceIdeal.RefVal.res_eq_layers m' c, a0, a1, a2, a3, a4, a5, a6, a7, a8, a9, a10, a11, a12, a13]
    dsimp only
    rw [Cert.Proof.Bridge.layer0_same _ _ _ _ _ hin, Cert.Proof.Bridge.layer1_same _ _ _ _ _ hin,
      Cert.Proof.Bridge.layer2_same _ _ _ _ _ hin, Cert.Proof.Bridge.layer3_same _ _ _ _ _ hin,
      Cert.Proof.Bridge.layer4_same _ _ _ _ _ hin]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
